-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S1 : Shape := ⟨1, ![1]⟩
abbrev S16x16 : Shape := ⟨2, ![16, 16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S1 : S_.BroadcastsInDim S1 (![] : Fin 0 → Fin S1.rank)
  reducesTo_S1_S_d0 : S1.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2 .f32) (main_v48 : IVec S_ 1) (main_v49 : FVec F S16x2 .f32) (main_v50 : FVec F S16x2 .f32) : IVec S_ 1 :=
  let main_v51 : IVec S16x2 1 := cmpf .olt main_v49 main_v50
  let main_c_19 : IVec S_ 1 := constantI S_ 1 1#1
  let main_v52 : IVec S_ 1 := (fun x v => Host.reduce IntOp.andi x v reducesTo_S16x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S16x16 .f32) (main_arg10 : FVec F S16 .f32) (main_arg11 : FVec F S1 .f32) (main_arg12 : FVec F S16x2 .f32) (main_arg13 : FVec F S2 .f32) (main_v33 : IVec S_ 1) : IVec S_ 1 :=
  let main_v34 : FVec F S16x16 .f32 := Host.absf main_arg9
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S16x2 .f32 := Host.absf main_arg12
  let main_cst_18 : FVec F S_ .f32 := constant S_ .f32 0x7F800000#32
  let main_v50 : FVec F S16x2 .f32 := broadcastInDim S16x2 ![] bcast_S_S16x2 main_cst_18
  fn_part3 (F := F) main_arg13 main_v48 main_v49 main_v50

def fn_part1 {F : FTy → Type} [FloatOps F] (main_arg6 : FVec F S16x16 .f32) (main_arg7 : FVec F S16 .f32) (main_arg8 : FVec F S1 .f32) (main_arg9 : FVec F S16x16 .f32) (main_arg10 : FVec F S16 .f32) (main_arg11 : FVec F S1 .f32) (main_arg12 : FVec F S16x2 .f32) (main_arg13 : FVec F S2 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x3200000 32) (main_arg2 : IVec S100000 32) (main_arg3 : FVec F S128x16 .f32) (main_arg4 : FVec F S16 .f32) (main_arg5 : FVec F S1 .f32) (main_arg6 : FVec F S16x16 .f32) (main_arg7 : FVec F S16 .f32) (main_arg8 : FVec F S1 .f32) (main_arg9 : FVec F S16x16 .f32) (main_arg10 : FVec F S16 .f32) (main_arg11 : FVec F S1 .f32) (main_arg12 : FVec F S16x2 .f32) (main_arg13 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S1 : Shape := ⟨1, ![1]⟩
abbrev S16x16 : Shape := ⟨2, ![16, 16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S1x1 : Shape := ⟨2, ![1, 1]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩
abbrev S100000x1 : Shape := ⟨2, ![100000, 1]⟩
abbrev S64x3 : Shape := ⟨2, ![64, 3]⟩
abbrev S10000x1 : Shape := ⟨2, ![10000, 1]⟩
abbrev S10000x3 : Shape := ⟨2, ![10000, 3]⟩
abbrev S10000x64 : Shape := ⟨2, ![10000, 64]⟩
abbrev S64x10000 : Shape := ⟨2, ![64, 10000]⟩
abbrev S64x2 : Shape := ⟨2, ![64, 2]⟩
abbrev S64x1 : Shape := ⟨2, ![64, 1]⟩

abbrev nBuf : Space → Nat
  | .hbm => 138
  | .vmem => 32
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x16, .f32⟩
  | 4 => ⟨S16, .f32⟩
  | 5 => ⟨S1, .f32⟩
  | 6 => ⟨S16x16, .f32⟩
  | 7 => ⟨S16, .f32⟩
  | 8 => ⟨S1, .f32⟩
  | 9 => ⟨S16x16, .f32⟩
  | 10 => ⟨S16, .f32⟩
  | 11 => ⟨S1, .f32⟩
  | 12 => ⟨S16x2, .f32⟩
  | 13 => ⟨S2, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S100000x16, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x16, .f32⟩
  | 64 => ⟨S3300000x1, .f32⟩
  | 65 => ⟨S3300000x16, .f32⟩
  | 66 => ⟨S3300000x16, .f32⟩
  | 67 => ⟨S_, .f32⟩
  | 68 => ⟨S100000x16, .f32⟩
  | 69 => ⟨S3300000x1, .i32⟩
  | 70 => ⟨S100000x16, .f32⟩
  | 71 => ⟨S1x16, .f32⟩
  | 72 => ⟨S1x1, .f32⟩
  | 73 => ⟨S100000x16, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000x16, .f32⟩
  | 83 => ⟨S3300000x1, .f32⟩
  | 84 => ⟨S3300000x16, .f32⟩
  | 85 => ⟨S3300000x16, .f32⟩
  | 86 => ⟨S_, .f32⟩
  | 87 => ⟨S100000x16, .f32⟩
  | 88 => ⟨S3300000x1, .i32⟩
  | 89 => ⟨S100000x16, .f32⟩
  | 90 => ⟨S1x16, .f32⟩
  | 91 => ⟨S1x1, .f32⟩
  | 92 => ⟨S100000x16, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000x16, .f32⟩
  | 102 => ⟨S3300000x1, .f32⟩
  | 103 => ⟨S3300000x16, .f32⟩
  | 104 => ⟨S3300000x16, .f32⟩
  | 105 => ⟨S_, .f32⟩
  | 106 => ⟨S100000x16, .f32⟩
  | 107 => ⟨S3300000x1, .i32⟩
  | 108 => ⟨S100000x16, .f32⟩
  | 109 => ⟨S1x16, .f32⟩
  | 110 => ⟨S1x1, .f32⟩
  | 111 => ⟨S100000x2, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x2, .f32⟩
  | 121 => ⟨S3300000x1, .f32⟩
  | 122 => ⟨S3300000x2, .f32⟩
  | 123 => ⟨S3300000x2, .f32⟩
  | 124 => ⟨S_, .f32⟩
  | 125 => ⟨S100000x2, .f32⟩
  | 126 => ⟨S3300000x1, .i32⟩
  | 127 => ⟨S100000x2, .f32⟩
  | _ => ⟨S100000x128, .f32⟩

abbrev hbmTy0_1 (i : Nat) : BufTy := match i % 128 with
  | 0 => ⟨S1x2, .f32⟩
  | 1 => ⟨S100000x1, .i32⟩
  | 2 => ⟨S64x3, .f32⟩
  | 3 => ⟨S64x2, .f32⟩
  | 4 => ⟨S64x1, .f32⟩
  | 5 => ⟨S_, .f32⟩
  | 6 => ⟨S64x1, .f32⟩
  | 7 => ⟨S64x1, .f32⟩
  | 8 => ⟨S64x2, .f32⟩
  | 9 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S1x1, .f32⟩
  | .local _ .vmem, ⟨9, _⟩ => ⟨S16x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S1x16, .f32⟩
  | .local _ .vmem, ⟨15, _⟩ => ⟨S1x1, .f32⟩
  | .local _ .vmem, ⟨16, _⟩ => ⟨S16x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S1x16, .f32⟩
  | .local _ .vmem, ⟨22, _⟩ => ⟨S1x1, .f32⟩
  | .local _ .vmem, ⟨23, _⟩ => ⟨S16x2, .f32⟩
  | .local _ .vmem, ⟨24, _⟩ => ⟨S10000x2, .f32⟩
  | .local _ .vmem, ⟨25, _⟩ => ⟨S10000x2, .f32⟩
  | .local _ .vmem, ⟨26, _⟩ => ⟨S10000x1, .i32⟩
  | .local _ .vmem, ⟨27, _⟩ => ⟨S10000x1, .i32⟩
  | .local _ .vmem, ⟨28, _⟩ => ⟨S10000x2, .f32⟩
  | .local _ .vmem, ⟨29, _⟩ => ⟨S10000x2, .f32⟩
  | .local _ .vmem, ⟨30, _⟩ => ⟨S1x2, .f32⟩
  | .local _ .vmem, ⟨31, _⟩ => ⟨S64x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_12 : Ref sig .tc := ⟨.hbm, 93, rfl⟩
abbrev main_v63 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_15 : Ref sig .tc := ⟨.hbm, 112, rfl⟩
abbrev main_v79 : Ref sig .tc := ⟨.hbm, 113, rfl⟩
abbrev main_v80 : Ref sig .tc := ⟨.hbm, 114, rfl⟩
abbrev main_c_16 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S16x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S1_S1x1 : S1.ShapeCasts S1x1
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x16 : S1x1.Broadcasts S10000x16
  inb_S16x16_S16x16_0_0 : ∀ a, (![0, 0] : Fin 2 → Nat) a + S16x16.size a ≤ S16x16.size a
  h_S16x16 : 0 < S16x16.numel
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S100000_S100000x1 : S100000.ShapeCasts S100000x1
  inb_S64x3_S64x3_0_0 : ∀ a, (![0, 0] : Fin 2 → Nat) a + S64x3.size a ≤ S64x3.size a
  h_S64x3 : 0 < S64x3.numel
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  concatenates_S10000x2_S10000x1_S10000x3_d1 : Shape.Concatenates [S10000x2, S10000x1] S10000x3 1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  shapeCasts_S64x3_S64x3 : S64x3.ShapeCasts S64x3
  transposes_S10000x64_p1_0_S64x10000 : S10000x64.Transposes [1, 0] S64x10000
  slices_S64x3_S64x2_0_0 : S64x3.Slices ![0, 0] S64x2
  slices_S64x3_S64x1_0_2 : S64x3.Slices ![0, 2] S64x1
  bcast_S_S64x1 : S_.BroadcastsInDim S64x1 (![] : Fin 0 → Fin S64x1.rank)
  bcast_S64x1_S64x2_0_1 : S64x1.BroadcastsInDim S64x2 (![0, 1] : Fin 2 → Fin S64x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S10000x16_S16x2_S10000x2_1_0_0_1_n_n_wf : DotDims.WF S10000x16 S16x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  dot_S64x10000_S10000x3_S64x3_1_0_0_1_n_n_wf : DotDims.WF S64x10000 S10000x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x16.size a ≤ S100000x16.size a
  hwx1_4 : ∀ i : grid1.Coords, EltTy.bits .f32 = 32 ∨ (Rect.block (s := S100000x16) S10000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x16.size a ≤ S100000x16.size a
  hwx2_4 : ∀ i : grid2.Coords, EltTy.bits .f32 = 32 ∨ (Rect.block (s := S100000x16) S10000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x2.size a ≤ S16x2.size a
  hwx3_3 : ∀ i : grid3.Coords, EltTy.bits .f32 = 32 ∨ (Rect.block (s := S16x2) S16x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x2.size a ≤ S100000x2.size a
  hwx3_4 : ∀ i : grid3.Coords, EltTy.bits .f32 = 32 ∨ (Rect.block (s := S100000x2) S10000x2.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S100000x1.size a
  hwx4_0 : ∀ i : grid4.Coords, EltTy.bits .i32 = 32 ∨ (Rect.block (s := S100000x1) S10000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x2.size a ≤ S100000x2.size a
  hwx4_1 : ∀ i : grid4.Coords, EltTy.bits .f32 = 32 ∨ (Rect.block (s := S100000x2) S10000x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x3.size a ≤ S64x3.size a
  hwx4_3 : ∀ i : grid4.Coords, EltTy.bits .f32 = 32 ∨ (Rect.block (s := S64x3) S64x3.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def dot_S64x10000_S10000x3_S64x3_1_0_0_1_n_n : DotDims S64x10000 S10000x3 S64x3 where
  lhsContracting := [1]
  rhsContracting := [0]
  lhsNonContracting := [0]
  rhsNonContracting := [1]
  lhsBatch := []
  rhsBatch := []
  wf := dot_S64x10000_S10000x3_S64x3_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S10000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S10000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v75) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S16x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S10000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v93) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S10000x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v92) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S64x3.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x16 : Shape := ⟨2, ![128, 16]⟩
abbrev S16 : Shape := ⟨1, ![16]⟩
abbrev S1 : Shape := ⟨1, ![1]⟩
abbrev S16x16 : Shape := ⟨2, ![16, 16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S1x1 : Shape := ⟨2, ![1, 1]⟩
abbrev S100000x2 : Shape := ⟨2, ![100000, 2]⟩
abbrev S3300000x2 : Shape := ⟨2, ![3300000, 2]⟩
abbrev S1x2 : Shape := ⟨2, ![1, 2]⟩
abbrev S64x2 : Shape := ⟨2, ![64, 2]⟩
abbrev S100000x1 : Shape := ⟨2, ![100000, 1]⟩
abbrev S64 : Shape := ⟨1, ![64]⟩
abbrev S64x1 : Shape := ⟨2, ![64, 1]⟩

abbrev nBuf : Space → Nat
  | .hbm => 171
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x16, .f32⟩
  | 4 => ⟨S16, .f32⟩
  | 5 => ⟨S1, .f32⟩
  | 6 => ⟨S16x16, .f32⟩
  | 7 => ⟨S16, .f32⟩
  | 8 => ⟨S1, .f32⟩
  | 9 => ⟨S16x16, .f32⟩
  | 10 => ⟨S16, .f32⟩
  | 11 => ⟨S1, .f32⟩
  | 12 => ⟨S16x2, .f32⟩
  | 13 => ⟨S2, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S100000x16, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x16, .f32⟩
  | 64 => ⟨S3300000x1, .f32⟩
  | 65 => ⟨S3300000x16, .f32⟩
  | 66 => ⟨S3300000x16, .f32⟩
  | 67 => ⟨S_, .f32⟩
  | 68 => ⟨S100000x16, .f32⟩
  | 69 => ⟨S3300000x1, .i32⟩
  | 70 => ⟨S100000x16, .f32⟩
  | 71 => ⟨S1x16, .f32⟩
  | 72 => ⟨S100000x16, .f32⟩
  | 73 => ⟨S100000x16, .f32⟩
  | 74 => ⟨S_, .f32⟩
  | 75 => ⟨S100000x16, .f32⟩
  | 76 => ⟨S100000x16, .i1⟩
  | 77 => ⟨S1x1, .f32⟩
  | 78 => ⟨S100000x16, .f32⟩
  | 79 => ⟨S100000x16, .f32⟩
  | 80 => ⟨S100000x16, .f32⟩
  | 81 => ⟨S100000x16, .f32⟩
  | 82 => ⟨S_, .i32⟩
  | 83 => ⟨S3300000, .i32⟩
  | 84 => ⟨S3300000, .i1⟩
  | 85 => ⟨S_, .i32⟩
  | 86 => ⟨S3300000, .i32⟩
  | 87 => ⟨S3300000, .i32⟩
  | 88 => ⟨S3300000, .i32⟩
  | 89 => ⟨S3300000x1, .i32⟩
  | 90 => ⟨S3300000x16, .f32⟩
  | 91 => ⟨S3300000x1, .f32⟩
  | 92 => ⟨S3300000x16, .f32⟩
  | 93 => ⟨S3300000x16, .f32⟩
  | 94 => ⟨S_, .f32⟩
  | 95 => ⟨S100000x16, .f32⟩
  | 96 => ⟨S3300000x1, .i32⟩
  | 97 => ⟨S100000x16, .f32⟩
  | 98 => ⟨S1x16, .f32⟩
  | 99 => ⟨S100000x16, .f32⟩
  | 100 => ⟨S100000x16, .f32⟩
  | 101 => ⟨S_, .f32⟩
  | 102 => ⟨S100000x16, .f32⟩
  | 103 => ⟨S100000x16, .i1⟩
  | 104 => ⟨S1x1, .f32⟩
  | 105 => ⟨S100000x16, .f32⟩
  | 106 => ⟨S100000x16, .f32⟩
  | 107 => ⟨S100000x16, .f32⟩
  | 108 => ⟨S100000x16, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x16, .f32⟩
  | 118 => ⟨S3300000x1, .f32⟩
  | 119 => ⟨S3300000x16, .f32⟩
  | 120 => ⟨S3300000x16, .f32⟩
  | 121 => ⟨S_, .f32⟩
  | 122 => ⟨S100000x16, .f32⟩
  | 123 => ⟨S3300000x1, .i32⟩
  | 124 => ⟨S100000x16, .f32⟩
  | 125 => ⟨S1x16, .f32⟩
  | 126 => ⟨S100000x16, .f32⟩
  | 127 => ⟨S100000x16, .f32⟩
  | _ => ⟨S100000x128, .f32⟩

abbrev hbmTy0_1 (i : Nat) : BufTy := match i % 128 with
  | 0 => ⟨S_, .f32⟩
  | 1 => ⟨S100000x16, .f32⟩
  | 2 => ⟨S100000x16, .i1⟩
  | 3 => ⟨S1x1, .f32⟩
  | 4 => ⟨S100000x16, .f32⟩
  | 5 => ⟨S100000x16, .f32⟩
  | 6 => ⟨S100000x16, .f32⟩
  | 7 => ⟨S100000x2, .f32⟩
  | 8 => ⟨S_, .i32⟩
  | 9 => ⟨S3300000, .i32⟩
  | 10 => ⟨S3300000, .i1⟩
  | 11 => ⟨S_, .i32⟩
  | 12 => ⟨S3300000, .i32⟩
  | 13 => ⟨S3300000, .i32⟩
  | 14 => ⟨S3300000, .i32⟩
  | 15 => ⟨S3300000x1, .i32⟩
  | 16 => ⟨S3300000x2, .f32⟩
  | 17 => ⟨S3300000x1, .f32⟩
  | 18 => ⟨S3300000x2, .f32⟩
  | 19 => ⟨S3300000x2, .f32⟩
  | 20 => ⟨S_, .f32⟩
  | 21 => ⟨S100000x2, .f32⟩
  | 22 => ⟨S3300000x1, .i32⟩
  | 23 => ⟨S100000x2, .f32⟩
  | 24 => ⟨S1x2, .f32⟩
  | 25 => ⟨S100000x2, .f32⟩
  | 26 => ⟨S100000x2, .f32⟩
  | 27 => ⟨S_, .f32⟩
  | 28 => ⟨S64x2, .f32⟩
  | 29 => ⟨S100000x1, .i32⟩
  | 30 => ⟨S64x2, .f32⟩
  | 31 => ⟨S_, .f32⟩
  | 32 => ⟨S100000, .f32⟩
  | 33 => ⟨S_, .f32⟩
  | 34 => ⟨S64, .f32⟩
  | 35 => ⟨S100000x1, .i32⟩
  | 36 => ⟨S64, .f32⟩
  | 37 => ⟨S_, .f32⟩
  | 38 => ⟨S64, .f32⟩
  | 39 => ⟨S64, .f32⟩
  | 40 => ⟨S64x1, .f32⟩
  | 41 => ⟨S64x2, .f32⟩
  | 42 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_14 : Ref sig .tc := ⟨.hbm, 109, rfl⟩
abbrev main_v77 : Ref sig .tc := ⟨.hbm, 110, rfl⟩
abbrev main_v78 : Ref sig .tc := ⟨.hbm, 111, rfl⟩
abbrev main_c_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_16 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_17 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_18 : Ref sig .tc := ⟨.hbm, 136, rfl⟩
abbrev main_v100 : Ref sig .tc := ⟨.hbm, 137, rfl⟩
abbrev main_v101 : Ref sig .tc := ⟨.hbm, 138, rfl⟩
abbrev main_c_19 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_20 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_21 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_22 : Ref sig .tc := ⟨.hbm, 159, rfl⟩
abbrev main_v119 : Ref sig .tc := ⟨.hbm, 160, rfl⟩
abbrev main_cst_23 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_24 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1_S1x1_1 : S1.BroadcastsInDim S1x1 (![1] : Fin 1 → Fin S1x1.rank)
  bcast_S1x1_S100000x16_0_1 : S1x1.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S64x2 : S_.BroadcastsInDim S64x2 (![] : Fin 0 → Fin S64x2.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  scatter_S64x2_S100000x1_S100000x2_1_0_0_1_wf : ScatterDims.WF S64x2 S100000x1 S100000x2 [1] [0] [0] 1
  scatter_S64_S100000x1_S100000_n_0_0_1_wf : ScatterDims.WF S64 S100000x1 S100000 [] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/- The mathematics of the graph network, stated once over the extended reals, index by index.

   Every node feature map is a matrix with 100000 rows.  One layer is: a dense map of each row
   (`lin`, or `fused` = bias, PReLU and then the dense map), followed by the normalised
   neighbourhood sum over the edges (the same host operations in both programs, never opened
   here).  The last stage sums the rows of each graph (`pool`) and divides by the number of rows
   of that graph, at least one (`meanOf`). -/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx

/-- A matrix of extended reals with `n0` rows and `n1` columns. -/
abbrev Mat (n0 n1 : Nat) : Type := (⟨2, ![n0, n1]⟩ : Shape).Idx → EReal

/-- A column of 32-bit integers with `n0` rows. -/
abbrev ICol (n0 : Nat) : Type := (⟨2, ![n0, 1]⟩ : Shape).Idx → BitVec 32

/-- The product of a matrix by a weight matrix: entry `(r, j)` is `∑ k, x r k * w k j`. -/
def lin {R K M : Nat} (x : Mat R K) (w : Mat K M) : Mat R M :=
  fun i => ∑ k : Fin K, x (ix2 (i 0) k) * w (ix2 k (i 1))

/-- PReLU with slope `a` at one number: `z` where `z > 0` (the float compare read at the extended
    reals), `a * z` elsewhere. -/
def prelu (z a : EReal) : EReal :=
  Scalar.select (FloatOps.cmpf (F := Ideal) (φ := .f32) .ogt z 0) z (a * z)

/-- One fused layer: bias row `b` added to every row of `agg`, PReLU with the one slope `a`, then the
    product by the weight matrix `w`. -/
def fused {R K M : Nat} (agg : Mat R K) (b : Mat 1 K) (a : Mat 1 1) (w : Mat K M) : Mat R M :=
  fun i => ∑ k : Fin K, prelu (agg (ix2 (i 0) k) + b (ix2 0 k)) (a (ix2 0 0)) * w (ix2 k (i 1))

/-- The number one as the float word both programs carry. -/
def one : EReal := Ideal.ofBits .f32 0x3F800000#32

/-- Row `r` of the features with the bias added and a column of ones appended: columns 0 and 1 are
    `agg r c + b c`, column 2 is one. -/
def withOnes {R : Nat} (agg : Mat R 2) (b : Mat 1 2) (r : Fin R) (c : Fin 3) : EReal :=
  if h : c.val < 2 then agg (ix2 r ⟨c.val, h⟩) + b (ix2 0 ⟨c.val, h⟩) else one

/-- The pooled sums: entry `(g, c)` adds column `c` of `withOnes` over the rows whose graph id is the
    word `g` (a row whose id is no graph's number is in no sum).  Column 2 counts the rows of graph `g`. -/
def pool {R G : Nat} (batch : ICol R) (agg : Mat R 2) (b : Mat 1 2) : Mat G 3 :=
  fun i => ∑ r : Fin R, if batch (ix2 r 0) = BitVec.ofNat 32 (i 0).val then withOnes agg b r (i 1) else 0

/-- The mean of each graph: the two sums of a pooled row divided by its count, or by one where the
    count is smaller. -/
def meanOf {G : Nat} (p : Mat G 3) : Mat G 2 :=
  fun i => Ideal.div (p (ix2 (i 0) ⟨(i 1).val, Nat.lt_succ_of_lt (i 1).isLt⟩)) (max (p (ix2 (i 0) 2)) one)

end Cert.Spec

end
-- ==== Proof.Region0.lean ====
/- The first layer's dense map: what the first kernel region leaves in its output array, as one matrix product of the arrays it finds. -/
import proofs.«429556_j17008070492799_2_alg».proof.Proof.Gen.KernelIdeal.Frame
import proofs.«429556_j17008070492799_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-- The two zero offsets of an access to a whole block, as the constant function. -/
theorem region0_zero_offsets : (![0, 0] : Fin 2 → Nat) = fun _ => 0 := funext fun a => by fin_cases a <;> rfl

/-! ## The product of one block, entry by entry -/

/-- The left operand of the block's product is read at the output's row: its axis 0 is not contracted, -/
theorem region0_lhs_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl

/-- and at the contraction index on its axis 1. -/
theorem region0_lhs_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q

/-- The right operand is read at the contraction index on its axis 0, -/
theorem region0_rhs_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q

/-- and at the output's column: its axis 1 is not contracted. -/
theorem region0_rhs_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- What the body computes from a block of 10000 rows and the weights: entry (p, q) is the sum over k of the block at
    (p, k) times the weights at (k, q).  Narrowing either operand to sixteen bits changes nothing over the extended
    reals, and the sum starts from zero. -/
theorem region0_block_product (x0 : Vec Ideal S10000x128 .f32) (x1 : Vec Ideal S128x16 .f32) (j : S10000x16.Idx) :
    k0_pay1 (F := Ideal) x0 x1 j = ∑ k : Fin 128, x0 (ix2 (j 0) k) * x1 (ix2 k (j 1)) := by
  unfold k0_pay1
  simp only [matmul]
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx j ((contrEquiv1 dot_S10000x128_S128x16_S10000x16_1_0_0_1_n_n 128 rfl rfl).symm k) = ix2 (j 0) k := funext fun a => Fin.ext (by
    match a with
    | ⟨0, _⟩ => exact region0_lhs_0 _ _
    | ⟨1, _⟩ => exact (region0_lhs_1 _ _).trans hk)
  have er : dot_S10000x128_S128x16_S10000x16_1_0_0_1_n_n.rhsIdx j ((contrEquiv1 dot_S10000x128_S128x16_S10000x16_1_0_0_1_n_n 128 rfl rfl).symm k) = ix2 k (j 1) := funext fun a => Fin.ext (by
    match a with
    | ⟨0, _⟩ => exact (region0_rhs_0 _ _).trans hk
    | ⟨1, _⟩ => exact region0_rhs_1 _ _)
  rw [truncf_apply, truncf_apply, el, er]
  rfl

/-! ## From the ten blocks to the array -/

/-- The index maps over the grid: at point t the block of features and the block of the output are row block t (and
    the only column block); the block of weights is the whole weight matrix. -/
theorem region0_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the whole product: row p of block t of the features is row
    10000 t + p of the features, and that is also the row of the output the entry goes to. -/
theorem region0_flushed (c : Dev nD) (t : Fin cfg0.N) :
    (dat0 (F := Ideal) V c).flushed 2 t = ((cfg0.win 2).blk t).view.read (Elt Ideal) (Spec.lin (V c main_arg0) (V c main_arg3)) := by
  show (cfg0.win 2).cut (grid0.coords t) ((dat0 (F := Ideal) V c).after 2 t) = _
  rw [after0_2]
  unfold out0_2
  rw [View.canon_unit_zero region0_zero_offsets]
  simp only [View.ld_unit_zero (S := S10000x128) region0_zero_offsets, View.ld_unit_zero (S := S128x16) region0_zero_offsets]
  obtain ⟨e0, e1, e2, e3, e4, e5⟩ := region0_index_facts t
  funext j
  refine (region0_block_product (iblk0 V c 0 t) (iblk0 V c 1 t) j).trans ?_
  suffices key : ∀ (X : S100000x128.Idx → EReal) (W : S128x16.Idx → EReal),
      ∑ k : Fin 128, X (((cfg0.win 0).blk t).view.emb (ix2 (j 0) k)) * W (((cfg0.win 1).blk t).view.emb (ix2 k (j 1)))
        = ∑ k : Fin 128, X (ix2 ((((cfg0.win 2).blk t).view.emb j) 0) k) * W (ix2 k ((((cfg0.win 2).blk t).view.emb j) 1)) from
    key (V c main_arg0) (V c main_arg3)
  intro X W
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  rw [h0, h1]
  rfl

/-- An index of the output array is in point t's block exactly when each coordinate is in the block's range on its axis. -/
theorem region0_mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Row r of the output lies in the block of point r / 10000, and every point writes its block back. -/
theorem region0_covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hlt : (i 0).val / 10000 < grid0.N := by rw [N_0]; omega
  refine ⟨⟨(i 0).val / 10000, hlt⟩, flush0_2 _, ?_⟩
  rw [region0_mem_block]
  obtain ⟨-, -, -, -, e4, e5⟩ := region0_index_facts ⟨(i 0).val / 10000, hlt⟩
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 16 ≤ (i 1).val ∧ (i 1).val < win0_2.index ⟨(i 0).val / 10000, hlt⟩ (1 : Fin 2) * 16 + 16
    rw [e5]; omega

/-- After all ten row blocks, the output array of the first region is the product of the node features by the first weight matrix. -/
theorem region0_value (c : Dev nD) :
    (dat0 (F := Ideal) V c).arrAt 2 cfg0.N = Spec.lin (V c main_arg0) (V c main_arg3) :=
  (dat0 (F := Ideal) V c).arrAt_eq_of_cover 2 (Spec.lin (V c main_arg0) (V c main_arg3)) (fun t _ => region0_flushed V c t) region0_covered

end Cert.KVal

end
-- ==== Proof.Region1Aux1.lean ====
/- The fused layer on one block of rows, stated once for any number of output columns: bias, PReLU and the product by
   the weight matrix of a block of 10000 rows, index by index, and the block as rows of the whole layer. -/
import proofs.«429556_j17008070492799_2_alg».proof.Proof.Gen.KernelIdeal.Frame
import proofs.«429556_j17008070492799_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-! ## One block of rows through the fused layer -/

/-- The zero offsets, as the constant function. -/
theorem off00 : (![0, 0] : Fin 2 → Nat) = fun _ => 0 := funext fun a => by fin_cases a <;> rfl

/-- Bias and PReLU on a block of 10000 rows: the row `b` added to every row of `x`, then `z` kept where `z > 0` and
    replaced by `a * z` elsewhere, the one slope `a` spread over the block; the narrowing to the short float format
    is the identity on extended reals. -/
def actBlock (x : Vec Ideal S10000x16 .f32) (b : Vec Ideal S1x16 .f32) (a : Vec Ideal S1x1 .f32) : FVec Ideal S10000x16 .bf16 :=
  have v1 : FVec Ideal S10000x16 .f32 := shapeCast S10000x16 x shapeCasts_S10000x16_S10000x16
  have v3 : FVec Ideal S1x16 .f32 := shapeCast S1x16 b shapeCasts_S1x16_S1x16
  have v4 : FVec Ideal S10000x16 .f32 := broadcastTo S10000x16 v3 broadcasts_S1x16_S10000x16
  have v5 : FVec Ideal S10000x16 .f32 := addf v1 v4
  have v7 : FVec Ideal S1x1 .f32 := shapeCast S1x1 a shapeCasts_S1x1_S1x1
  have cst : Ideal .f32 := Scalar.ofBits .f32 0x00000000#32
  have v8 : FVec Ideal S10000x16 .f32 := broadcast S10000x16 cst
  have v9 : IVec S10000x16 1 := cmpf .ogt v5 v8
  have v10 : FVec Ideal S10000x16 .f32 := broadcastTo S10000x16 v7 broadcasts_S1x1_S10000x16
  have v11 : FVec Ideal S10000x16 .f32 := mulf v10 v5
  have v12 : FVec Ideal S10000x16 .f32 := select v9 v5 v11
  truncf .bf16 v12 bitsLt_bf16_f32

/-- The bias row spread over the block reads the bias of the column. -/
theorem bias_spread (b : Vec Ideal S1x16 .f32) (p : Fin 10000) (k : Fin 16) :
    broadcastTo S10000x16 b broadcasts_S1x16_S10000x16 (ix2 p k) = b (ix2 0 k) := by
  refine broadcastTo_apply b broadcasts_S1x16_S10000x16 (ix2 p k) (ix2 0 k) fun a => ?_
  match a with
  | ⟨0, _⟩ => rfl
  | ⟨1, _⟩ => rfl

/-- The slope spread over the block reads the one slope. -/
theorem slope_spread (a : Vec Ideal S1x1 .f32) (p : Fin 10000) (k : Fin 16) :
    broadcastTo S10000x16 a broadcasts_S1x1_S10000x16 (ix2 p k) = a (ix2 0 0) := by
  refine broadcastTo_apply a broadcasts_S1x1_S10000x16 (ix2 p k) (ix2 0 0) fun a => ?_
  match a with
  | ⟨0, _⟩ => rfl
  | ⟨1, _⟩ => rfl

/-- The activated block at row `p`, column `k`: `Spec.prelu` of the biased entry. -/
theorem actBlock_apply (x : Vec Ideal S10000x16 .f32) (b : Vec Ideal S1x16 .f32) (a : Vec Ideal S1x1 .f32)
    (p : Fin 10000) (k : Fin 16) :
    actBlock x b a (ix2 p k) = Spec.prelu (x (ix2 p k) + b (ix2 0 k)) (a (ix2 0 0)) := by
  unfold actBlock Spec.prelu
  rw [shapeCast_self, shapeCast_self, shapeCast_self]
  rw [truncf_apply, select_apply, cmpf_apply, mulf_apply, addf_apply, broadcast_apply, bias_spread, slope_spread]
  show Scalar.select (FloatOps.cmpf .ogt (x (ix2 p k) + b (ix2 0 k)) (Ideal.ofBits .f32 0x00000000#32)) _ _ = _
  rw [Ideal.ofBits_zero_f32]

/-! ## The product by the weight matrix, for any number `M` of output columns -/

/-- The dimension numbers of the plain product of a 10000×16 block by a 16×`M` weight matrix: the block's axis 1
    contracted with the weights' axis 0. -/
abbrev blockDot (M : Nat) (wf : DotDims.WF S10000x16 ⟨2, ![16, M]⟩ ⟨2, ![10000, M]⟩ [1] [0] [0] [1] [] []) :
    DotDims S10000x16 ⟨2, ![16, M]⟩ ⟨2, ![10000, M]⟩ := ⟨[1], [0], [0], [1], [], [], wf⟩

section
variable {M : Nat} (wf : DotDims.WF S10000x16 ⟨2, ![16, M]⟩ ⟨2, ![10000, M]⟩ [1] [0] [0] [1] [] [])

theorem blockDot_lhs_0 (i : (⟨2, ![10000, M]⟩ : Shape).Idx) (q : (blockDot M wf).contr.Idx) :
    ((blockDot M wf).lhsIdx i q 0).val = (i 0).val := by
  unfold DotDims.lhsIdx
  rw [dif_neg (show ¬(0 : Fin S10000x16.rank) ∈ (blockDot M wf).lhsBatch from List.not_mem_nil), dif_pos (show (0 : Fin S10000x16.rank) ∈ (blockDot M wf).lhsNonContracting from List.mem_singleton.mpr rfl)]
  rfl
theorem blockDot_lhs_1 (i : (⟨2, ![10000, M]⟩ : Shape).Idx) (q : (blockDot M wf).contr.Idx) :
    ((blockDot M wf).lhsIdx i q 1).val = (q ⟨0, Nat.one_pos⟩).val :=
  (blockDot M wf).lhsIdx_val_of_single rfl i q
theorem blockDot_rhs_0 (i : (⟨2, ![10000, M]⟩ : Shape).Idx) (q : (blockDot M wf).contr.Idx) :
    ((blockDot M wf).rhsIdx i q 0).val = (q ⟨0, Nat.one_pos⟩).val :=
  (blockDot M wf).rhsIdx_val_of_single rfl i q
theorem blockDot_rhs_1 (i : (⟨2, ![10000, M]⟩ : Shape).Idx) (q : (blockDot M wf).contr.Idx) :
    ((blockDot M wf).rhsIdx i q 1).val = (i 1).val := by
  unfold DotDims.rhsIdx
  rw [dif_neg (show ¬(1 : Fin (⟨2, ![16, M]⟩ : Shape).rank) ∈ (blockDot M wf).rhsBatch from List.not_mem_nil), dif_pos (show (1 : Fin (⟨2, ![16, M]⟩ : Shape).rank) ∈ (blockDot M wf).rhsNonContracting from List.mem_singleton.mpr rfl)]
  rfl

/-- The product into the zero accumulator, read at row `p`, column `q`: the sum over the 16 contracted columns. -/
theorem blockDot_apply {φ₁ φ₂ : FTy} (A : FVec Ideal S10000x16 φ₁) (B : FVec Ideal ⟨2, ![16, M]⟩ φ₂) (p : Fin 10000) (q : Fin M) :
    matmul (blockDot M wf) none A B (constant (F := Ideal) ⟨2, ![10000, M]⟩ .f32 0x00000000#32) (ix2 p q)
      = ∑ k : Fin 16, A (ix2 p k) * B (ix2 k q) := by
  show FloatOps.matmul _ none A B _ (ix2 p q) = _
  rw [Ideal.matmul_constant_zero_apply, ← Equiv.sum_comp (contrEquiv1 (blockDot M wf) 16 rfl rfl).symm]
  refine Finset.sum_congr rfl fun k _ => ?_
  have hk := contrEquiv1_symm_val (blockDot M wf) 16 rfl rfl k
  have el : (blockDot M wf).lhsIdx (ix2 p q) ((contrEquiv1 (blockDot M wf) 16 rfl rfl).symm k) = ix2 p k := funext fun a => Fin.ext (by
    match a with
    | ⟨0, _⟩ => exact blockDot_lhs_0 wf _ _
    | ⟨1, _⟩ => exact (blockDot_lhs_1 wf _ _).trans hk)
  have er : (blockDot M wf).rhsIdx (ix2 p q) ((contrEquiv1 (blockDot M wf) 16 rfl rfl).symm k) = ix2 k q := funext fun a => Fin.ext (by
    match a with
    | ⟨0, _⟩ => exact (blockDot_rhs_0 wf _ _).trans hk
    | ⟨1, _⟩ => exact blockDot_rhs_1 wf _ _)
  rw [el, er]

/-- What the kernel body stores for one block of rows: the activated block times the weights, both narrowed (the
    identity on extended reals), into the zero accumulator. -/
def fusedPay (x : Vec Ideal S10000x16 .f32) (b : Vec Ideal S1x16 .f32) (a : Vec Ideal S1x1 .f32)
    (W : Vec Ideal ⟨2, ![16, M]⟩ .f32) : FVec Ideal ⟨2, ![10000, M]⟩ .f32 :=
  matmul (blockDot M wf) none (actBlock x b a) (truncf .bf16 W bitsLt_bf16_f32 : FVec Ideal ⟨2, ![16, M]⟩ .bf16)
    (constant (F := Ideal) ⟨2, ![10000, M]⟩ .f32 0x00000000#32)

/-- Row `p`, column `q` of the stored block: the sum over the 16 input columns of the activated entry times the weight. -/
theorem fusedPay_apply (x : Vec Ideal S10000x16 .f32) (b : Vec Ideal S1x16 .f32) (a : Vec Ideal S1x1 .f32)
    (W : Vec Ideal ⟨2, ![16, M]⟩ .f32) (p : Fin 10000) (q : Fin M) :
    fusedPay wf x b a W (ix2 p q)
      = ∑ k : Fin 16, Spec.prelu (x (ix2 p k) + b (ix2 0 k)) (a (ix2 0 0)) * W (ix2 k q) := by
  unfold fusedPay
  rw [blockDot_apply]
  refine Finset.sum_congr rfl fun k _ => ?_
  rw [actBlock_apply, truncf_apply]
end

/-- The three kernels' stored blocks are that payload, at 16 output columns and at 2. -/
theorem k1_pay1_eq (x : Vec Ideal S10000x16 .f32) (b : Vec Ideal S1x16 .f32) (a : Vec Ideal S1x1 .f32) (W : Vec Ideal S16x16 .f32) :
    k1_pay1 (F := Ideal) x b a W = fusedPay (M := 16) dot_S10000x16_S16x16_S10000x16_1_0_0_1_n_n.wf x b a W := rfl

theorem k2_pay1_eq (x : Vec Ideal S10000x16 .f32) (b : Vec Ideal S1x16 .f32) (a : Vec Ideal S1x1 .f32) (W : Vec Ideal S16x16 .f32) :
    k2_pay1 (F := Ideal) x b a W = fusedPay (M := 16) dot_S10000x16_S16x16_S10000x16_1_0_0_1_n_n.wf x b a W := rfl
theorem k3_pay1_eq (x : Vec Ideal S10000x16 .f32) (b : Vec Ideal S1x16 .f32) (a : Vec Ideal S1x1 .f32) (W : Vec Ideal S16x2 .f32) :
    k3_pay1 (F := Ideal) x b a W = fusedPay (M := 2) dot_S10000x16_S16x2_S10000x2_1_0_0_1_n_n.wf x b a W := rfl

/-! ## A block of rows of the whole layer -/

/-- Row `p` of the block of 10000 rows number `n`, as a row of the 100000. -/
def rowAt (n : Fin 10) (p : Fin 10000) : Fin 100000 := ⟨n.val * 10000 + p.val, by have := n.isLt; have := p.isLt; omega⟩

/-- When the block `x` holds rows `n * 10000 …` of `A`, the stored block holds the same rows of `Spec.fused A b a W`. -/
theorem fusedPay_rows {M : Nat} (wf : DotDims.WF S10000x16 ⟨2, ![16, M]⟩ ⟨2, ![10000, M]⟩ [1] [0] [0] [1] [] [])
    (A : Spec.Mat 100000 16) (b : Spec.Mat 1 16) (a : Spec.Mat 1 1) (W : Spec.Mat 16 M) (n : Fin 10)
    (x : Vec Ideal S10000x16 .f32) (hx : ∀ (p : Fin 10000) (k : Fin 16), x (ix2 p k) = A (ix2 (rowAt n p) k))
    (p : Fin 10000) (q : Fin M) :
    fusedPay wf x b a W (ix2 p q) = Spec.fused A b a W (ix2 (rowAt n p) q) := by
  rw [fusedPay_apply]
  unfold Spec.fused
  refine Finset.sum_congr rfl fun k _ => ?_
  rw [hx]
  rfl

end Cert.KVal

end
-- ==== Proof.Region1.lean ====
/- The second layer's fused map: what the second kernel region leaves in its output array, as bias, PReLU and a matrix product of the arrays it finds. -/
import proofs.«429556_j17008070492799_2_alg».proof.Proof.Gen.KernelIdeal.Frame
import proofs.«429556_j17008070492799_2_alg».proof.Proof.Spec
import proofs.«429556_j17008070492799_2_alg».proof.Proof.Region1Aux1
import Idealize.ShloMosaic.Lib.Pipeline.Value

set_option maxRecDepth 16384

noncomputable section

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-! ## Region 1: from the blocks to the array -/

variable (V : (c : Dev nD) → (b : Ref sig .tc) → Buf (Elt Ideal) ((c : Thread nD τ).loc b))

/-- The block indices over the grid: the features and the result move one block of rows per point, the bias, the slope
    and the weights stay at their one block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A point of the grid as the number of its block of rows. -/
def blockNo1 (t : Fin cfg1.N) : Fin 10 := Fin.cast N_1 t

/-- The features' block at point `t` holds rows `t * 10000 …` of the features. -/
theorem iblk1_0_apply (c : Dev nD) (t : Fin cfg1.N) (p : Fin 10000) (k : Fin 16) :
    iblk1 (F := Ideal) V c 0 t (ix2 p k) = V c main_v43 (ix2 (rowAt (blockNo1 t) p) k) := by
  obtain ⟨e0, e1, -⟩ := idx1 t
  show V c main_v43 (((cfg1.win 0).blk t).view.emb (ix2 p k)) = _
  refine congrArg (V c main_v43) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 16 + 1 * k.val = k.val; rw [e1]; omega

/-- The bias block is the whole bias row at every point. -/
theorem iblk1_1_eq (c : Dev nD) (t : Fin cfg1.N) : iblk1 (F := Ideal) V c 1 t = V c main_v44 := by
  obtain ⟨-, -, e0, e1, -⟩ := idx1 t
  funext j
  show V c main_v44 (((cfg1.win 1).blk t).view.emb j) = V c main_v44 j
  refine congrArg (V c main_v44) (funext fun a => Fin.ext ?_)
  match a with
  | ⟨0, _⟩ => show win1_1.index t (0 : Fin 2) * 1 + 1 * (j 0).val = (j 0).val; rw [e0]; omega
  | ⟨1, _⟩ => show win1_1.index t (1 : Fin 2) * 16 + 1 * (j 1).val = (j 1).val; rw [e1]; omega

/-- The slope block is the whole slope at every point. -/
theorem iblk1_2_eq (c : Dev nD) (t : Fin cfg1.N) : iblk1 (F := Ideal) V c 2 t = V c main_v45 := by
  obtain ⟨-, -, -, -, e0, e1, -⟩ := idx1 t
  funext j
  show V c main_v45 (((cfg1.win 2).blk t).view.emb j) = V c main_v45 j
  refine congrArg (V c main_v45) (funext fun a => Fin.ext ?_)
  match a with
  | ⟨0, _⟩ => show win1_2.index t (0 : Fin 2) * 1 + 1 * (j 0).val = (j 0).val; rw [e0]; omega
  | ⟨1, _⟩ => show win1_2.index t (1 : Fin 2) * 1 + 1 * (j 1).val = (j 1).val; rw [e1]; omega

/-- The weights' block is the whole weight matrix at every point. -/
theorem iblk1_3_eq (c : Dev nD) (t : Fin cfg1.N) : iblk1 (F := Ideal) V c 3 t = V c main_arg6 := by
  obtain ⟨-, -, -, -, -, -, e0, e1, -⟩ := idx1 t
  funext j
  show V c main_arg6 (((cfg1.win 3).blk t).view.emb j) = V c main_arg6 j
  refine congrArg (V c main_arg6) (funext fun a => Fin.ext ?_)
  match a with
  | ⟨0, _⟩ => show win1_3.index t (0 : Fin 2) * 16 + 1 * (j 0).val = (j 0).val; rw [e0]; omega
  | ⟨1, _⟩ => show win1_3.index t (1 : Fin 2) * 16 + 1 * (j 1).val = (j 1).val; rw [e1]; omega

/-- What the body leaves in the result's buffer, from blocks that hold rows `n * 10000 …` of `A`, the bias row, the slope
    and the weights: the same rows of the layer. -/
theorem out1_4_rows (A : Spec.Mat 100000 16) (b : Spec.Mat 1 16) (a : Spec.Mat 1 1) (W : Spec.Mat 16 16) (n : Fin 10)
    (x0 : Vec Ideal S10000x16 .f32) (hx : ∀ (p : Fin 10000) (k : Fin 16), x0 (ix2 p k) = A (ix2 (rowAt n p) k))
    (x1 : Vec Ideal S1x16 .f32) (h1 : x1 = b) (x2 : Vec Ideal S1x1 .f32) (h2 : x2 = a) (x3 : Vec Ideal S16x16 .f32) (h3 : x3 = W)
    (p : Fin 10000) (q : Fin 16) :
    out1_4 (F := Ideal) x0 x1 x2 x3 (ix2 p q) = Spec.fused A b a W (ix2 (rowAt n p) q) := by
  subst h1 h2 h3
  unfold out1_4
  rw [View.canon_unit_zero off00]
  simp only [View.ld_unit_zero (S := S10000x16) off00, View.ld_unit_zero (S := S1x16) off00, View.ld_unit_zero (S := S1x1) off00,
    View.ld_unit_zero (S := S16x16) off00]
  rw [k1_pay1_eq]
  exact fusedPay_rows _ A x1 x2 x3 n x0 hx p q

/-- What point `t` writes back is block `t` of the layer of the arrays the region finds. -/
theorem flushed1_eq (c : Dev nD) (t : Fin cfg1.N) :
    (dat1 (F := Ideal) V c).flushed 4 t
      = ((cfg1.win 4).blk t).view.read (Elt Ideal) (Spec.fused (V c main_v43) (V c main_v44) (V c main_v45) (V c main_arg6)) := by
  show (cfg1.win 4).cut (grid1.coords t) ((dat1 V c).after 4 t) = _
  rw [after1_4]
  obtain ⟨-, -, -, -, -, -, -, -, e0, e1⟩ := idx1 t
  funext j
  obtain ⟨p, q, rfl⟩ : ∃ (p : Fin 10000) (q : Fin 16), j = ix2 p q := ⟨j 0, j 1, eq_ix2 j⟩
  refine (out1_4_rows (V c main_v43) (V c main_v44) (V c main_v45) (V c main_arg6) (blockNo1 t) (iblk1 V c 0 t) (iblk1_0_apply V c t)
    (iblk1 V c 1 t) (iblk1_1_eq V c t) (iblk1 V c 2 t) (iblk1_2_eq V c t) (iblk1 V c 3 t) (iblk1_3_eq V c t) p q).trans ?_
  show _ = Spec.fused (V c main_v43) (V c main_v44) (V c main_v45) (V c main_arg6) (((cfg1.win 4).blk t).view.emb (ix2 p q))
  refine congrArg (Spec.fused (V c main_v43) (V c main_v44) (V c main_v45) (V c main_arg6)) (funext fun a => Fin.ext ?_)
  match a with
  | ⟨0, _⟩ => show t.val * 10000 + p.val = win1_4.index t (0 : Fin 2) * 10000 + 1 * p.val; rw [e0]; omega
  | ⟨1, _⟩ => show q.val = win1_4.index t (1 : Fin 2) * 16 + 1 * q.val; rw [e1]; omega

/-- An index of the result is in point `t`'s block iff each coordinate is in the block's range on its axis. -/
theorem mem_blk1_4 (t : Fin cfg1.N) (i : S100000x16.Idx) :
    i ∈ ((cfg1.win 4).blk t).view.set ↔ ∀ a : Fin 2, win1_4.index t a * S10000x16.size a ≤ (i a).val ∧ (i a).val < win1_4.index t a * S10000x16.size a + S10000x16.size a := by
  show i ∈ ((View.whole main_v46).slice (win1_4.rect t)).set ↔ _
  rw [View.set_slice_whole, Rect.mem_set_unit]
  exact Iff.rfl

/-- Every row of the result is written back: row `r` at point `r / 10000`. -/
theorem rows_covered1 (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  obtain ⟨t, ht⟩ : ∃ t : Fin cfg1.N, t.val = (i 0).val / 10000 := ⟨Fin.cast N_1.symm ⟨(i 0).val / 10000, by omega⟩, rfl⟩
  obtain ⟨-, -, -, -, -, -, -, -, e0, e1⟩ := idx1 t
  refine ⟨t, flush1_4 t, ?_⟩
  rw [mem_blk1_4]
  intro a
  match a with
  | ⟨0, _⟩ => show win1_4.index t (0 : Fin 2) * 10000 ≤ (i 0).val ∧ (i 0).val < win1_4.index t (0 : Fin 2) * 10000 + 10000; rw [e0, ht]; omega
  | ⟨1, _⟩ => show win1_4.index t (1 : Fin 2) * 16 ≤ (i 1).val ∧ (i 1).val < win1_4.index t (1 : Fin 2) * 16 + 16; rw [e1]; omega

/-- After all ten row blocks, the output array of region 1 is `Spec.fused` of the aggregated features, the bias row, the slope and the weight matrix. -/
theorem region1_value (c : Dev nD) :
    (dat1 (F := Ideal) V c).arrAt 4 cfg1.N = Spec.fused (V c main_v43) (V c main_v44) (V c main_v45) (V c main_arg6) :=
  (dat1 (F := Ideal) V c).arrAt_eq_of_cover 4 _ (fun t _ => flushed1_eq V c t) rows_covered1

end Cert.KVal

end
-- ==== Proof.Region2.lean ====
/- The third layer's fused map: what the third kernel region leaves in its output array, as bias, PReLU and a matrix product of the arrays it finds. -/
import proofs.«429556_j17008070492799_2_alg».proof.Proof.Gen.KernelIdeal.Frame
import proofs.«429556_j17008070492799_2_alg».proof.Proof.Spec
import proofs.«429556_j17008070492799_2_alg».proof.Proof.Region1Aux1
import Idealize.ShloMosaic.Lib.Pipeline.Value

set_option maxRecDepth 16384

noncomputable section

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-! ## Region 2: from the blocks to the array -/

variable (V : (c : Dev nD) → (b : Ref sig .tc) → Buf (Elt Ideal) ((c : Thread nD τ).loc b))

/-- The block indices over the grid: the features and the result move one block of rows per point, the bias, the slope
    and the weights stay at their one block. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- A point of the grid as the number of its block of rows. -/
def blockNo2 (t : Fin cfg2.N) : Fin 10 := Fin.cast N_2 t

/-- The features' block at point `t` holds rows `t * 10000 …` of the features. -/
theorem iblk2_0_apply (c : Dev nD) (t : Fin cfg2.N) (p : Fin 10000) (k : Fin 16) :
    iblk2 (F := Ideal) V c 0 t (ix2 p k) = V c main_v59 (ix2 (rowAt (blockNo2 t) p) k) := by
  obtain ⟨e0, e1, -⟩ := idx2 t
  show V c main_v59 (((cfg2.win 0).blk t).view.emb (ix2 p k)) = _
  refine congrArg (V c main_v59) (funext fun a => Fin.ext ?_)
  match a with
  | ⟨0, _⟩ => show win2_0.index t (0 : Fin 2) * 10000 + 1 * p.val = t.val * 10000 + p.val; rw [e0]; omega
  | ⟨1, _⟩ => show win2_0.index t (1 : Fin 2) * 16 + 1 * k.val = k.val; rw [e1]; omega

/-- The bias block is the whole bias row at every point. -/
theorem iblk2_1_eq (c : Dev nD) (t : Fin cfg2.N) : iblk2 (F := Ideal) V c 1 t = V c main_v60 := by
  obtain ⟨-, -, e0, e1, -⟩ := idx2 t
  funext j
  show V c main_v60 (((cfg2.win 1).blk t).view.emb j) = V c main_v60 j
  refine congrArg (V c main_v60) (funext fun a => Fin.ext ?_)
  match a with
  | ⟨0, _⟩ => show win2_1.index t (0 : Fin 2) * 1 + 1 * (j 0).val = (j 0).val; rw [e0]; omega
  | ⟨1, _⟩ => show win2_1.index t (1 : Fin 2) * 16 + 1 * (j 1).val = (j 1).val; rw [e1]; omega

/-- The slope block is the whole slope at every point. -/
theorem iblk2_2_eq (c : Dev nD) (t : Fin cfg2.N) : iblk2 (F := Ideal) V c 2 t = V c main_v61 := by
  obtain ⟨-, -, -, -, e0, e1, -⟩ := idx2 t
  funext j
  show V c main_v61 (((cfg2.win 2).blk t).view.emb j) = V c main_v61 j
  refine congrArg (V c main_v61) (funext fun a => Fin.ext ?_)
  match a with
  | ⟨0, _⟩ => show win2_2.index t (0 : Fin 2) * 1 + 1 * (j 0).val = (j 0).val; rw [e0]; omega
  | ⟨1, _⟩ => show win2_2.index t (1 : Fin 2) * 1 + 1 * (j 1).val = (j 1).val; rw [e1]; omega

/-- The weights' block is the whole weight matrix at every point. -/
theorem iblk2_3_eq (c : Dev nD) (t : Fin cfg2.N) : iblk2 (F := Ideal) V c 3 t = V c main_arg9 := by
  obtain ⟨-, -, -, -, -, -, e0, e1, -⟩ := idx2 t
  funext j
  show V c main_arg9 (((cfg2.win 3).blk t).view.emb j) = V c main_arg9 j
  refine congrArg (V c main_arg9) (funext fun a => Fin.ext ?_)
  match a with
  | ⟨0, _⟩ => show win2_3.index t (0 : Fin 2) * 16 + 1 * (j 0).val = (j 0).val; rw [e0]; omega
  | ⟨1, _⟩ => show win2_3.index t (1 : Fin 2) * 16 + 1 * (j 1).val = (j 1).val; rw [e1]; omega

/-- What the body leaves in the result's buffer, from blocks that hold rows `n * 10000 …` of `A`, the bias row, the slope
    and the weights: the same rows of the layer. -/
theorem out2_4_rows (A : Spec.Mat 100000 16) (b : Spec.Mat 1 16) (a : Spec.Mat 1 1) (W : Spec.Mat 16 16) (n : Fin 10)
    (x0 : Vec Ideal S10000x16 .f32) (hx : ∀ (p : Fin 10000) (k : Fin 16), x0 (ix2 p k) = A (ix2 (rowAt n p) k))
    (x1 : Vec Ideal S1x16 .f32) (h1 : x1 = b) (x2 : Vec Ideal S1x1 .f32) (h2 : x2 = a) (x3 : Vec Ideal S16x16 .f32) (h3 : x3 = W)
    (p : Fin 10000) (q : Fin 16) :
    out2_4 (F := Ideal) x0 x1 x2 x3 (ix2 p q) = Spec.fused A b a W (ix2 (rowAt n p) q) := by
  subst h1 h2 h3
  unfold out2_4
  rw [View.canon_unit_zero off00]
  simp only [View.ld_unit_zero (S := S10000x16) off00, View.ld_unit_zero (S := S1x16) off00, View.ld_unit_zero (S := S1x1) off00,
    View.ld_unit_zero (S := S16x16) off00]
  rw [k2_pay1_eq]
  exact fusedPay_rows _ A x1 x2 x3 n x0 hx p q

/-- What point `t` writes back is block `t` of the layer of the arrays the region finds. -/
theorem flushed2_eq (c : Dev nD) (t : Fin cfg2.N) :
    (dat2 (F := Ideal) V c).flushed 4 t
      = ((cfg2.win 4).blk t).view.read (Elt Ideal) (Spec.fused (V c main_v59) (V c main_v60) (V c main_v61) (V c main_arg9)) := by
  show (cfg2.win 4).cut (grid2.coords t) ((dat2 V c).after 4 t) = _
  rw [after2_4]
  obtain ⟨-, -, -, -, -, -, -, -, e0, e1⟩ := idx2 t
  funext j
  obtain ⟨p, q, rfl⟩ : ∃ (p : Fin 10000) (q : Fin 16), j = ix2 p q := ⟨j 0, j 1, eq_ix2 j⟩
  refine (out2_4_rows (V c main_v59) (V c main_v60) (V c main_v61) (V c main_arg9) (blockNo2 t) (iblk2 V c 0 t) (iblk2_0_apply V c t)
    (iblk2 V c 1 t) (iblk2_1_eq V c t) (iblk2 V c 2 t) (iblk2_2_eq V c t) (iblk2 V c 3 t) (iblk2_3_eq V c t) p q).trans ?_
  show _ = Spec.fused (V c main_v59) (V c main_v60) (V c main_v61) (V c main_arg9) (((cfg2.win 4).blk t).view.emb (ix2 p q))
  refine congrArg (Spec.fused (V c main_v59) (V c main_v60) (V c main_v61) (V c main_arg9)) (funext fun a => Fin.ext ?_)
  match a with
  | ⟨0, _⟩ => show t.val * 10000 + p.val = win2_4.index t (0 : Fin 2) * 10000 + 1 * p.val; rw [e0]; omega
  | ⟨1, _⟩ => show q.val = win2_4.index t (1 : Fin 2) * 16 + 1 * q.val; rw [e1]; omega

/-- An index of the result is in point `t`'s block iff each coordinate is in the block's range on its axis. -/
theorem mem_blk2_4 (t : Fin cfg2.N) (i : S100000x16.Idx) :
    i ∈ ((cfg2.win 4).blk t).view.set ↔ ∀ a : Fin 2, win2_4.index t a * S10000x16.size a ≤ (i a).val ∧ (i a).val < win2_4.index t a * S10000x16.size a + S10000x16.size a := by
  show i ∈ ((View.whole main_v62).slice (win2_4.rect t)).set ↔ _
  rw [View.set_slice_whole, Rect.mem_set_unit]
  exact Iff.rfl

/-- Every row of the result is written back: row `r` at point `r / 10000`. -/
theorem rows_covered2 (i : S100000x16.Idx) :
    ∃ t : Fin cfg2.N, (cfg2.win 4).flush t = true ∧ i ∈ ((cfg2.win 4).blk t).view.set := by
  have hi0 : (i 0).val < 100000 := (i 0).isLt
  have hi1 : (i 1).val < 16 := (i 1).isLt
  obtain ⟨t, ht⟩ : ∃ t : Fin cfg2.N, t.val = (i 0).val / 10000 := ⟨Fin.cast N_2.symm ⟨(i 0).val / 10000, by omega⟩, rfl⟩
  obtain ⟨-, -, -, -, -, -, -, -, e0, e1⟩ := idx2 t
  refine ⟨t, flush2_4 t, ?_⟩
  rw [mem_blk2_4]
  intro a
  match a with
  | ⟨0, _⟩ => show win2_4.index t (0 : Fin 2) * 10000 ≤ (i 0).val ∧ (i 0).val < win2_4.index t (0 : Fin 2) * 10000 + 10000; rw [e0, ht]; omega
  | ⟨1, _⟩ => show win2_4.index t (1 : Fin 2) * 16 ≤ (i 1).val ∧ (i 1).val < win2_4.index t (1 : Fin 2) * 16 + 16; rw [e1]; omega

/-- After all ten row blocks, the output array of region 2 is `Spec.fused` of the aggregated features, the bias row, the slope and the weight matrix. -/
theorem region2_value (c : Dev nD) :
    (dat2 (F := Ideal) V c).arrAt 4 cfg2.N = Spec.fused (V c main_v59) (V c main_v60) (V c main_v61) (V c main_arg9) :=
  (dat2 (F := Ideal) V c).arrAt_eq_of_cover 4 _ (fun t _ => flushed2_eq V c t) rows_covered2

end Cert.KVal

end
-- ==== Proof.Region3.lean ====
/- The fourth layer's fused map: what the fourth kernel region leaves in its output array (two columns), as bias, PReLU and a matrix product of the arrays it finds. -/
import proofs.«429556_j17008070492799_2_alg».proof.Proof.Gen.KernelIdeal.Frame
import proofs.«429556_j17008070492799_2_alg».proof.Proof.Spec
import proofs.«429556_j17008070492799_2_alg».proof.Proof.Region1Aux1
import Idealize.ShloMosaic.Lib.Pipeline.Value

set_option maxRecDepth 16384

noncomputable section

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-! ## Region 3: from the blocks to the array -/

variable (V : (c : Dev nD) → (b : Ref sig .tc) → Buf (Elt Ideal) ((c : Thread nD τ).loc b))

/-- The block indices over the grid: the features and the result move one block of rows per point, the bias, the slope
    and the weights stay at their one block. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- A point of the grid as the number of its block of rows. -/
def blockNo3 (t : Fin cfg3.N) : Fin 10 := Fin.cast N_3 t

/-- The features' block at point `t` holds rows `t * 10000 …` of the features. -/
theorem iblk3_0_apply (c : Dev nD) (t : Fin cfg3.N) (p : Fin 10000) (k : Fin 16) :
    iblk3 (F := Ideal) V c 0 t (ix2 p k) = V c main_v75 (ix2 (rowAt (blockNo3 t) p) k) := by
  obtain ⟨e0, e1, -⟩ := idx3 t
  show V c main_v75 (((cfg3.win 0).blk t).view.emb (ix2 p k)) = _
  refine congrArg (V c main_v75) (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 16 + 1 * k.val = k.val; rw [e1]; omega

/-- The bias block is the whole bias row at every point. -/
theorem iblk3_1_eq (c : Dev nD) (t : Fin cfg3.N) : iblk3 (F := Ideal) V c 1 t = V c main_v76 := by
  obtain ⟨-, -, e0, e1, -⟩ := idx3 t
  funext j
  show V c main_v76 (((cfg3.win 1).blk t).view.emb j) = V c main_v76 j
  refine congrArg (V c main_v76) (funext fun a => Fin.ext ?_)
  match a with
  | ⟨0, _⟩ => show win3_1.index t (0 : Fin 2) * 1 + 1 * (j 0).val = (j 0).val; rw [e0]; omega
  | ⟨1, _⟩ => show win3_1.index t (1 : Fin 2) * 16 + 1 * (j 1).val = (j 1).val; rw [e1]; omega

/-- The slope block is the whole slope at every point. -/
theorem iblk3_2_eq (c : Dev nD) (t : Fin cfg3.N) : iblk3 (F := Ideal) V c 2 t = V c main_v77 := by
  obtain ⟨-, -, -, -, e0, e1, -⟩ := idx3 t
  funext j
  show V c main_v77 (((cfg3.win 2).blk t).view.emb j) = V c main_v77 j
  refine congrArg (V c main_v77) (funext fun a => Fin.ext ?_)
  match a with
  | ⟨0, _⟩ => show win3_2.index t (0 : Fin 2) * 1 + 1 * (j 0).val = (j 0).val; rw [e0]; omega
  | ⟨1, _⟩ => show win3_2.index t (1 : Fin 2) * 1 + 1 * (j 1).val = (j 1).val; rw [e1]; omega

/-- The weights' block is the whole weight matrix at every point. -/
theorem iblk3_3_eq (c : Dev nD) (t : Fin cfg3.N) : iblk3 (F := Ideal) V c 3 t = V c main_arg12 := by
  obtain ⟨-, -, -, -, -, -, e0, e1, -⟩ := idx3 t
  funext j
  show V c main_arg12 (((cfg3.win 3).blk t).view.emb j) = V c main_arg12 j
  refine congrArg (V c main_arg12) (funext fun a => Fin.ext ?_)
  match a with
  | ⟨0, _⟩ => show win3_3.index t (0 : Fin 2) * 16 + 1 * (j 0).val = (j 0).val; rw [e0]; omega
  | ⟨1, _⟩ => show win3_3.index t (1 : Fin 2) * 2 + 1 * (j 1).val = (j 1).val; rw [e1]; omega

/-- What the body leaves in the result's buffer, from blocks that hold rows `n * 10000 …` of `A`, the bias row, the slope
    and the weights: the same rows of the layer. -/
theorem out3_4_rows (A : Spec.Mat 100000 16) (b : Spec.Mat 1 16) (a : Spec.Mat 1 1) (W : Spec.Mat 16 2) (n : Fin 10)
    (x0 : Vec Ideal S10000x16 .f32) (hx : ∀ (p : Fin 10000) (k : Fin 16), x0 (ix2 p k) = A (ix2 (rowAt n p) k))
    (x1 : Vec Ideal S1x16 .f32) (h1 : x1 = b) (x2 : Vec Ideal S1x1 .f32) (h2 : x2 = a) (x3 : Vec Ideal S16x2 .f32) (h3 : x3 = W)
    (p : Fin 10000) (q : Fin 2) :
    out3_4 (F := Ideal) x0 x1 x2 x3 (ix2 p q) = Spec.fused A b a W (ix2 (rowAt n p) q) := by
  subst h1 h2 h3
  unfold out3_4
  rw [View.canon_unit_zero off00]
  simp only [View.ld_unit_zero (S := S10000x16) off00, View.ld_unit_zero (S := S1x16) off00, View.ld_unit_zero (S := S1x1) off00,
    View.ld_unit_zero (S := S16x2) off00]
  rw [k3_pay1_eq]
  exact fusedPay_rows _ A x1 x2 x3 n x0 hx p q

/-- What point `t` writes back is block `t` of the layer of the arrays the region finds. -/
theorem flushed3_eq (c : Dev nD) (t : Fin cfg3.N) :
    (dat3 (F := Ideal) V c).flushed 4 t
      = ((cfg3.win 4).blk t).view.read (Elt Ideal) (Spec.fused (V c main_v75) (V c main_v76) (V c main_v77) (V c main_arg12)) := by
  show (cfg3.win 4).cut (grid3.coords t) ((dat3 V c).after 4 t) = _
  rw [after3_4]
  obtain ⟨-, -, -, -, -, -, -, -, e0, e1⟩ := idx3 t
  funext j
  obtain ⟨p, q, rfl⟩ : ∃ (p : Fin 10000) (q : Fin 2), j = ix2 p q := ⟨j 0, j 1, eq_ix2 j⟩
  refine (out3_4_rows (V c main_v75) (V c main_v76) (V c main_v77) (V c main_arg12) (blockNo3 t) (iblk3 V c 0 t) (iblk3_0_apply V c t)
    (iblk3 V c 1 t) (iblk3_1_eq V c t) (iblk3 V c 2 t) (iblk3_2_eq V c t) (iblk3 V c 3 t) (iblk3_3_eq V c t) p q).trans ?_
  show _ = Spec.fused (V c main_v75) (V c main_v76) (V c main_v77) (V c main_arg12) (((cfg3.win 4).blk t).view.emb (ix2 p q))
  refine congrArg (Spec.fused (V c main_v75) (V c main_v76) (V c main_v77) (V c main_arg12)) (funext fun a => Fin.ext ?_)
  match a with
  | ⟨0, _⟩ => show t.val * 10000 + p.val = win3_4.index t (0 : Fin 2) * 10000 + 1 * p.val; rw [e0]; omega
  | ⟨1, _⟩ => show q.val = win3_4.index t (1 : Fin 2) * 2 + 1 * q.val; rw [e1]; omega

/-- An index of the result is in point `t`'s block iff each coordinate is in the block's range on its axis. -/
theorem mem_blk3_4 (t : Fin cfg3.N) (i : S100000x2.Idx) :
    i ∈ ((cfg3.win 4).blk t).view.set ↔ ∀ a : Fin 2, win3_4.index t a * S10000x2.size a ≤ (i a).val ∧ (i a).val < win3_4.index t a * S10000x2.size a + S10000x2.size a := by
  show i ∈ ((View.whole main_v78).slice (win3_4.rect t)).set ↔ _
  rw [View.set_slice_whole, Rect.mem_set_unit]
  exact Iff.rfl

/-- Every row of the result is written back: row `r` at point `r / 10000`. -/
theorem rows_covered3 (i : S100000x2.Idx) :
    ∃ t : Fin cfg3.N, (cfg3.win 4).flush t = true ∧ i ∈ ((cfg3.win 4).blk t).view.set := by
  have hi0 : (i 0).val < 100000 := (i 0).isLt
  have hi1 : (i 1).val < 2 := (i 1).isLt
  obtain ⟨t, ht⟩ : ∃ t : Fin cfg3.N, t.val = (i 0).val / 10000 := ⟨Fin.cast N_3.symm ⟨(i 0).val / 10000, by omega⟩, rfl⟩
  obtain ⟨-, -, -, -, -, -, -, -, e0, e1⟩ := idx3 t
  refine ⟨t, flush3_4 t, ?_⟩
  rw [mem_blk3_4]
  intro a
  match a with
  | ⟨0, _⟩ => show win3_4.index t (0 : Fin 2) * 10000 ≤ (i 0).val ∧ (i 0).val < win3_4.index t (0 : Fin 2) * 10000 + 10000; rw [e0, ht]; omega
  | ⟨1, _⟩ => show win3_4.index t (1 : Fin 2) * 2 ≤ (i 1).val ∧ (i 1).val < win3_4.index t (1 : Fin 2) * 2 + 2; rw [e1]; omega

/-- After all ten row blocks, the output array of region 3 is `Spec.fused` of the aggregated features, the bias row, the slope and the weight matrix. -/
theorem region3_value (c : Dev nD) :
    (dat3 (F := Ideal) V c).arrAt 4 cfg3.N = Spec.fused (V c main_v75) (V c main_v76) (V c main_v77) (V c main_arg12) :=
  (dat3 (F := Ideal) V c).arrAt_eq_of_cover 4 _ (fun t _ => flushed3_eq V c t) rows_covered3

end Cert.KVal

end
-- ==== Proof.Region4.lean ====
/- The pooling region: the output block is carried over the ten row blocks, reset at the first and added to at each; after the last it holds, for every graph, the sums of its rows and their count. -/
import proofs.«429556_j17008070492799_2_alg».proof.Proof.Gen.KernelIdeal.Frame
import proofs.«429556_j17008070492799_2_alg».proof.Proof.Spec
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

namespace Cert.KVal

open Cert.KernelIdeal Cert.KernelIdeal.Gen Idealize.ShloMosaic Idealize.ShloMosaic.TcCoe Idealize.SL.Sem
open Idealize.ShloMosaic.Pipeline (Dat)
open Idealize.ShloMosaic.ValueIdx

/-! ## One point's arithmetic, read at an index over the extended reals -/

/-- The mask entry: the equality test of two words, widened and converted, is one where they are equal and zero elsewhere. -/
theorem mask_val (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · have e : (IntOp.cmpi .eq a b).setWidth 32 = 1#32 := by subst h; simp [IntOp.cmpi]
    rw [e, if_pos h]; simp
  · have hb : (a == b) = false := beq_eq_false_iff_ne.mpr h
    have e : (IntOp.cmpi .eq a b).setWidth 32 = 0#32 := by simp [IntOp.cmpi, hb]
    rw [e, if_neg h]; simp

/-- The rows of a block with the bias added and the column of ones appended. -/
def Haug (x1 : Vec Ideal S10000x2 .f32) (x2 : Vec Ideal S1x2 .f32) : FVec Ideal S10000x3 .bf16 :=
  truncf .bf16 (concatenate S10000x3 1 [⟨S10000x2, addf (shapeCast S10000x2 x1 shapeCasts_S10000x2_S10000x2)
      (broadcastTo S10000x2 (shapeCast S1x2 x2 shapeCasts_S1x2_S1x2) broadcasts_S1x2_S10000x2)⟩,
    ⟨S10000x1, broadcast S10000x1 (Scalar.ofBits (F := Ideal) .f32 0x3F800000#32)⟩] concatenates_S10000x2_S10000x1_S10000x3_d1) bitsLt_bf16_f32

/-- The transposed membership mask of a block: entry (g, r) tests row r's graph id against g. -/
def MaskT (x0 : Vec Ideal S10000x1 .i32) : FVec Ideal S64x10000 .bf16 :=
  transpose S64x10000 [1, 0] (truncf .bf16 (sitofp .f32 (extui 32 (cmpi .eq
    (broadcastTo S10000x64 (shapeCast S10000x1 x0 shapeCasts_S10000x1_S10000x1) broadcasts_S10000x1_S10000x64)
    (iota .tc S10000x64 32 [1] iota_S10000x64_d1_w32)) natLt_1_32)) bitsLt_bf16_f32) transposes_S10000x64_p1_0_S64x10000

theorem Haug_apply (x1 : Vec Ideal S10000x2 .f32) (x2 : Vec Ideal S1x2 .f32) (r : Fin 10000) (cc : Fin 3) :
    Haug x1 x2 (ix2 r cc) = if h : cc.val < 2 then x1 (ix2 r ⟨cc.val, h⟩) + x2 (ix2 0 ⟨cc.val, h⟩) else Spec.one := by
  unfold Haug
  rw [truncf_apply]
  by_cases h : cc.val < 2
  · rw [dif_pos h]
    refine (concatenate_pair_apply_left (1 : Fin S10000x3.rank) _ _ concatenates_S10000x2_S10000x1_S10000x3_d1 (ix2 r cc) rfl
      (ix2 r ⟨cc.val, h⟩) (fun b => match b with | ⟨0, _⟩ => rfl | ⟨1, _⟩ => rfl)).trans ?_
    rw [addf_apply, shapeCast_self, shapeCast_self]
    refine congrArg (x1 (ix2 r ⟨cc.val, h⟩) + ·) ?_
    refine broadcastTo_apply x2 broadcasts_S1x2_S10000x2 (ix2 r ⟨cc.val, h⟩) (ix2 0 ⟨cc.val, h⟩) (fun a => match a with
      | ⟨0, _⟩ => by show (0 : Nat) = if (1 : Nat) = 1 then 0 else _; rw [if_pos rfl]
      | ⟨1, _⟩ => by show cc.val = if (2 : Nat) = 1 then 0 else cc.val; rw [if_neg (by decide)])
  · rw [dif_neg h]
    have h2 : cc.val = 2 := by have := cc.isLt; omega
    refine (concatenate_pair_apply_right (1 : Fin S10000x3.rank) _ _ concatenates_S10000x2_S10000x1_S10000x3_d1 (ix2 r cc) rfl rfl
      (ix2 r 0) (fun b => match b with | ⟨0, _⟩ => fun _ => rfl | ⟨1, _⟩ => fun hne => absurd rfl hne) (by
        show (0 : Nat) + 2 = cc.val; omega)).trans ?_
    rfl

theorem MaskT_apply (x0 : Vec Ideal S10000x1 .i32) (g : Fin 64) (r : Fin 10000) :
    MaskT x0 (ix2 g r) = if x0 (ix2 r 0) = BitVec.ofNat 32 g.val then (1 : EReal) else 0 := by
  unfold MaskT
  refine (transpose_apply [1, 0] _ transposes_S10000x64_p1_0_S64x10000 (ix2 g r) (ix2 r g)
    (fun b => match b with | ⟨0, _⟩ => rfl | ⟨1, _⟩ => rfl)).trans ?_
  have e1 : broadcastTo S10000x64 (shapeCast S10000x1 x0 shapeCasts_S10000x1_S10000x1) broadcasts_S10000x1_S10000x64 (ix2 r g)
      = x0 (ix2 r 0) :=
    (broadcastTo_apply _ broadcasts_S10000x1_S10000x64 (ix2 r g) (ix2 r 0) (fun a => match a with
      | ⟨0, _⟩ => by show r.val = if (10000 : Nat) = 1 then 0 else r.val; rw [if_neg (by decide)]
      | ⟨1, _⟩ => by show (0 : Nat) = if (1 : Nat) = 1 then 0 else _; rw [if_pos rfl])).trans
      (congrFun (shapeCast_self x0 shapeCasts_S10000x1_S10000x1) _)
  have e2 : iota .tc S10000x64 32 [1] iota_S10000x64_d1_w32 (ix2 r g) = BitVec.ofNat 32 g.val :=
    iota_single_apply .tc S10000x64 32 1 iota_S10000x64_d1_w32 (ix2 r g)
  show FloatOps.sitofp (F := Ideal) .f32 ((IntOp.cmpi .eq
      (broadcastTo S10000x64 (shapeCast S10000x1 x0 shapeCasts_S10000x1_S10000x1) broadcasts_S10000x1_S10000x64 (ix2 r g))
      (iota .tc S10000x64 32 [1] iota_S10000x64_d1_w32 (ix2 r g))).setWidth 32) = _
  rw [e1, e2]
  exact mask_val _ _

theorem lhs4_0 (i : S64x3.Idx) (q : dot_S64x10000_S10000x3_S64x3_1_0_0_1_n_n.contr.Idx) :
    (dot_S64x10000_S10000x3_S64x3_1_0_0_1_n_n.lhsIdx i q 0).val = (i 0).val := by
  unfold DotDims.lhsIdx
  rw [dif_neg (show ¬(0 : Fin S64x10000.rank) ∈ dot_S64x10000_S10000x3_S64x3_1_0_0_1_n_n.lhsBatch by decide),
    dif_pos (show (0 : Fin S64x10000.rank) ∈ dot_S64x10000_S10000x3_S64x3_1_0_0_1_n_n.lhsNonContracting by decide)]
  rfl
theorem lhs4_1 (i : S64x3.Idx) (q : dot_S64x10000_S10000x3_S64x3_1_0_0_1_n_n.contr.Idx) :
    (dot_S64x10000_S10000x3_S64x3_1_0_0_1_n_n.lhsIdx i q 1).val = (q ⟨0, by decide⟩).val :=
  dot_S64x10000_S10000x3_S64x3_1_0_0_1_n_n.lhsIdx_val_of_single rfl i q
theorem rhs4_0 (i : S64x3.Idx) (q : dot_S64x10000_S10000x3_S64x3_1_0_0_1_n_n.contr.Idx) :
    (dot_S64x10000_S10000x3_S64x3_1_0_0_1_n_n.rhsIdx i q 0).val = (q ⟨0, by decide⟩).val :=
  dot_S64x10000_S10000x3_S64x3_1_0_0_1_n_n.rhsIdx_val_of_single rfl i q
theorem rhs4_1 (i : S64x3.Idx) (q : dot_S64x10000_S10000x3_S64x3_1_0_0_1_n_n.contr.Idx) :
    (dot_S64x10000_S10000x3_S64x3_1_0_0_1_n_n.rhsIdx i q 1).val = (i 1).val := by
  unfold DotDims.rhsIdx
  rw [dif_neg (show ¬(1 : Fin S10000x3.rank) ∈ dot_S64x10000_S10000x3_S64x3_1_0_0_1_n_n.rhsBatch by decide),
    dif_pos (show (1 : Fin S10000x3.rank) ∈ dot_S64x10000_S10000x3_S64x3_1_0_0_1_n_n.rhsNonContracting by decide)]
  rfl

/-- The product into the zero block, at an entry: the sum over the block's rows. -/
theorem pool_dot (L : FVec Ideal S64x10000 .bf16) (R : FVec Ideal S10000x3 .bf16) (g : Fin 64) (cc : Fin 3) :
    matmul dot_S64x10000_S10000x3_S64x3_1_0_0_1_n_n none L R (constant (F := Ideal) S64x3 .f32 0x00000000#32) (ix2 g cc)
      = ∑ r : Fin 10000, L (ix2 g r) * R (ix2 r cc) := by
  simp only [matmul]
  rw [Ideal.matmul_constant_zero_apply,
    ← Equiv.sum_comp (ValueIdx.contrEquiv1 dot_S64x10000_S10000x3_S64x3_1_0_0_1_n_n 10000 rfl rfl).symm]
  refine Finset.sum_congr rfl fun k _ => ?_
  have hk := ValueIdx.contrEquiv1_symm_val dot_S64x10000_S10000x3_S64x3_1_0_0_1_n_n 10000 rfl rfl k
  have el : dot_S64x10000_S10000x3_S64x3_1_0_0_1_n_n.lhsIdx (ix2 g cc)
      ((ValueIdx.contrEquiv1 dot_S64x10000_S10000x3_S64x3_1_0_0_1_n_n 10000 rfl rfl).symm k) = ix2 g k :=
    funext fun a => Fin.ext (by
      match a with
      | ⟨0, _⟩ => exact lhs4_0 _ _
      | ⟨1, _⟩ => exact (lhs4_1 _ _).trans hk)
  have er : dot_S64x10000_S10000x3_S64x3_1_0_0_1_n_n.rhsIdx (ix2 g cc)
      ((ValueIdx.contrEquiv1 dot_S64x10000_S10000x3_S64x3_1_0_0_1_n_n 10000 rfl rfl).symm k) = ix2 k cc :=
    funext fun a => Fin.ext (by
      match a with
      | ⟨0, _⟩ => exact (rhs4_0 _ _).trans hk
      | ⟨1, _⟩ => exact rhs4_1 _ _)
  rw [el, er]

/-- One row's contribution to entry (g, cc): the row of `withOnes` where the row's graph id is `g`, zero elsewhere. -/
def rowTerm (x0 : Vec Ideal S10000x1 .i32) (x1 : Vec Ideal S10000x2 .f32) (x2 : Vec Ideal S1x2 .f32) (g : Fin 64) (cc : Fin 3)
    (r : Fin 10000) : EReal :=
  if x0 (ix2 r 0) = BitVec.ofNat 32 g.val then
    (if h : cc.val < 2 then x1 (ix2 r ⟨cc.val, h⟩) + x2 (ix2 0 ⟨cc.val, h⟩) else Spec.one) else 0

theorem pay2_eq (x1 : Vec Ideal S10000x2 .f32) (x2 : Vec Ideal S1x2 .f32) (x0 : Vec Ideal S10000x1 .i32) (xo : Vec Ideal S64x3 .f32) :
    k4_pay2 (F := Ideal) x1 x2 x0 xo = addf (shapeCast S64x3 xo shapeCasts_S64x3_S64x3)
      (matmul dot_S64x10000_S10000x3_S64x3_1_0_0_1_n_n none (MaskT x0) (Haug x1 x2) (constant (F := Ideal) S64x3 .f32 0x00000000#32)) := rfl

/-- What one point adds: the payload at entry (g, cc) is what the block held there plus the rows' contributions. -/
theorem pay2_apply (x1 : Vec Ideal S10000x2 .f32) (x2 : Vec Ideal S1x2 .f32) (x0 : Vec Ideal S10000x1 .i32) (xo : Vec Ideal S64x3 .f32)
    (g : Fin 64) (cc : Fin 3) :
    k4_pay2 (F := Ideal) x1 x2 x0 xo (ix2 g cc) = xo (ix2 g cc) + ∑ r : Fin 10000, rowTerm x0 x1 x2 g cc r := by
  rw [pay2_eq, addf_apply, shapeCast_self, pool_dot]
  refine congrArg (xo (ix2 g cc) + ·) (Finset.sum_congr rfl fun r _ => ?_)
  rw [MaskT_apply, Haug_apply]
  unfold rowTerm
  by_cases h : x0 (ix2 r 0) = BitVec.ofNat 32 g.val
  · rw [if_pos h, if_pos h, one_mul]
  · rw [if_neg h, if_neg h, zero_mul]

/-- The reset block is zero everywhere. -/
theorem pay1_apply (i : S64x3.Idx) : k4_pay1 (F := Ideal) i = 0 := by
  show Ideal.ofBits .f32 0x00000000#32 = 0
  exact Ideal.ofBits_zero_f32

/-! ## What each control case leaves in the output block -/

section pieces
variable {F : FTy → Type} [FloatOps F]

theorem zero2 : (![0, 0] : Fin 2 → Nat) = fun _ => 0 := funext fun a => by fin_cases a <;> rfl

/-- Away from the first point the body's one store leaves the sum of the block as it was and the point's product. -/
theorem out4B (c : Dev nD) (i : grid4.Coords) (a1 : Memref sig .tc .vmem S10000x1 .i32) (h1 : a1.IsWhole)
    (a2 : Memref sig .tc .vmem S10000x2 .f32) (h2 : a2.IsWhole) (a3 : Memref sig .tc .vmem S1x2 .f32) (h3 : a3.IsWhole)
    (a4 : Memref sig .tc .vmem S64x3 .f32) (h4 : a4.IsWhole) (hc : ¬cond4_0 i)
    (x0 : Vec F S10000x1 .i32) (x1 : Vec F S10000x2 .f32) (x2 : Vec F S1x2 .f32) (xo : Vec F S64x3 .f32) :
    out4_B_3 c i a1 h1 a2 h2 a3 h3 a4 h4 hc x0 x1 x2 xo = k4_pay2 x1 x2 x0 xo := by
  unfold out4_B_3
  rw [View.read_writes_eq_canon _ _ _ (cover4_B_3 c i a1 h1 a2 h2 a3 h3 a4 h4 hc x0 x1 x2 xo)]
  unfold kernelRun4_B
  dsimp only
  sl_unfold_words
  rw [View.canon_unit_zero (S := S64x3) zero2]
  simp only [View.readAt_eq_ld, h1.read_unread, h2.read_unread, h3.read_unread, h4.read_unread,
    View.ld_unit_zero (S := S10000x1) zero2, View.ld_unit_zero (S := S10000x2) zero2, View.ld_unit_zero (S := S1x2) zero2,
    View.ld_unit_zero (S := S64x3) zero2]

/-- At the first point the block is reset first, so the later store adds the point's product to the zero block. -/
theorem out4A (c : Dev nD) (i : grid4.Coords) (a1 : Memref sig .tc .vmem S10000x1 .i32) (h1 : a1.IsWhole)
    (a2 : Memref sig .tc .vmem S10000x2 .f32) (h2 : a2.IsWhole) (a3 : Memref sig .tc .vmem S1x2 .f32) (h3 : a3.IsWhole)
    (a4 : Memref sig .tc .vmem S64x3 .f32) (h4 : a4.IsWhole) (hc : cond4_0 i)
    (x0 : Vec F S10000x1 .i32) (x1 : Vec F S10000x2 .f32) (x2 : Vec F S1x2 .f32) :
    out4_A_3 c i a1 h1 a2 h2 a3 h3 a4 h4 hc x0 x1 x2 = k4_pay2 x1 x2 x0 k4_pay1 := by
  unfold out4_A_3
  rw [View.read_writes_eq_canon _ _ _ (cover4_A_3 c i a1 h1 a2 h2 a3 h3 a4 h4 hc x0 x1 x2)]
  unfold kernelRun4_A
  dsimp only
  sl_unfold_words
  rw [View.canon_cons_unit_zero (S := S64x3) zero2, View.readCov_unit_zero (S := S64x3) _ zero2]
  simp only [View.readAt_eq_ld, h1.read_unread, h2.read_unread, h3.read_unread,
    View.ld_unit_zero (S := S10000x1) zero2, View.ld_unit_zero (S := S10000x2) zero2, View.ld_unit_zero (S := S1x2) zero2]

end pieces

/-! ## The blocks the points read, and the running sum -/

variable (V : (c : Dev nD) → (b : Ref sig .tc) → Buf (Elt Ideal) ((c : Thread nD τ).loc b))

/-- The three arrays the region reads, at their literal types. -/
abbrev gidArr (c : Dev nD) : Vec Ideal S100000x1 .i32 := V c main_v93
abbrev featArr (c : Dev nD) : Vec Ideal S100000x2 .f32 := V c main_v91
abbrev biasArr (c : Dev nD) : Vec Ideal S1x2 .f32 := V c main_v92
/-- The blocks point `t` reads of them, at their literal types. -/
abbrev gidBlk (c : Dev nD) (t : Fin cfg4.N) : Vec Ideal S10000x1 .i32 := iblk4 V c 0 t
abbrev featBlk (c : Dev nD) (t : Fin cfg4.N) : Vec Ideal S10000x2 .f32 := iblk4 V c 1 t
abbrev biasBlk (c : Dev nD) (t : Fin cfg4.N) : Vec Ideal S1x2 .f32 := iblk4 V c 2 t

theorem row_lt (t : Fin cfg4.N) (r : Fin 10000) : t.val * 10000 + r.val < 100000 := by
  have hN : t.val < 10 := lt_of_lt_of_eq t.isLt (show cfg4.N = 10 from N_4)
  have := r.isLt
  omega

/-- Row `r` of the graph-id block at point `t` is row `10000 t + r` of the array. -/
theorem gidBlk_apply (c : Dev nD) (t : Fin cfg4.N) (r : Fin 10000) :
    gidBlk V c t (ix2 r 0) = gidArr V c (ix2 ⟨t.val * 10000 + r.val, row_lt t r⟩ 0) := by
  have hi : win4_0.index t 0 = t.val ∧ win4_0.index t 1 = 0 :=
    (by decide +kernel : ∀ t : Fin grid4.N, win4_0.index t 0 = t.val ∧ win4_0.index t 1 = 0) t
  unfold gidBlk iblk4
  rw [View.read_apply]
  show V c main_v93 _ = V c main_v93 _
  congr 1
  funext a
  apply Fin.ext
  match a with
  | ⟨0, _⟩ => show win4_0.index t 0 * 10000 + 1 * r.val = t.val * 10000 + r.val; rw [hi.1]; omega
  | ⟨1, _⟩ => show win4_0.index t 1 * 1 + 1 * 0 = 0; rw [hi.2]

/-- Row `r` of the feature block at point `t` is row `10000 t + r` of the array. -/
theorem featBlk_apply (c : Dev nD) (t : Fin cfg4.N) (r : Fin 10000) (k : Fin 2) :
    featBlk V c t (ix2 r k) = featArr V c (ix2 ⟨t.val * 10000 + r.val, row_lt t r⟩ k) := by
  have hi : win4_1.index t 0 = t.val ∧ win4_1.index t 1 = 0 :=
    (by decide +kernel : ∀ t : Fin grid4.N, win4_1.index t 0 = t.val ∧ win4_1.index t 1 = 0) t
  unfold featBlk iblk4
  rw [View.read_apply]
  show V c main_v91 _ = V c main_v91 _
  congr 1
  funext a
  apply Fin.ext
  match a with
  | ⟨0, _⟩ => show win4_1.index t 0 * 10000 + 1 * r.val = t.val * 10000 + r.val; rw [hi.1]; omega
  | ⟨1, _⟩ => show win4_1.index t 1 * 2 + 1 * k.val = k.val; rw [hi.2]; omega

/-- The bias block is the whole bias row at every point. -/
theorem biasBlk_apply (c : Dev nD) (t : Fin cfg4.N) (k : Fin 2) :
    biasBlk V c t (ix2 0 k) = biasArr V c (ix2 0 k) := by
  have hi : win4_2.index t 0 = 0 ∧ win4_2.index t 1 = 0 :=
    (by decide +kernel : ∀ t : Fin grid4.N, win4_2.index t 0 = 0 ∧ win4_2.index t 1 = 0) t
  unfold biasBlk iblk4
  rw [View.read_apply]
  show V c main_v92 _ = V c main_v92 _
  congr 1
  funext a
  apply Fin.ext
  match a with
  | ⟨0, _⟩ => show win4_2.index t 0 * 1 + 1 * 0 = 0; rw [hi.1]
  | ⟨1, _⟩ => show win4_2.index t 1 * 2 + 1 * k.val = k.val; rw [hi.2]; omega

/-- Row `ρ` of the whole array's contribution to entry (g, cc) of the pooled sums (nothing past the last row). -/
def termN (c : Dev nD) (g : Fin 64) (cc : Fin 3) (ρ : ℕ) : EReal :=
  if h : ρ < 100000 then
    (if gidArr V c (ix2 ⟨ρ, h⟩ 0) = BitVec.ofNat 32 g.val then Spec.withOnes (featArr V c) (biasArr V c) ⟨ρ, h⟩ cc else 0)
  else 0

/-- A block row's contribution is the contribution of the array row it is. -/
theorem blk_term (c : Dev nD) (t : Fin cfg4.N) (g : Fin 64) (cc : Fin 3) (r : Fin 10000) :
    rowTerm (gidBlk V c t) (featBlk V c t) (biasBlk V c t) g cc r = termN V c g cc (t.val * 10000 + r.val) := by
  unfold rowTerm termN Spec.withOnes
  rw [dif_pos (row_lt t r), gidBlk_apply V c t r]
  by_cases hg : gidArr V c (ix2 ⟨t.val * 10000 + r.val, row_lt t r⟩ 0) = BitVec.ofNat 32 g.val
  · rw [if_pos hg, if_pos hg]
    by_cases h : cc.val < 2
    · rw [dif_pos h, dif_pos h, featBlk_apply V c t r ⟨cc.val, h⟩, biasBlk_apply V c t ⟨cc.val, h⟩]
    · rw [dif_neg h, dif_neg h]
  · rw [if_neg hg, if_neg hg]

/-- After point `n` the output block holds, at every entry, the contributions of the rows of the blocks up to `n`. -/
theorem acc_eq (c : Dev nD) : ∀ (n : ℕ) (hn : n < cfg4.N) (g : Fin 64) (cc : Fin 3),
    outsAt4 V c n hn (ix2 g cc) = ∑ ρ ∈ Finset.range ((n + 1) * 10000), termN V c g cc ρ
  | 0, hn, g, cc => by
    have e1 : outsAt4 V c 0 hn
        = k4_pay2 (F := Ideal) (featBlk V c ⟨0, hn⟩) (biasBlk V c ⟨0, hn⟩) (gidBlk V c ⟨0, hn⟩) (k4_pay1 (F := Ideal)) :=
      (outsAt4_A V c ⟨0, hn⟩ rfl).trans
        (out4A (F := Ideal) c (grid4.coords ⟨0, hn⟩) (ms4_0 ⟨0, hn⟩) (hs4_0 ⟨0, hn⟩) (ms4_1 ⟨0, hn⟩) (hs4_1 ⟨0, hn⟩)
          (ms4_2 ⟨0, hn⟩) (hs4_2 ⟨0, hn⟩) (ms4_3 ⟨0, hn⟩) (hs4_3 ⟨0, hn⟩) ((hcond4_0 ⟨0, hn⟩).mpr rfl)
          (gidBlk V c ⟨0, hn⟩) (featBlk V c ⟨0, hn⟩) (biasBlk V c ⟨0, hn⟩))
    rw [e1]
    refine (pay2_apply (featBlk V c ⟨0, hn⟩) (biasBlk V c ⟨0, hn⟩) (gidBlk V c ⟨0, hn⟩) (k4_pay1 (F := Ideal)) g cc).trans ?_
    rw [pay1_apply, zero_add, show (0 + 1) * 10000 = 10000 from rfl, Finset.sum_range]
    refine Finset.sum_congr rfl fun r _ => ?_
    refine (blk_term V c ⟨0, hn⟩ g cc r).trans ?_
    show termN V c g cc (0 * 10000 + r.val) = termN V c g cc r.val
    rw [Nat.zero_mul, Nat.zero_add]
  | n + 1, hn, g, cc => by
    have hB : ¬(⟨n + 1, hn⟩ : Fin cfg4.N).val % 10 = 0 := by
      have : n + 1 < 10 := lt_of_lt_of_eq hn (show cfg4.N = 10 from N_4)
      dsimp only; omega
    have e1 : outsAt4 V c (n + 1) hn
        = k4_pay2 (F := Ideal) (featBlk V c ⟨n + 1, hn⟩) (biasBlk V c ⟨n + 1, hn⟩) (gidBlk V c ⟨n + 1, hn⟩)
            (outsAt4 V c n (Nat.lt_of_succ_lt hn)) :=
      (outsAt4_B V c ⟨n + 1, hn⟩ hB).trans
        (out4B (F := Ideal) c (grid4.coords ⟨n + 1, hn⟩) (ms4_0 ⟨n + 1, hn⟩) (hs4_0 ⟨n + 1, hn⟩) (ms4_1 ⟨n + 1, hn⟩) (hs4_1 ⟨n + 1, hn⟩)
          (ms4_2 ⟨n + 1, hn⟩) (hs4_2 ⟨n + 1, hn⟩) (ms4_3 ⟨n + 1, hn⟩) (hs4_3 ⟨n + 1, hn⟩) (fun h => hB ((hcond4_0 ⟨n + 1, hn⟩).mp h))
          (gidBlk V c ⟨n + 1, hn⟩) (featBlk V c ⟨n + 1, hn⟩) (biasBlk V c ⟨n + 1, hn⟩) (outsAt4 V c n (Nat.lt_of_succ_lt hn)))
    rw [e1]
    refine (pay2_apply (featBlk V c ⟨n + 1, hn⟩) (biasBlk V c ⟨n + 1, hn⟩) (gidBlk V c ⟨n + 1, hn⟩)
      (outsAt4 V c n (Nat.lt_of_succ_lt hn)) g cc).trans ?_
    rw [acc_eq c n (Nat.lt_of_succ_lt hn) g cc, show (n + 1 + 1) * 10000 = (n + 1) * 10000 + 10000 from by ring,
      Finset.sum_range_add, Finset.sum_range (fun x => termN V c g cc ((n + 1) * 10000 + x))]
    exact congrArg (_ + ·) (Finset.sum_congr rfl fun r _ => blk_term V c ⟨n + 1, hn⟩ g cc r)

/-! ## The output array after the run -/

/-- The pooled sums, as contents of the output array. -/
abbrev pooled (c : Dev nD) : Buf (Elt Ideal) ((c : Thread nD τ).loc main_v94) :=
  Spec.pool (V c main_v93) (V c main_v91) (V c main_v92)

/-- After the last point the block holds the pooled sums. -/
theorem last_eq (c : Dev nD) (h : 9 < cfg4.N) : outsAt4 V c 9 h = pooled V c := by
  funext i
  obtain ⟨g, cc, rfl⟩ : ∃ (g : Fin 64) (cc : Fin 3), i = ix2 g cc := ⟨i 0, i 1, eq_ix2 i⟩
  rw [acc_eq V c 9 h g cc, show (9 + 1) * 10000 = 100000 from rfl, Finset.sum_range]
  show _ = ∑ r : Fin 100000, (if gidArr V c (ix2 r 0) = BitVec.ofNat 32 g.val then Spec.withOnes (featArr V c) (biasArr V c) r cc else 0)
  refine Finset.sum_congr rfl fun r _ => ?_
  unfold termN
  rw [dif_pos r.isLt]

/-- The one write-back, after the last point, writes the pooled sums: the block is the whole array. -/
theorem flushed_eq (c : Dev nD) (t : Fin cfg4.N) (hf : (cfg4.win 3).flush t = true) :
    (dat4 V c).flushed 3 t = ((cfg4.win 3).blk t).view.read (Elt Ideal) (pooled V c) := by
  have h9 : t.val = 9 := by
    have := (flush4_3 t).mp hf
    have := lt_of_lt_of_eq t.isLt (show cfg4.N = 10 from N_4)
    omega
  obtain rfl : t = t4_9 := Fin.ext h9
  show (cfg4.win 3).cut (grid4.coords t4_9) ((dat4 V c).after 3 t4_9) = _
  rw [after4_3, show outsAt4 V c t4_9.val t4_9.isLt = pooled V c from last_eq V c t4_9.isLt]
  have hz' : (fun a => win4_3.index t4_9 a * main_v94.ty.shape.size a) = fun _ => 0 :=
    funext fun a => by fin_cases a <;> decide +kernel
  exact (Memref.read_access_unit_zero (Elt Ideal) main_v94 hz' (fun a => by rw [congrFun hz' a]; simp) (pooled V c)).symm

/-- After all ten row blocks, the pooled output is `Spec.pool` of the graph ids, the features and the bias row. -/
theorem region4_value (c : Dev nD) :
    (dat4 (F := Ideal) V c).arrAt 3 cfg4.N = Spec.pool (V c main_v93) (V c main_v91) (V c main_v92) :=
  (dat4 V c).arrAt_eq_of_cover 3 (pooled V c) (flushed_eq V c) fun i =>
    ⟨t4_9, (flush4_3 t4_9).mpr rfl, by
      show i ∈ ((View.whole main_v94).slice (win4_3.rect t4_9)).set
      rw [View.set_slice_whole, Rect.mem_set_unit]
      intro a
      have h0 : (i 0 : Nat) < 64 := (i 0).isLt
      have h1 : (i 1 : Nat) < 3 := (i 1).isLt
      match a with
      | ⟨0, _⟩ =>
        show win4_3.index t4_9 0 * win4_3.size 0 ≤ (i 0 : Nat)
          ∧ (i 0 : Nat) < win4_3.index t4_9 0 * win4_3.size 0 + win4_3.xsize (grid4.coords t4_9) 0
        rw [show win4_3.index t4_9 0 * win4_3.size 0 = 0 from by decide +kernel,
          show win4_3.xsize (grid4.coords t4_9) 0 = 64 from by decide +kernel]
        omega
      | ⟨1, _⟩ =>
        show win4_3.index t4_9 1 * win4_3.size 1 ≤ (i 1 : Nat)
          ∧ (i 1 : Nat) < win4_3.index t4_9 1 * win4_3.size 1 + win4_3.xsize (grid4.coords t4_9) 1
        rw [show win4_3.index t4_9 1 * win4_3.size 1 = 0 from by decide +kernel,
          show win4_3.xsize (grid4.coords t4_9) 1 = 3 from by decide +kernel]
        omega⟩

end Cert.KVal

end
-- ==== Proof.Tail.lean ====
/- The host operations after the last region: two slices of the pooled array, a maximum with one and a division. -/
import proofs.«429556_j17008070492799_2_alg».proof.Proof.Gen.KernelIdeal.Frame
import proofs.«429556_j17008070492799_2_alg».proof.Proof.Spec
import Idealize.ShloMosaic.Lib.Pipeline.Value
import Idealize.ShloMosaic.Lib.StableHlo.Run
import Idealize.ShloMosaic.Lib.ValueIdx

set_option maxRecDepth 16384

noncomputable section

namespace Cert.KVal

open Cert.KernelIdeal Cert.KernelIdeal.Gen Idealize.ShloMosaic Idealize.ShloMosaic.TcCoe Idealize.SL.Sem
open Idealize.ShloMosaic.Pipeline (Dat)

/-! ## The five operations read at an index

Over a pooled matrix `p` with 64 rows and 3 columns.  Each layout operation reads one entry of its operand; the entry is
named here by its two coordinates. -/

section Ops
open Idealize.ShloMosaic.ValueIdx

variable (p : FVec Ideal S64x3 .f32)

/-- The slice of columns 0 and 1 at `(g, j)` is `p (g, j)`. -/
theorem sums_apply (i : S64x2.Idx) :
    extractStridedSlice S64x2 ![0, 0] p slices_S64x3_S64x2_0_0 i
      = p (ix2 (i 0) ⟨(i 1).val, Nat.lt_succ_of_lt (i 1).isLt⟩) :=
  extractStridedSlice_apply ![0, 0] p slices_S64x3_S64x2_0_0 i _ fun a =>
    match a with
    | ⟨0, _⟩ => (Nat.zero_add (i 0).val).symm
    | ⟨1, _⟩ => (Nat.zero_add (i 1).val).symm

/-- The slice of column 2 at `(g, 0)` is `p (g, 2)`. -/
theorem count_apply (g : Fin 64) :
    extractStridedSlice S64x1 ![0, 2] p slices_S64x3_S64x1_0_2 (ix2 g (0 : Fin 1)) = p (ix2 g (2 : Fin 3)) :=
  extractStridedSlice_apply ![0, 2] p slices_S64x3_S64x1_0_2 (ix2 g (0 : Fin 1)) _ fun a =>
    match a with
    | ⟨0, _⟩ => (Nat.zero_add g.val).symm
    | ⟨1, _⟩ => rfl

/-- The scalar one broadcast to a column reads one at every row. -/
theorem ones_apply (k : S64x1.Idx) :
    broadcastInDim S64x1 ![] bcast_S_S64x1 (constant (F := Ideal) S_ .f32 0x3F800000#32) k = Spec.one :=
  (broadcastInDim_apply ![] bcast_S_S64x1 (constant (F := Ideal) S_ .f32 0x3F800000#32) k
    (fun a => a.elim0) fun a => a.elim0).trans rfl

/-- The count column bounded below by one, at row `g`. -/
theorem denom_apply (g : Fin 64) :
    maximumf (extractStridedSlice S64x1 ![0, 2] p slices_S64x3_S64x1_0_2)
        (broadcastInDim S64x1 ![] bcast_S_S64x1 (constant (F := Ideal) S_ .f32 0x3F800000#32)) (ix2 g (0 : Fin 1))
      = max (p (ix2 g (2 : Fin 3))) Spec.one := by
  rw [maximumf_apply, count_apply, ones_apply]

/-- A column broadcast to two columns reads, at `(g, j)`, the column at row `g`. -/
theorem bcast_apply (x : FVec Ideal S64x1 .f32) (i : S64x2.Idx) :
    broadcastInDim S64x2 ![0, 1] bcast_S64x1_S64x2_0_1 x i = x (ix2 (i 0) (0 : Fin 1)) :=
  broadcastInDim_apply ![0, 1] bcast_S64x1_S64x2_0_1 x i _ fun a =>
    match a with
    | ⟨0, _⟩ => rfl
    | ⟨1, _⟩ => rfl

/-- The host quotient at an index is the quotient of the entries. -/
theorem hostDivf_apply (a b : FVec Ideal S64x2 .f32) (i : S64x2.Idx) :
    Host.divf a b i = Ideal.div (a i) (b i) := rfl

/-- The five operations compose to the mean of each graph. -/
theorem tail_ops :
    Host.divf (extractStridedSlice S64x2 ![0, 0] p slices_S64x3_S64x2_0_0)
      (broadcastInDim S64x2 ![0, 1] bcast_S64x1_S64x2_0_1
        (maximumf (extractStridedSlice S64x1 ![0, 2] p slices_S64x3_S64x1_0_2)
          (broadcastInDim S64x1 ![] bcast_S_S64x1 (constant (F := Ideal) S_ .f32 0x3F800000#32))))
      = Spec.meanOf p := by
  funext i
  rw [hostDivf_apply, sums_apply, bcast_apply]
  exact congrArg (Ideal.div _) (denom_apply p (i 0))

end Ops

variable (m : (ℓ : Loc nD τ sig) → Buf (Elt Ideal) ℓ) (ρ : Dev nD → PrngReg)

open Idealize.ShloMosaic.StableHlo in
/-- The program's result is the mean of each graph, read off the pooled array the last region leaves. -/
theorem tail_value (c : Dev nD) :
    W13 m ρ c (Proc.devRef .tc main_v100) = Spec.meanOf (W12 m ρ c (Proc.devRef .tc main_v94)) := by
  show StableHlo.after hostOps5 (W12 m ρ c) (Proc.devRef .tc main_v100) = _
  simp only [hostOps5]
  after_results
  exact tail_ops _

end Cert.KVal

end
-- ==== Proof.Carry.lean ====
/- Which buffers no segment of the program writes: the three edge arrays made before the first region, and the argument arrays, keep their contents from boundary to boundary. -/
import proofs.«429556_j17008070492799_2_alg».proof.Proof.Gen.KernelIdeal.Frame
import proofs.«429556_j17008070492799_2_alg».proof.Proof.Spec
import Idealize.ShloMosaic.Lib.StableHlo.Run

set_option maxRecDepth 16384

noncomputable section

namespace Cert.KVal

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## What each host stretch writes

Every host operation writes exactly one buffer, its result.  Listing the results of a stretch in order gives
a literal list of references; a reference outside that list holds after the stretch what it held before,
and whether a reference lies outside a literal list is decided by comparison. -/

/-- The results of the 18 operations before the degree normalisation's call. -/
abbrev wr0 : List (Ref sig .tc) := [main_v0, main_v1, main_v2, main_v3, main_v4, main_v5, main_v6, main_cst, main_v7, main_cst_0, main_v8, main_v9, main_v10, main_cst_1, main_v11, main_v12, main_v13, main_cst_2]
/-- The results of the 3 operations of the call that guards the inverse square root. -/
abbrev wr0_1 : List (Ref sig .tc) := [main_call0_v0, main_call0_v1, main_v14]
/-- The results of the 19 operations that finish the edge weights. -/
abbrev wr0_2 : List (Ref sig .tc) := [main_c, main_v15, main_v16, main_c_3, main_v17, main_v18, main_v19, main_v20, main_v21, main_c_4, main_v22, main_v23, main_c_5, main_v24, main_v25, main_v26, main_v27, main_v28, main_v29]
/-- The results of the 18 operations between regions 0 and 1. -/
abbrev wr1 : List (Ref sig .tc) := [main_c_6, main_v31, main_v32, main_c_7, main_v33, main_v34, main_v35, main_v36, main_v37, main_v38, main_v39, main_v40, main_cst_8, main_v41, main_v42, main_v43, main_v44, main_v45]
/-- The results of the 18 operations between regions 1 and 2. -/
abbrev wr2 : List (Ref sig .tc) := [main_c_9, main_v47, main_v48, main_c_10, main_v49, main_v50, main_v51, main_v52, main_v53, main_v54, main_v55, main_v56, main_cst_11, main_v57, main_v58, main_v59, main_v60, main_v61]
/-- The results of the 18 operations between regions 2 and 3. -/
abbrev wr3 : List (Ref sig .tc) := [main_c_12, main_v63, main_v64, main_c_13, main_v65, main_v66, main_v67, main_v68, main_v69, main_v70, main_v71, main_v72, main_cst_14, main_v73, main_v74, main_v75, main_v76, main_v77]

/-- Each operation of a literal stretch writes into a literal list: operation by operation, the one buffer
    written is a singleton, and its reference is found in the list. -/
macro "writes_in_list " ops:ident : tactic => `(tactic|
  (simp only [$ops:ident, List.Forall]
   repeat' apply And.intro
   all_goals
     (simp only [StableHlo.nullary_writes, StableHlo.unary_writes, StableHlo.binary_writes,
        StableHlo.ternary_writes, StableHlo.reshape_writes, Finset.singleton_subset_iff, List.mem_toFinset]
      exact List.mem_map_of_mem (by decide))))

theorem wr0_sub : (hostOps0 : List (HloOp τ sig (Elt Ideal))).Forall fun op =>
    op.writes ⊆ (wr0.map (Proc.devRef (τ := τ) .tc)).toFinset := by writes_in_list hostOps0
theorem wr0_1_sub : (hostOps0_1 : List (HloOp τ sig (Elt Ideal))).Forall fun op =>
    op.writes ⊆ (wr0_1.map (Proc.devRef (τ := τ) .tc)).toFinset := by writes_in_list hostOps0_1
theorem wr0_2_sub : (hostOps0_2 : List (HloOp τ sig (Elt Ideal))).Forall fun op =>
    op.writes ⊆ (wr0_2.map (Proc.devRef (τ := τ) .tc)).toFinset := by writes_in_list hostOps0_2
theorem wr1_sub : (hostOps1 : List (HloOp τ sig (Elt Ideal))).Forall fun op =>
    op.writes ⊆ (wr1.map (Proc.devRef (τ := τ) .tc)).toFinset := by writes_in_list hostOps1
theorem wr2_sub : (hostOps2 : List (HloOp τ sig (Elt Ideal))).Forall fun op =>
    op.writes ⊆ (wr2.map (Proc.devRef (τ := τ) .tc)).toFinset := by writes_in_list hostOps2
theorem wr3_sub : (hostOps3 : List (HloOp τ sig (Elt Ideal))).Forall fun op =>
    op.writes ⊆ (wr3.map (Proc.devRef (τ := τ) .tc)).toFinset := by writes_in_list hostOps3

/-! ## From the launch to boundary 3, and from boundary 3 onward

A reference none of the three first stretches writes holds at boundary 3 what was launched.  From boundary 3
on, a region changes only its own arrays and a stretch only its results, so a reference that is no array of
the regions passed and no result of the stretches passed holds what it held at boundary 3.  The conditions
are conjunctions of decided comparisons. -/

/-- No operation before the first region writes `r`. -/
abbrev Launched (r : Ref sig .tc) : Prop := r ∉ wr0 ∧ r ∉ wr0_1 ∧ r ∉ wr0_2
/-- Region 0 has no array at `r`. -/
abbrev Kept4 (r : Ref sig .tc) : Prop := ∀ w, Pipeline.arrRef spec0 w ≠ r
/-- … and the stretch after it does not write `r`. -/
abbrev Kept5 (r : Ref sig .tc) : Prop := Kept4 r ∧ r ∉ wr1
/-- … and region 1 has no array at `r`. -/
abbrev Kept6 (r : Ref sig .tc) : Prop := Kept5 r ∧ ∀ w, Pipeline.arrRef spec1 w ≠ r
/-- … and the stretch after it does not write `r`. -/
abbrev Kept7 (r : Ref sig .tc) : Prop := Kept6 r ∧ r ∉ wr2
/-- … and region 2 has no array at `r`. -/
abbrev Kept8 (r : Ref sig .tc) : Prop := Kept7 r ∧ ∀ w, Pipeline.arrRef spec2 w ≠ r
/-- … and the stretch after it does not write `r`. -/
abbrev Kept9 (r : Ref sig .tc) : Prop := Kept8 r ∧ r ∉ wr3
/-- … and region 3 has no array at `r`. -/
abbrev Kept10 (r : Ref sig .tc) : Prop := Kept9 r ∧ ∀ w, Pipeline.arrRef spec3 w ≠ r

theorem at3 (c : Dev nD) (r : Ref sig .tc) (h : Launched r) :
    W3 m ρ c (Proc.devRef .tc r) = m ((c : Thread nD τ).loc r) :=
  calc W3 m ρ c (Proc.devRef .tc r)
    _ = W2 m ρ c (Proc.devRef .tc r) := StableHlo.after_of_writes_sub hostOps0_2 _ wr0_2_sub h.2.2
    _ = W1 m ρ c (Proc.devRef .tc r) := StableHlo.after_of_writes_sub hostOps0_1 _ wr0_1_sub h.2.1
    _ = W0 m ρ c (Proc.devRef .tc r) := StableHlo.after_of_writes_sub hostOps0 _ wr0_sub h.1
    _ = m ((c : Thread nD τ).loc r) := rfl

theorem hold4 (c : Dev nD) (r : Ref sig .tc) (h : Kept4 r) :
    W4 m ρ c (Proc.devRef .tc r) = W3 m ρ c (Proc.devRef .tc r) := W4_of_ne m ρ c r h
theorem hold5 (c : Dev nD) (r : Ref sig .tc) (h : Kept5 r) :
    W5 m ρ c (Proc.devRef .tc r) = W3 m ρ c (Proc.devRef .tc r) :=
  calc W5 m ρ c (Proc.devRef .tc r)
    _ = W4 m ρ c (Proc.devRef .tc r) := StableHlo.after_of_writes_sub hostOps1 _ wr1_sub h.2
    _ = W3 m ρ c (Proc.devRef .tc r) := hold4 m ρ c r h.1
theorem hold6 (c : Dev nD) (r : Ref sig .tc) (h : Kept6 r) :
    W6 m ρ c (Proc.devRef .tc r) = W3 m ρ c (Proc.devRef .tc r) :=
  (W6_of_ne m ρ c r h.2).trans (hold5 m ρ c r h.1)
theorem hold7 (c : Dev nD) (r : Ref sig .tc) (h : Kept7 r) :
    W7 m ρ c (Proc.devRef .tc r) = W3 m ρ c (Proc.devRef .tc r) :=
  calc W7 m ρ c (Proc.devRef .tc r)
    _ = W6 m ρ c (Proc.devRef .tc r) := StableHlo.after_of_writes_sub hostOps2 _ wr2_sub h.2
    _ = W3 m ρ c (Proc.devRef .tc r) := hold6 m ρ c r h.1
theorem hold8 (c : Dev nD) (r : Ref sig .tc) (h : Kept8 r) :
    W8 m ρ c (Proc.devRef .tc r) = W3 m ρ c (Proc.devRef .tc r) :=
  (W8_of_ne m ρ c r h.2).trans (hold7 m ρ c r h.1)
theorem hold9 (c : Dev nD) (r : Ref sig .tc) (h : Kept9 r) :
    W9 m ρ c (Proc.devRef .tc r) = W3 m ρ c (Proc.devRef .tc r) :=
  calc W9 m ρ c (Proc.devRef .tc r)
    _ = W8 m ρ c (Proc.devRef .tc r) := StableHlo.after_of_writes_sub hostOps3 _ wr3_sub h.2
    _ = W3 m ρ c (Proc.devRef .tc r) := hold8 m ρ c r h.1
theorem hold10 (c : Dev nD) (r : Ref sig .tc) (h : Kept10 r) :
    W10 m ρ c (Proc.devRef .tc r) = W3 m ρ c (Proc.devRef .tc r) :=
  (W10_of_ne m ρ c r h.2).trans (hold9 m ρ c r h.1)

/-- The edge sources, the edge targets and the edge weights, computed before the first region, are untouched at boundary 4. -/
theorem carry4 (c : Dev nD) :
    W4 m ρ c (Proc.devRef .tc main_v3) = W3 m ρ c (Proc.devRef .tc main_v3)
    ∧ W4 m ρ c (Proc.devRef .tc main_v6) = W3 m ρ c (Proc.devRef .tc main_v6)
    ∧ W4 m ρ c (Proc.devRef .tc main_v29) = W3 m ρ c (Proc.devRef .tc main_v29) :=
  ⟨hold4 m ρ c main_v3 (by decide), hold4 m ρ c main_v6 (by decide), hold4 m ρ c main_v29 (by decide)⟩

/-- The edge sources, the edge targets and the edge weights, computed before the first region, are untouched at boundary 6. -/
theorem carry6 (c : Dev nD) :
    W6 m ρ c (Proc.devRef .tc main_v3) = W3 m ρ c (Proc.devRef .tc main_v3)
    ∧ W6 m ρ c (Proc.devRef .tc main_v6) = W3 m ρ c (Proc.devRef .tc main_v6)
    ∧ W6 m ρ c (Proc.devRef .tc main_v29) = W3 m ρ c (Proc.devRef .tc main_v29) :=
  ⟨hold6 m ρ c main_v3 (by decide), hold6 m ρ c main_v6 (by decide), hold6 m ρ c main_v29 (by decide)⟩

/-- The edge sources, the edge targets and the edge weights, computed before the first region, are untouched at boundary 8. -/
theorem carry8 (c : Dev nD) :
    W8 m ρ c (Proc.devRef .tc main_v3) = W3 m ρ c (Proc.devRef .tc main_v3)
    ∧ W8 m ρ c (Proc.devRef .tc main_v6) = W3 m ρ c (Proc.devRef .tc main_v6)
    ∧ W8 m ρ c (Proc.devRef .tc main_v29) = W3 m ρ c (Proc.devRef .tc main_v29) :=
  ⟨hold8 m ρ c main_v3 (by decide), hold8 m ρ c main_v6 (by decide), hold8 m ρ c main_v29 (by decide)⟩

/-- The edge sources, the edge targets and the edge weights, computed before the first region, are untouched at boundary 10. -/
theorem carry10 (c : Dev nD) :
    W10 m ρ c (Proc.devRef .tc main_v3) = W3 m ρ c (Proc.devRef .tc main_v3)
    ∧ W10 m ρ c (Proc.devRef .tc main_v6) = W3 m ρ c (Proc.devRef .tc main_v6)
    ∧ W10 m ρ c (Proc.devRef .tc main_v29) = W3 m ρ c (Proc.devRef .tc main_v29) :=
  ⟨hold10 m ρ c main_v3 (by decide), hold10 m ρ c main_v6 (by decide), hold10 m ρ c main_v29 (by decide)⟩

/-- At boundary 0 the argument arrays read next are as launched. -/
theorem args0 (c : Dev nD) :
    W0 m ρ c (Proc.devRef .tc main_arg1) = m ((c : Thread nD τ).loc main_arg1) :=
  rfl

/-- At boundary 3 the argument arrays read next are as launched. -/
theorem args3 (c : Dev nD) :
    W3 m ρ c (Proc.devRef .tc main_arg0) = m ((c : Thread nD τ).loc main_arg0)
    ∧ W3 m ρ c (Proc.devRef .tc main_arg3) = m ((c : Thread nD τ).loc main_arg3) :=
  ⟨at3 m ρ c main_arg0 (by decide), at3 m ρ c main_arg3 (by decide)⟩

/-- At boundary 4 the argument arrays read next are as launched. -/
theorem args4 (c : Dev nD) :
    W4 m ρ c (Proc.devRef .tc main_arg4) = m ((c : Thread nD τ).loc main_arg4)
    ∧ W4 m ρ c (Proc.devRef .tc main_arg5) = m ((c : Thread nD τ).loc main_arg5) :=
  ⟨(hold4 m ρ c main_arg4 (by decide)).trans (at3 m ρ c main_arg4 (by decide)),
   (hold4 m ρ c main_arg5 (by decide)).trans (at3 m ρ c main_arg5 (by decide))⟩

/-- At boundary 5 the argument arrays read next are as launched. -/
theorem args5 (c : Dev nD) :
    W5 m ρ c (Proc.devRef .tc main_arg6) = m ((c : Thread nD τ).loc main_arg6) :=
  (hold5 m ρ c main_arg6 (by decide)).trans (at3 m ρ c main_arg6 (by decide))

/-- At boundary 6 the argument arrays read next are as launched. -/
theorem args6 (c : Dev nD) :
    W6 m ρ c (Proc.devRef .tc main_arg7) = m ((c : Thread nD τ).loc main_arg7)
    ∧ W6 m ρ c (Proc.devRef .tc main_arg8) = m ((c : Thread nD τ).loc main_arg8) :=
  ⟨(hold6 m ρ c main_arg7 (by decide)).trans (at3 m ρ c main_arg7 (by decide)),
   (hold6 m ρ c main_arg8 (by decide)).trans (at3 m ρ c main_arg8 (by decide))⟩

/-- At boundary 7 the argument arrays read next are as launched. -/
theorem args7 (c : Dev nD) :
    W7 m ρ c (Proc.devRef .tc main_arg9) = m ((c : Thread nD τ).loc main_arg9) :=
  (hold7 m ρ c main_arg9 (by decide)).trans (at3 m ρ c main_arg9 (by decide))

/-- At boundary 8 the argument arrays read next are as launched. -/
theorem args8 (c : Dev nD) :
    W8 m ρ c (Proc.devRef .tc main_arg10) = m ((c : Thread nD τ).loc main_arg10)
    ∧ W8 m ρ c (Proc.devRef .tc main_arg11) = m ((c : Thread nD τ).loc main_arg11) :=
  ⟨(hold8 m ρ c main_arg10 (by decide)).trans (at3 m ρ c main_arg10 (by decide)),
   (hold8 m ρ c main_arg11 (by decide)).trans (at3 m ρ c main_arg11 (by decide))⟩

/-- At boundary 9 the argument arrays read next are as launched. -/
theorem args9 (c : Dev nD) :
    W9 m ρ c (Proc.devRef .tc main_arg12) = m ((c : Thread nD τ).loc main_arg12) :=
  (hold9 m ρ c main_arg12 (by decide)).trans (at3 m ρ c main_arg12 (by decide))

/-- At boundary 10 the argument arrays read next are as launched. -/
theorem args10 (c : Dev nD) :
    W10 m ρ c (Proc.devRef .tc main_arg13) = m ((c : Thread nD τ).loc main_arg13)
    ∧ W10 m ρ c (Proc.devRef .tc main_arg2) = m ((c : Thread nD τ).loc main_arg2) :=
  ⟨(hold10 m ρ c main_arg13 (by decide)).trans (at3 m ρ c main_arg13 (by decide)),
   (hold10 m ρ c main_arg2 (by decide)).trans (at3 m ρ c main_arg2 (by decide))⟩

end Cert.KVal

end
-- ==== Proof.Stretch.lean ====
/- The host operations between the kernel regions are the reference's own gather, scale and scatter stages: each stretch maps the reference's stage values at its entry to the reference's stage values at its exit. -/
import proofs.«429556_j17008070492799_2_alg».proof.Proof.Gen.KernelIdeal.Frame
import proofs.«429556_j17008070492799_2_alg».proof.Proof.RefRead
import Idealize.ShloMosaic.Lib.StableHlo.Run
import Idealize.ShloMosaic.Lib.Pipeline.Value

set_option maxRecDepth 16384

noncomputable section

namespace Cert.KVal

open Cert.KernelIdeal Cert.KernelIdeal.Gen Idealize.ShloMosaic Idealize.ShloMosaic.TcCoe Idealize.SL.Sem

/-! ### The launch stretch, operation list by operation list, over any buffer contents and any float family

Each list is read back at one of its result buffers as the composed term of the contents it was given; that term is
the reference's stage of the same name, because the two programs print the same operations with the same dimension
records. -/

section Generic

variable {F : FTy → Type} [FloatOps F]

/-- The edge sources with the self loops appended: the first row of the edge list followed by 0, 1, …, 99999. -/
theorem host0_v3 (V : Valuation τ sig (Elt F)) :
    StableHlo.after hostOps0 V (Proc.devRef .tc main_v3) = Cert.ReferenceIdeal.ReadP.val_main_v3 (F := F) (V (Proc.devRef .tc main_arg1)) := by
  after_results
  rfl

/-- The edge targets with the self loops appended: the second row of the edge list followed by 0, 1, …, 99999. -/
theorem host0_v6 (V : Valuation τ sig (Elt F)) :
    StableHlo.after hostOps0 V (Proc.devRef .tc main_v6) = Cert.ReferenceIdeal.ReadP.val_main_v6 (F := F) (V (Proc.devRef .tc main_arg1)) := by
  after_results
  rfl

/-- Where the degree (the number of edges into a node, its self loop included) is positive. -/
theorem host0_v12 (V : Valuation τ sig (Elt F)) :
    StableHlo.after hostOps0 V (Proc.devRef .tc main_v12) = Cert.ReferenceIdeal.ReadP.val_main_v12 (F := F) (V (Proc.devRef .tc main_arg1)) := by
  after_results
  rfl

/-- The reciprocal square root of the degree. -/
theorem host0_v13 (V : Valuation τ sig (Elt F)) :
    StableHlo.after hostOps0 V (Proc.devRef .tc main_v13) = Cert.ReferenceIdeal.ReadP.val_main_v13 (F := F) (V (Proc.devRef .tc main_arg1)) := by
  after_results
  rfl

/-- The zero that replaces the reciprocal square root where the degree is not positive. -/
theorem host0_cst2 (V : Valuation τ sig (Elt F)) :
    StableHlo.after hostOps0 V (Proc.devRef .tc main_cst_2) = Cert.ReferenceIdeal.ReadP.val_main_cst_2 (F := F) := by
  after_results
  rfl

/-- The select leaves the edge sources as they were. -/
theorem host01_v3 (V : Valuation τ sig (Elt F)) :
    StableHlo.after hostOps0_1 V (Proc.devRef .tc main_v3) = V (Proc.devRef .tc main_v3) := by
  after_results

/-- The select leaves the edge targets as they were. -/
theorem host01_v6 (V : Valuation τ sig (Elt F)) :
    StableHlo.after hostOps0_1 V (Proc.devRef .tc main_v6) = V (Proc.devRef .tc main_v6) := by
  after_results

/-- The normalising factor of a node: the reciprocal square root of its degree, zero where the degree is not positive. -/
theorem host01_v14 (V : Valuation τ sig (Elt F)) (x1 : (⟨Cert.ReferenceIdeal.S2x3200000, .i32⟩ : BufTy).Contents (Elt F))
    (h12 : V (Proc.devRef .tc main_v12) = Cert.ReferenceIdeal.ReadP.val_main_v12 (F := F) x1)
    (h13 : V (Proc.devRef .tc main_v13) = Cert.ReferenceIdeal.ReadP.val_main_v13 (F := F) x1)
    (hc : V (Proc.devRef .tc main_cst_2) = Cert.ReferenceIdeal.ReadP.val_main_cst_2 (F := F)) :
    StableHlo.after hostOps0_1 V (Proc.devRef .tc main_v14) = Cert.ReferenceIdeal.ReadP.val_main_v14 (F := F) x1 := by
  after_results
  rw [h12, h13, hc]
  rfl

/-- The edge weights leave the edge sources as they were. -/
theorem host02_v3 (V : Valuation τ sig (Elt F)) :
    StableHlo.after hostOps0_2 V (Proc.devRef .tc main_v3) = V (Proc.devRef .tc main_v3) := by
  after_results_simp

/-- The edge weights leave the edge targets as they were. -/
theorem host02_v6 (V : Valuation τ sig (Elt F)) :
    StableHlo.after hostOps0_2 V (Proc.devRef .tc main_v6) = V (Proc.devRef .tc main_v6) := by
  after_results_simp

set_option maxHeartbeats 4000000 in
/-- The weight of an edge: the product of the normalising factors of its two ends (an end given by a negative number
    counted from the last node). -/
theorem host02_v29 (V : Valuation τ sig (Elt F)) (x1 : (⟨Cert.ReferenceIdeal.S2x3200000, .i32⟩ : BufTy).Contents (Elt F))
    (h3 : V (Proc.devRef .tc main_v3) = Cert.ReferenceIdeal.ReadP.val_main_v3 (F := F) x1)
    (h6 : V (Proc.devRef .tc main_v6) = Cert.ReferenceIdeal.ReadP.val_main_v6 (F := F) x1)
    (h14 : V (Proc.devRef .tc main_v14) = Cert.ReferenceIdeal.ReadP.val_main_v14 (F := F) x1) :
    StableHlo.after hostOps0_2 V (Proc.devRef .tc main_v29) = Cert.ReferenceIdeal.ReadP.val_main_v29 (F := F) x1 := by
  after_results_simp
  rw [h3, h6, h14]
  rfl

set_option maxHeartbeats 4000000 in
/-- The first aggregation: each edge carries its source's row of the dense layer's result, times the edge's weight, to
    its target, and the rows arriving at a node are added up from zero. -/
theorem host1_v43 (V : Valuation τ sig (Elt F))
    (x0 : (⟨Cert.ReferenceIdeal.S100000x128, .f32⟩ : BufTy).Contents (Elt F))
    (x1 : (⟨Cert.ReferenceIdeal.S2x3200000, .i32⟩ : BufTy).Contents (Elt F))
    (x3 : (⟨Cert.ReferenceIdeal.S128x16, .f32⟩ : BufTy).Contents (Elt F))
    (h3 : V (Proc.devRef .tc main_v3) = Cert.ReferenceIdeal.ReadP.val_main_v3 (F := F) x1)
    (h6 : V (Proc.devRef .tc main_v6) = Cert.ReferenceIdeal.ReadP.val_main_v6 (F := F) x1)
    (h29 : V (Proc.devRef .tc main_v29) = Cert.ReferenceIdeal.ReadP.val_main_v29 (F := F) x1)
    (hin : V (Proc.devRef .tc main_v30) = Cert.ReferenceIdeal.ReadP.val_main_v30 (F := F) x0 x3) :
    StableHlo.after hostOps1 V (Proc.devRef .tc main_v43) = Cert.ReferenceIdeal.ReadP.val_main_v43 (F := F) x0 x1 x3 := by
  after_results_simp
  rw [h3, h6, h29, hin]
  rfl

set_option maxHeartbeats 4000000 in
/-- The bias row as an array of rank two: entry (0, j) of the reshaped vector is its entry j, which is what the
    reference's broadcast along the second axis reads there. -/
theorem host1_v44 (V : Valuation τ sig (Elt F))
    (x4 : (⟨Cert.ReferenceIdeal.S16, .f32⟩ : BufTy).Contents (Elt F))
    (hb : V (Proc.devRef .tc main_arg4) = x4) :
    StableHlo.after hostOps1 V (Proc.devRef .tc main_v44) = Cert.ReferenceIdeal.ReadP.val_main_v44 (F := F) x4 := by
  after_results_simp
  rw [hb]
  funext i
  rw [Cert.ReferenceIdeal.ReadP.val_main_v44_apply]
  refine shapeCast_apply x4 shapeCasts_S16_S1x16 i (Cert.ReferenceIdeal.ReadP.idx_main_v44 i) ?_
  rewrite [Shape.rowMajor_val_two, Shape.rowMajor_val_one]
  have h0 : (i 0).val < 1 := (i 0).isLt
  show (i 1).val = (i 0).val * 16 + (i 1).val
  omega

set_option maxHeartbeats 4000000 in
/-- The slope as an array of rank two: its one entry, as in the reference's broadcast. -/
theorem host1_v45 (V : Valuation τ sig (Elt F))
    (x5 : (⟨Cert.ReferenceIdeal.S1, .f32⟩ : BufTy).Contents (Elt F))
    (ha : V (Proc.devRef .tc main_arg5) = x5) :
    StableHlo.after hostOps1 V (Proc.devRef .tc main_v45) = Cert.ReferenceIdeal.ReadP.val_main_v49 (F := F) x5 := by
  after_results_simp
  rw [ha]
  funext i
  rw [Cert.ReferenceIdeal.ReadP.val_main_v49_apply]
  refine shapeCast_apply x5 shapeCasts_S1_S1x1 i (Cert.ReferenceIdeal.ReadP.idx_main_v49 i) ?_
  rewrite [Shape.rowMajor_val_two, Shape.rowMajor_val_one]
  have h0 : (i 0).val < 1 := (i 0).isLt
  have h1 : (i 1).val < 1 := (i 1).isLt
  show 0 = (i 0).val * 1 + (i 1).val
  omega

end Generic

variable (m : (ℓ : Loc nD τ sig) → Buf (Elt Ideal) ℓ) (ρ : Dev nD → PrngReg)

/-- The first host stretch makes the edge sources (with the self loops), the edge targets and the edge weights of the reference. -/
theorem stretch0 (c : Dev nD) (x1 : (⟨Cert.ReferenceIdeal.S2x3200000, .i32⟩ : BufTy).Contents (Elt Ideal)) (h1 : W0 m ρ c (Proc.devRef .tc main_arg1) = x1) :
    W3 m ρ c (Proc.devRef .tc main_v3) = Cert.ReferenceIdeal.ReadP.val_main_v3 (F := Ideal) x1
    ∧ W3 m ρ c (Proc.devRef .tc main_v6) = Cert.ReferenceIdeal.ReadP.val_main_v6 (F := Ideal) x1
    ∧ W3 m ρ c (Proc.devRef .tc main_v29) = Cert.ReferenceIdeal.ReadP.val_main_v29 (F := Ideal) x1 := by
  -- after the first list: the two index vectors, the degree's sign and reciprocal square root, the zero
  have a3 : W1 m ρ c (Proc.devRef .tc main_v3) = Cert.ReferenceIdeal.ReadP.val_main_v3 (F := Ideal) x1 :=
    (host0_v3 (F := Ideal) (W0 m ρ c)).trans (congrArg _ h1)
  have a6 : W1 m ρ c (Proc.devRef .tc main_v6) = Cert.ReferenceIdeal.ReadP.val_main_v6 (F := Ideal) x1 :=
    (host0_v6 (F := Ideal) (W0 m ρ c)).trans (congrArg _ h1)
  have a12 : W1 m ρ c (Proc.devRef .tc main_v12) = Cert.ReferenceIdeal.ReadP.val_main_v12 (F := Ideal) x1 :=
    (host0_v12 (F := Ideal) (W0 m ρ c)).trans (congrArg _ h1)
  have a13 : W1 m ρ c (Proc.devRef .tc main_v13) = Cert.ReferenceIdeal.ReadP.val_main_v13 (F := Ideal) x1 :=
    (host0_v13 (F := Ideal) (W0 m ρ c)).trans (congrArg _ h1)
  have ac : W1 m ρ c (Proc.devRef .tc main_cst_2) = Cert.ReferenceIdeal.ReadP.val_main_cst_2 (F := Ideal) :=
    host0_cst2 (F := Ideal) (W0 m ρ c)
  -- after the select: the normalising factors
  have b3 : W2 m ρ c (Proc.devRef .tc main_v3) = Cert.ReferenceIdeal.ReadP.val_main_v3 (F := Ideal) x1 :=
    (host01_v3 (F := Ideal) (W1 m ρ c)).trans a3
  have b6 : W2 m ρ c (Proc.devRef .tc main_v6) = Cert.ReferenceIdeal.ReadP.val_main_v6 (F := Ideal) x1 :=
    (host01_v6 (F := Ideal) (W1 m ρ c)).trans a6
  have b14 : W2 m ρ c (Proc.devRef .tc main_v14) = Cert.ReferenceIdeal.ReadP.val_main_v14 (F := Ideal) x1 :=
    host01_v14 (F := Ideal) (W1 m ρ c) x1 a12 a13 ac
  -- after the last list: the edge weights
  exact ⟨(host02_v3 (F := Ideal) (W2 m ρ c)).trans b3, (host02_v6 (F := Ideal) (W2 m ρ c)).trans b6,
    host02_v29 (F := Ideal) (W2 m ρ c) x1 b3 b6 b14⟩

/-- The stretch after region 0: the first aggregation, and the bias row and slope of the next layer as arrays of rank two. -/
theorem stretch1 (c : Dev nD) (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x16, .f32⟩ : BufTy).Contents (Elt Ideal)) (x4 : (⟨Cert.ReferenceIdeal.S16, .f32⟩ : BufTy).Contents (Elt Ideal)) (x5 : (⟨Cert.ReferenceIdeal.S1, .f32⟩ : BufTy).Contents (Elt Ideal))
    (h3 : W4 m ρ c (Proc.devRef .tc main_v3) = Cert.ReferenceIdeal.ReadP.val_main_v3 (F := Ideal) x1) (h6 : W4 m ρ c (Proc.devRef .tc main_v6) = Cert.ReferenceIdeal.ReadP.val_main_v6 (F := Ideal) x1) (h29 : W4 m ρ c (Proc.devRef .tc main_v29) = Cert.ReferenceIdeal.ReadP.val_main_v29 (F := Ideal) x1)
    (hin : W4 m ρ c (Proc.devRef .tc main_v30) = Cert.ReferenceIdeal.ReadP.val_main_v30 (F := Ideal) x0 x3)
    (hb : W4 m ρ c (Proc.devRef .tc main_arg4) = x4) (ha : W4 m ρ c (Proc.devRef .tc main_arg5) = x5) :
    W5 m ρ c (Proc.devRef .tc main_v43) = Cert.ReferenceIdeal.ReadP.val_main_v43 (F := Ideal) x0 x1 x3
    ∧ W5 m ρ c (Proc.devRef .tc main_v44) = Cert.ReferenceIdeal.ReadP.val_main_v44 (F := Ideal) x4
    ∧ W5 m ρ c (Proc.devRef .tc main_v45) = Cert.ReferenceIdeal.ReadP.val_main_v49 (F := Ideal) x5 :=
  ⟨host1_v43 (F := Ideal) (W4 m ρ c) x0 x1 x3 h3 h6 h29 hin, host1_v44 (F := Ideal) (W4 m ρ c) x4 hb,
    host1_v45 (F := Ideal) (W4 m ρ c) x5 ha⟩

end Cert.KVal

end
-- ==== Proof.Stretch2.lean ====
/- The host operations between the kernel regions are the reference's own gather, scale and scatter stages: each stretch maps the reference's stage values at its entry to the reference's stage values at its exit. -/
import proofs.«429556_j17008070492799_2_alg».proof.Proof.Gen.KernelIdeal.Frame
import proofs.«429556_j17008070492799_2_alg».proof.Proof.RefRead
import Idealize.ShloMosaic.Lib.StableHlo.Run
import Idealize.ShloMosaic.Lib.Pipeline.Value

set_option maxRecDepth 16384

noncomputable section

namespace Cert.KVal

open Cert.KernelIdeal Cert.KernelIdeal.Gen Idealize.ShloMosaic Idealize.ShloMosaic.TcCoe Idealize.SL.Sem

section Chain

variable {F : FTy → Type} [FloatOps F]

/-! ## A vector given a unit axis

The kernel program reshapes a vector to a matrix with one row (or one column); the reference broadcasts it along
the new axis.  Both read the vector at the one coordinate that is not on the unit axis: the row-major position
of `(0, j)` in a `1 × a` matrix is `0 * a + j = j`, and that of `(r, 0)` in an `a × 1` matrix is `r * 1 + 0 = r`. -/

/-- A vector of length 16 as a `1 × 16` matrix: entry `(0, j)` is entry `j`. -/
theorem castRow16 (x : (⟨Cert.ReferenceIdeal.S16, .f32⟩ : BufTy).Contents (Elt F)) :
    (fun i => shapeCast Cert.KernelIdeal.S1x16 x shapeCasts_S16_S1x16 i) = Cert.ReferenceIdeal.ReadP.val_main_v67 (F := F) x := by
  funext i
  rw [Cert.ReferenceIdeal.ReadP.val_main_v67_apply]
  refine shapeCast_apply x shapeCasts_S16_S1x16 i (Cert.ReferenceIdeal.ReadP.idx_main_v67 i) ?_
  have h0 : (i 0).val = 0 := Nat.lt_one_iff.mp (i 0).isLt
  refine (Shape.rowMajor_val_one (d := ![16]) _).trans (Eq.trans ?_ (Shape.rowMajor_val_two (d := ![1, 16]) i).symm)
  show (i 1).val = (i 0).val * 16 + (i 1).val
  rw [h0, Nat.zero_mul, Nat.zero_add]

/-- A vector of length 1 as a `1 × 1` matrix: its one entry. -/
theorem castCell (x : (⟨Cert.ReferenceIdeal.S1, .f32⟩ : BufTy).Contents (Elt F)) :
    (fun i => shapeCast Cert.KernelIdeal.S1x1 x shapeCasts_S1_S1x1 i) = Cert.ReferenceIdeal.ReadP.val_main_v72 (F := F) x := by
  funext i
  rw [Cert.ReferenceIdeal.ReadP.val_main_v72_apply]
  refine shapeCast_apply x shapeCasts_S1_S1x1 i (Cert.ReferenceIdeal.ReadP.idx_main_v72 i) ?_
  have h0 : (i 0).val = 0 := Nat.lt_one_iff.mp (i 0).isLt
  have h1 : (i 1).val = 0 := Nat.lt_one_iff.mp (i 1).isLt
  refine (Shape.rowMajor_val_one (d := ![1]) _).trans (Eq.trans ?_ (Shape.rowMajor_val_two (d := ![1, 1]) i).symm)
  show 0 = (i 0).val * 1 + (i 1).val
  rw [h0, h1]

/-- A vector of length 2 as a `1 × 2` matrix: entry `(0, j)` is entry `j`. -/
theorem castRow2 (x : (⟨Cert.ReferenceIdeal.S2, .f32⟩ : BufTy).Contents (Elt F)) :
    (fun i => shapeCast Cert.KernelIdeal.S1x2 x shapeCasts_S2_S1x2 i) = Cert.ReferenceIdeal.ReadP.val_main_v113 (F := F) x := by
  funext i
  rw [Cert.ReferenceIdeal.ReadP.val_main_v113_apply]
  refine shapeCast_apply x shapeCasts_S2_S1x2 i (Cert.ReferenceIdeal.ReadP.idx_main_v113 i) ?_
  have h0 : (i 0).val = 0 := Nat.lt_one_iff.mp (i 0).isLt
  refine (Shape.rowMajor_val_one (d := ![2]) _).trans (Eq.trans ?_ (Shape.rowMajor_val_two (d := ![1, 2]) i).symm)
  show (i 1).val = (i 0).val * 2 + (i 1).val
  rw [h0, Nat.zero_mul, Nat.zero_add]

/-- A vector of length 100000 as a `100000 × 1` matrix: entry `(r, 0)` is entry `r`. -/
theorem castCol (x : (⟨Cert.ReferenceIdeal.S100000, .i32⟩ : BufTy).Contents (Elt F)) :
    (fun i => shapeCast Cert.KernelIdeal.S100000x1 x shapeCasts_S100000_S100000x1 i) = Cert.ReferenceIdeal.ReadP.val_main_v117 (F := F) x := by
  funext i
  rw [Cert.ReferenceIdeal.ReadP.val_main_v117_apply]
  refine shapeCast_apply x shapeCasts_S100000_S100000x1 i (Cert.ReferenceIdeal.ReadP.idx_main_v117 i) ?_
  have h1 : (i 1).val = 0 := Nat.lt_one_iff.mp (i 1).isLt
  refine (Shape.rowMajor_val_one (d := ![100000]) _).trans (Eq.trans ?_ (Shape.rowMajor_val_two (d := ![100000, 1]) i).symm)
  show (i 0).val = (i 0).val * 1 + (i 1).val
  rw [h1, Nat.mul_one, Nat.add_zero]

/-! ## The aggregation between two layers

From any buffer contents `V` that hold the edge sources, the edge targets, the edge weights and the layer's dense
output, the operations wrap a negative source index by adding 100000, gather the source rows, scale each by its
edge weight, and add the scaled rows into a zero matrix at the target rows.  The reference's stages are these
operations one by one with the same dimension records, so once the four inputs are named the two terms agree. -/

set_option maxHeartbeats 4000000 in
/-- The normalised neighbourhood sum of the second layer's dense output. -/
theorem agg2 (V : Valuation τ sig (Elt F)) (x0 : (⟨Cert.ReferenceIdeal.S100000x128, .f32⟩ : BufTy).Contents (Elt F)) (x1 : (⟨Cert.ReferenceIdeal.S2x3200000, .i32⟩ : BufTy).Contents (Elt F)) (x3 : (⟨Cert.ReferenceIdeal.S128x16, .f32⟩ : BufTy).Contents (Elt F)) (x4 : (⟨Cert.ReferenceIdeal.S16, .f32⟩ : BufTy).Contents (Elt F)) (x5 : (⟨Cert.ReferenceIdeal.S1, .f32⟩ : BufTy).Contents (Elt F)) (x6 : (⟨Cert.ReferenceIdeal.S16x16, .f32⟩ : BufTy).Contents (Elt F))
    (h3 : V (Proc.devRef .tc main_v3) = Cert.ReferenceIdeal.ReadP.val_main_v3 (F := F) x1) (h6 : V (Proc.devRef .tc main_v6) = Cert.ReferenceIdeal.ReadP.val_main_v6 (F := F) x1) (h29 : V (Proc.devRef .tc main_v29) = Cert.ReferenceIdeal.ReadP.val_main_v29 (F := F) x1)
    (hin : V (Proc.devRef .tc main_v46) = Cert.ReferenceIdeal.ReadP.val_main_v53 (F := F) x0 x1 x3 x4 x5 x6) :
    StableHlo.after (hostOps2 (F := F)) V (Proc.devRef .tc main_v59) = Cert.ReferenceIdeal.ReadP.val_main_v66 (F := F) x0 x1 x3 x4 x5 x6 := by
  after_results_simp
  rw [h3, h6, h29, hin]
  unfold Cert.ReferenceIdeal.ReadP.val_main_v66 Cert.ReferenceIdeal.ReadP.val_main_v65 Cert.ReferenceIdeal.ReadP.val_main_v64 Cert.ReferenceIdeal.ReadP.val_main_cst_12 Cert.ReferenceIdeal.ReadP.val_main_v63 Cert.ReferenceIdeal.ReadP.val_main_v62 Cert.ReferenceIdeal.ReadP.val_main_v61 Cert.ReferenceIdeal.ReadP.val_main_v60 Cert.ReferenceIdeal.ReadP.val_main_v59 Cert.ReferenceIdeal.ReadP.val_main_v58 Cert.ReferenceIdeal.ReadP.val_main_v57 Cert.ReferenceIdeal.ReadP.val_main_v56 Cert.ReferenceIdeal.ReadP.val_main_c_11 Cert.ReferenceIdeal.ReadP.val_main_v55 Cert.ReferenceIdeal.ReadP.val_main_v54 Cert.ReferenceIdeal.ReadP.val_main_c_10
  rfl

set_option maxHeartbeats 4000000 in
/-- The third layer's bias as a row. -/
theorem bias2 (V : Valuation τ sig (Elt F)) (x7 : (⟨Cert.ReferenceIdeal.S16, .f32⟩ : BufTy).Contents (Elt F)) (h : V (Proc.devRef .tc main_arg7) = x7) :
    StableHlo.after (hostOps2 (F := F)) V (Proc.devRef .tc main_v60) = Cert.ReferenceIdeal.ReadP.val_main_v67 (F := F) x7 := by
  after_results_simp
  rw [h]
  exact castRow16 x7

set_option maxHeartbeats 4000000 in
/-- The third layer's slope as a `1 × 1` matrix. -/
theorem slope2 (V : Valuation τ sig (Elt F)) (x8 : (⟨Cert.ReferenceIdeal.S1, .f32⟩ : BufTy).Contents (Elt F)) (h : V (Proc.devRef .tc main_arg8) = x8) :
    StableHlo.after (hostOps2 (F := F)) V (Proc.devRef .tc main_v61) = Cert.ReferenceIdeal.ReadP.val_main_v72 (F := F) x8 := by
  after_results_simp
  rw [h]
  exact castCell x8

set_option maxHeartbeats 4000000 in
/-- The normalised neighbourhood sum of the third layer's dense output. -/
theorem agg3 (V : Valuation τ sig (Elt F)) (x0 : (⟨Cert.ReferenceIdeal.S100000x128, .f32⟩ : BufTy).Contents (Elt F)) (x1 : (⟨Cert.ReferenceIdeal.S2x3200000, .i32⟩ : BufTy).Contents (Elt F)) (x3 : (⟨Cert.ReferenceIdeal.S128x16, .f32⟩ : BufTy).Contents (Elt F)) (x4 : (⟨Cert.ReferenceIdeal.S16, .f32⟩ : BufTy).Contents (Elt F)) (x5 : (⟨Cert.ReferenceIdeal.S1, .f32⟩ : BufTy).Contents (Elt F)) (x6 : (⟨Cert.ReferenceIdeal.S16x16, .f32⟩ : BufTy).Contents (Elt F)) (x7 : (⟨Cert.ReferenceIdeal.S16, .f32⟩ : BufTy).Contents (Elt F)) (x8 : (⟨Cert.ReferenceIdeal.S1, .f32⟩ : BufTy).Contents (Elt F)) (x9 : (⟨Cert.ReferenceIdeal.S16x16, .f32⟩ : BufTy).Contents (Elt F))
    (h3 : V (Proc.devRef .tc main_v3) = Cert.ReferenceIdeal.ReadP.val_main_v3 (F := F) x1) (h6 : V (Proc.devRef .tc main_v6) = Cert.ReferenceIdeal.ReadP.val_main_v6 (F := F) x1) (h29 : V (Proc.devRef .tc main_v29) = Cert.ReferenceIdeal.ReadP.val_main_v29 (F := F) x1)
    (hin : V (Proc.devRef .tc main_v62) = Cert.ReferenceIdeal.ReadP.val_main_v76 (F := F) x0 x1 x3 x4 x5 x6 x7 x8 x9) :
    StableHlo.after (hostOps3 (F := F)) V (Proc.devRef .tc main_v75) = Cert.ReferenceIdeal.ReadP.val_main_v89 (F := F) x0 x1 x3 x4 x5 x6 x7 x8 x9 := by
  after_results_simp
  rw [h3, h6, h29, hin]
  unfold Cert.ReferenceIdeal.ReadP.val_main_v89 Cert.ReferenceIdeal.ReadP.val_main_v88 Cert.ReferenceIdeal.ReadP.val_main_v87 Cert.ReferenceIdeal.ReadP.val_main_cst_16 Cert.ReferenceIdeal.ReadP.val_main_v86 Cert.ReferenceIdeal.ReadP.val_main_v85 Cert.ReferenceIdeal.ReadP.val_main_v84 Cert.ReferenceIdeal.ReadP.val_main_v83 Cert.ReferenceIdeal.ReadP.val_main_v82 Cert.ReferenceIdeal.ReadP.val_main_v81 Cert.ReferenceIdeal.ReadP.val_main_v80 Cert.ReferenceIdeal.ReadP.val_main_v79 Cert.ReferenceIdeal.ReadP.val_main_c_15 Cert.ReferenceIdeal.ReadP.val_main_v78 Cert.ReferenceIdeal.ReadP.val_main_v77 Cert.ReferenceIdeal.ReadP.val_main_c_14
  rfl

set_option maxHeartbeats 4000000 in
/-- The fourth layer's bias as a row. -/
theorem bias3 (V : Valuation τ sig (Elt F)) (x10 : (⟨Cert.ReferenceIdeal.S16, .f32⟩ : BufTy).Contents (Elt F)) (h : V (Proc.devRef .tc main_arg10) = x10) :
    StableHlo.after (hostOps3 (F := F)) V (Proc.devRef .tc main_v76) = Cert.ReferenceIdeal.ReadP.val_main_v90 (F := F) x10 := by
  after_results_simp
  rw [h]
  exact castRow16 x10

set_option maxHeartbeats 4000000 in
/-- The fourth layer's slope as a `1 × 1` matrix. -/
theorem slope3 (V : Valuation τ sig (Elt F)) (x11 : (⟨Cert.ReferenceIdeal.S1, .f32⟩ : BufTy).Contents (Elt F)) (h : V (Proc.devRef .tc main_arg11) = x11) :
    StableHlo.after (hostOps3 (F := F)) V (Proc.devRef .tc main_v77) = Cert.ReferenceIdeal.ReadP.val_main_v95 (F := F) x11 := by
  after_results_simp
  rw [h]
  exact castCell x11

set_option maxHeartbeats 4000000 in
/-- The normalised neighbourhood sum of the last layer's dense output (two columns). -/
theorem agg4 (V : Valuation τ sig (Elt F)) (x0 : (⟨Cert.ReferenceIdeal.S100000x128, .f32⟩ : BufTy).Contents (Elt F)) (x1 : (⟨Cert.ReferenceIdeal.S2x3200000, .i32⟩ : BufTy).Contents (Elt F)) (x3 : (⟨Cert.ReferenceIdeal.S128x16, .f32⟩ : BufTy).Contents (Elt F)) (x4 : (⟨Cert.ReferenceIdeal.S16, .f32⟩ : BufTy).Contents (Elt F)) (x5 : (⟨Cert.ReferenceIdeal.S1, .f32⟩ : BufTy).Contents (Elt F)) (x6 : (⟨Cert.ReferenceIdeal.S16x16, .f32⟩ : BufTy).Contents (Elt F)) (x7 : (⟨Cert.ReferenceIdeal.S16, .f32⟩ : BufTy).Contents (Elt F)) (x8 : (⟨Cert.ReferenceIdeal.S1, .f32⟩ : BufTy).Contents (Elt F)) (x9 : (⟨Cert.ReferenceIdeal.S16x16, .f32⟩ : BufTy).Contents (Elt F)) (x10 : (⟨Cert.ReferenceIdeal.S16, .f32⟩ : BufTy).Contents (Elt F)) (x11 : (⟨Cert.ReferenceIdeal.S1, .f32⟩ : BufTy).Contents (Elt F)) (x12 : (⟨Cert.ReferenceIdeal.S16x2, .f32⟩ : BufTy).Contents (Elt F))
    (h3 : V (Proc.devRef .tc main_v3) = Cert.ReferenceIdeal.ReadP.val_main_v3 (F := F) x1) (h6 : V (Proc.devRef .tc main_v6) = Cert.ReferenceIdeal.ReadP.val_main_v6 (F := F) x1) (h29 : V (Proc.devRef .tc main_v29) = Cert.ReferenceIdeal.ReadP.val_main_v29 (F := F) x1)
    (hin : V (Proc.devRef .tc main_v78) = Cert.ReferenceIdeal.ReadP.val_main_v99 (F := F) x0 x1 x3 x4 x5 x6 x7 x8 x9 x10 x11 x12) :
    StableHlo.after (hostOps4 (F := F)) V (Proc.devRef .tc main_v91) = Cert.ReferenceIdeal.ReadP.val_main_v112 (F := F) x0 x1 x3 x4 x5 x6 x7 x8 x9 x10 x11 x12 := by
  after_results_simp
  rw [h3, h6, h29, hin]
  unfold Cert.ReferenceIdeal.ReadP.val_main_v112 Cert.ReferenceIdeal.ReadP.val_main_v111 Cert.ReferenceIdeal.ReadP.val_main_v110 Cert.ReferenceIdeal.ReadP.val_main_cst_20 Cert.ReferenceIdeal.ReadP.val_main_v109 Cert.ReferenceIdeal.ReadP.val_main_v108 Cert.ReferenceIdeal.ReadP.val_main_v107 Cert.ReferenceIdeal.ReadP.val_main_v106 Cert.ReferenceIdeal.ReadP.val_main_v105 Cert.ReferenceIdeal.ReadP.val_main_v104 Cert.ReferenceIdeal.ReadP.val_main_v103 Cert.ReferenceIdeal.ReadP.val_main_v102 Cert.ReferenceIdeal.ReadP.val_main_c_19 Cert.ReferenceIdeal.ReadP.val_main_v101 Cert.ReferenceIdeal.ReadP.val_main_v100 Cert.ReferenceIdeal.ReadP.val_main_c_18
  rfl

set_option maxHeartbeats 4000000 in
/-- The last bias as a row. -/
theorem bias4 (V : Valuation τ sig (Elt F)) (x13 : (⟨Cert.ReferenceIdeal.S2, .f32⟩ : BufTy).Contents (Elt F)) (h : V (Proc.devRef .tc main_arg13) = x13) :
    StableHlo.after (hostOps4 (F := F)) V (Proc.devRef .tc main_v92) = Cert.ReferenceIdeal.ReadP.val_main_v113 (F := F) x13 := by
  after_results_simp
  rw [h]
  exact castRow2 x13

set_option maxHeartbeats 4000000 in
/-- The graph ids as a column. -/
theorem graph4 (V : Valuation τ sig (Elt F)) (x2 : (⟨Cert.ReferenceIdeal.S100000, .i32⟩ : BufTy).Contents (Elt F)) (h : V (Proc.devRef .tc main_arg2) = x2) :
    StableHlo.after (hostOps4 (F := F)) V (Proc.devRef .tc main_v93) = Cert.ReferenceIdeal.ReadP.val_main_v117 (F := F) x2 := by
  after_results_simp
  rw [h]
  exact castCol x2

end Chain

variable (m : (ℓ : Loc nD τ sig) → Buf (Elt Ideal) ℓ) (ρ : Dev nD → PrngReg)

/-- The stretch after region 1. -/
theorem stretch2 (c : Dev nD) (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x16, .f32⟩ : BufTy).Contents (Elt Ideal)) (x4 : (⟨Cert.ReferenceIdeal.S16, .f32⟩ : BufTy).Contents (Elt Ideal)) (x5 : (⟨Cert.ReferenceIdeal.S1, .f32⟩ : BufTy).Contents (Elt Ideal)) (x6 : (⟨Cert.ReferenceIdeal.S16x16, .f32⟩ : BufTy).Contents (Elt Ideal)) (x7 : (⟨Cert.ReferenceIdeal.S16, .f32⟩ : BufTy).Contents (Elt Ideal)) (x8 : (⟨Cert.ReferenceIdeal.S1, .f32⟩ : BufTy).Contents (Elt Ideal))
    (h3 : W6 m ρ c (Proc.devRef .tc main_v3) = Cert.ReferenceIdeal.ReadP.val_main_v3 (F := Ideal) x1) (h6 : W6 m ρ c (Proc.devRef .tc main_v6) = Cert.ReferenceIdeal.ReadP.val_main_v6 (F := Ideal) x1) (h29 : W6 m ρ c (Proc.devRef .tc main_v29) = Cert.ReferenceIdeal.ReadP.val_main_v29 (F := Ideal) x1)
    (hin : W6 m ρ c (Proc.devRef .tc main_v46) = Cert.ReferenceIdeal.ReadP.val_main_v53 (F := Ideal) x0 x1 x3 x4 x5 x6)
    (hb : W6 m ρ c (Proc.devRef .tc main_arg7) = x7) (ha : W6 m ρ c (Proc.devRef .tc main_arg8) = x8) :
    W7 m ρ c (Proc.devRef .tc main_v59) = Cert.ReferenceIdeal.ReadP.val_main_v66 (F := Ideal) x0 x1 x3 x4 x5 x6
    ∧ W7 m ρ c (Proc.devRef .tc main_v60) = Cert.ReferenceIdeal.ReadP.val_main_v67 (F := Ideal) x7
    ∧ W7 m ρ c (Proc.devRef .tc main_v61) = Cert.ReferenceIdeal.ReadP.val_main_v72 (F := Ideal) x8 :=
  ⟨agg2 (W6 m ρ c) x0 x1 x3 x4 x5 x6 h3 h6 h29 hin, bias2 (W6 m ρ c) x7 hb, slope2 (W6 m ρ c) x8 ha⟩

/-- The stretch after region 2. -/
theorem stretch3 (c : Dev nD) (x0 : (⟨Cert.ReferenceIdeal.S100000x128, .f32⟩ : BufTy).Contents (Elt Ideal)) (x1 : (⟨Cert.ReferenceIdeal.S2x3200000, .i32⟩ : BufTy).Contents (Elt Ideal)) (x3 : (⟨Cert.ReferenceIdeal.S128x16, .f32⟩ : BufTy).Contents (Elt Ideal)) (x4 : (⟨Cert.ReferenceIdeal.S16, .f32⟩ : BufTy).Contents (Elt Ideal)) (x5 : (⟨Cert.ReferenceIdeal.S1, .f32⟩ : BufTy).Contents (Elt Ideal)) (x6 : (⟨Cert.ReferenceIdeal.S16x16, .f32⟩ : BufTy).Contents (Elt Ideal)) (x7 : (⟨Cert.ReferenceIdeal.S16, .f32⟩ : BufTy).Contents (Elt Ideal)) (x8 : (⟨Cert.ReferenceIdeal.S1, .f32⟩ : BufTy).Contents (Elt Ideal)) (x9 : (⟨Cert.ReferenceIdeal.S16x16, .f32⟩ : BufTy).Contents (Elt Ideal)) (x10 : (⟨Cert.ReferenceIdeal.S16, .f32⟩ : BufTy).Contents (Elt Ideal)) (x11 : (⟨Cert.ReferenceIdeal.S1, .f32⟩ : BufTy).Contents (Elt Ideal))
    (h3 : W8 m ρ c (Proc.devRef .tc main_v3) = Cert.ReferenceIdeal.ReadP.val_main_v3 (F := Ideal) x1) (h6 : W8 m ρ c (Proc.devRef .tc main_v6) = Cert.ReferenceIdeal.ReadP.val_main_v6 (F := Ideal) x1) (h29 : W8 m ρ c (Proc.devRef .tc main_v29) = Cert.ReferenceIdeal.ReadP.val_main_v29 (F := Ideal) x1)
    (hin : W8 m ρ c (Proc.devRef .tc main_v62) = Cert.ReferenceIdeal.ReadP.val_main_v76 (F := Ideal) x0 x1 x3 x4 x5 x6 x7 x8 x9)
    (hb : W8 m ρ c (Proc.devRef .tc main_arg10) = x10) (ha : W8 m ρ c (Proc.devRef .tc main_arg11) = x11) :
    W9 m ρ c (Proc.devRef .tc main_v75) = Cert.ReferenceIdeal.ReadP.val_main_v89 (F := Ideal) x0 x1 x3 x4 x5 x6 x7 x8 x9
    ∧ W9 m ρ c (Proc.devRef .tc main_v76) = Cert.ReferenceIdeal.ReadP.val_main_v90 (F := Ideal) x10
    ∧ W9 m ρ c (Proc.devRef .tc main_v77) = Cert.ReferenceIdeal.ReadP.val_main_v95 (F := Ideal) x11 :=
  ⟨agg3 (W8 m ρ c) x0 x1 x3 x4 x5 x6 x7 x8 x9 h3 h6 h29 hin, bias3 (W8 m ρ c) x10 hb, slope3 (W8 m ρ c) x11 ha⟩

/-- The stretch after region 3: the last aggregation, the last bias as a row, and the graph ids as a column. -/
theorem stretch4 (c : Dev nD) (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S100000, .i32⟩ : BufTy).Contents (Elt Ideal)) (x3 : (⟨Cert.ReferenceIdeal.S128x16, .f32⟩ : BufTy).Contents (Elt Ideal)) (x4 : (⟨Cert.ReferenceIdeal.S16, .f32⟩ : BufTy).Contents (Elt Ideal)) (x5 : (⟨Cert.ReferenceIdeal.S1, .f32⟩ : BufTy).Contents (Elt Ideal)) (x6 : (⟨Cert.ReferenceIdeal.S16x16, .f32⟩ : BufTy).Contents (Elt Ideal)) (x7 : (⟨Cert.ReferenceIdeal.S16, .f32⟩ : BufTy).Contents (Elt Ideal)) (x8 : (⟨Cert.ReferenceIdeal.S1, .f32⟩ : BufTy).Contents (Elt Ideal)) (x9 : (⟨Cert.ReferenceIdeal.S16x16, .f32⟩ : BufTy).Contents (Elt Ideal)) (x10 : (⟨Cert.ReferenceIdeal.S16, .f32⟩ : BufTy).Contents (Elt Ideal)) (x11 : (⟨Cert.ReferenceIdeal.S1, .f32⟩ : BufTy).Contents (Elt Ideal)) (x12 : (⟨Cert.ReferenceIdeal.S16x2, .f32⟩ : BufTy).Contents (Elt Ideal)) (x13 : (⟨Cert.ReferenceIdeal.S2, .f32⟩ : BufTy).Contents (Elt Ideal))
    (h3 : W10 m ρ c (Proc.devRef .tc main_v3) = Cert.ReferenceIdeal.ReadP.val_main_v3 (F := Ideal) x1) (h6 : W10 m ρ c (Proc.devRef .tc main_v6) = Cert.ReferenceIdeal.ReadP.val_main_v6 (F := Ideal) x1) (h29 : W10 m ρ c (Proc.devRef .tc main_v29) = Cert.ReferenceIdeal.ReadP.val_main_v29 (F := Ideal) x1)
    (hin : W10 m ρ c (Proc.devRef .tc main_v78) = Cert.ReferenceIdeal.ReadP.val_main_v99 (F := Ideal) x0 x1 x3 x4 x5 x6 x7 x8 x9 x10 x11 x12)
    (hb : W10 m ρ c (Proc.devRef .tc main_arg13) = x13) (hg : W10 m ρ c (Proc.devRef .tc main_arg2) = x2) :
    W11 m ρ c (Proc.devRef .tc main_v91) = Cert.ReferenceIdeal.ReadP.val_main_v112 (F := Ideal) x0 x1 x3 x4 x5 x6 x7 x8 x9 x10 x11 x12
    ∧ W11 m ρ c (Proc.devRef .tc main_v92) = Cert.ReferenceIdeal.ReadP.val_main_v113 (F := Ideal) x13
    ∧ W11 m ρ c (Proc.devRef .tc main_v93) = Cert.ReferenceIdeal.ReadP.val_main_v117 (F := Ideal) x2 :=
  ⟨agg4 (W10 m ρ c) x0 x1 x3 x4 x5 x6 x7 x8 x9 x10 x11 x12 h3 h6 h29 hin, bias4 (W10 m ρ c) x13 hb, graph4 (W10 m ρ c) x2 hg⟩

end Cert.KVal

end
-- ==== Proof.RefSide.lean ====
/- The reference's dense stages read as the shared specification: the first matrix product, and the three stages bias, PReLU, matrix product. -/
import proofs.«429556_j17008070492799_2_alg».proof.Proof.RefRead
import proofs.«429556_j17008070492799_2_alg».proof.Proof.Spec
import Idealize.ShloMosaic.Lib.Pipeline.Value

set_option maxRecDepth 16384

noncomputable section

namespace Cert.RVal

open Cert.ReferenceIdeal Cert.ReferenceIdeal.ReadP Idealize.ShloMosaic Idealize.ShloMosaic.ValueIdx

variable (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x16, .f32⟩ : BufTy).Contents (Elt Ideal)) (x4 : (⟨S16, .f32⟩ : BufTy).Contents (Elt Ideal)) (x5 : (⟨S1, .f32⟩ : BufTy).Contents (Elt Ideal)) (x6 : (⟨S16x16, .f32⟩ : BufTy).Contents (Elt Ideal)) (x7 : (⟨S16, .f32⟩ : BufTy).Contents (Elt Ideal)) (x8 : (⟨S1, .f32⟩ : BufTy).Contents (Elt Ideal)) (x9 : (⟨S16x16, .f32⟩ : BufTy).Contents (Elt Ideal)) (x10 : (⟨S16, .f32⟩ : BufTy).Contents (Elt Ideal)) (x11 : (⟨S1, .f32⟩ : BufTy).Contents (Elt Ideal)) (x12 : (⟨S16x2, .f32⟩ : BufTy).Contents (Elt Ideal)) (x13 : (⟨S2, .f32⟩ : BufTy).Contents (Elt Ideal))

/-- The reference's first matrix product is `Spec.lin`. -/
theorem ref_lin : val_main_v30 (F := Ideal) x0 x3 = Spec.lin x0 x3 := by
  funext i
  rw [val_main_v30_apply]
  unfold Spec.lin
  refine Finset.sum_congr rfl fun k _ => ?_
  have el : lidx_main_v30 i k = ix2 (n0 := 100000) (n1 := 128) (i 0) k :=
    funext fun d => Fin.ext (by match d with | ⟨0, _⟩ => rfl | ⟨1, _⟩ => rfl)
  have er : ridx_main_v30 i k = ix2 (n0 := 128) (n1 := 16) k (i 1) :=
    funext fun d => Fin.ext (by match d with | ⟨0, _⟩ => rfl | ⟨1, _⟩ => rfl)
  rw [el, er]

/-- One entry of the stage that feeds the second matrix product: the bias row's entry of the same column is added, the
    sum is compared with the zero word (which reads as the number zero) and kept where it is greater, and multiplied
    by the one slope elsewhere: `Spec.prelu` of the sum and the slope. -/
theorem v52_at (j : S100000x16.Idx) :
    val_main_v52 (F := Ideal) x0 x1 x3 x4 x5 j
      = Spec.prelu (val_main_v43 (F := Ideal) x0 x1 x3 j + val_main_v44 (F := Ideal) x4 (ix2 0 (j 1)))
          (val_main_v49 (F := Ideal) x5 (ix2 0 0)) := by
  have eb : idx_main_v45 j = ix2 0 (j 1) :=
    funext fun d => Fin.ext (by match d with | ⟨0, _⟩ => rfl | ⟨1, _⟩ => rfl)
  have ea : idx_main_v50 j = ix2 0 0 :=
    funext fun d => Fin.ext (by match d with | ⟨0, _⟩ => rfl | ⟨1, _⟩ => rfl)
  rw [val_main_v52_apply, val_main_v48_apply, val_main_v51_apply, val_main_v50_apply, val_main_v47_apply,
    val_main_cst_9_apply, val_main_v46_apply, val_main_v45_apply, eb, ea]
  unfold Spec.prelu
  rw [← Ideal.ofBits_zero_f32]
  rfl

/-- The reference's second dense stage is `Spec.fused` of its first aggregation, its bias row, its slope and its weights. -/
theorem ref_fused1 : val_main_v53 (F := Ideal) x0 x1 x3 x4 x5 x6
    = Spec.fused (val_main_v43 (F := Ideal) x0 x1 x3) (val_main_v44 (F := Ideal) x4) (val_main_v49 (F := Ideal) x5) x6 := by
  funext i
  rw [val_main_v53_apply]
  unfold Spec.fused
  refine Finset.sum_congr rfl fun k _ => ?_
  have el : lidx_main_v53 i k = ix2 (n0 := 100000) (n1 := 16) (i 0) k :=
    funext fun d => Fin.ext (by match d with | ⟨0, _⟩ => rfl | ⟨1, _⟩ => rfl)
  have er : ridx_main_v53 i k = ix2 (n0 := 16) (n1 := 16) k (i 1) :=
    funext fun d => Fin.ext (by match d with | ⟨0, _⟩ => rfl | ⟨1, _⟩ => rfl)
  rw [v52_at, el, er] <;> rfl

/-- One entry of the stage that feeds the third matrix product: the bias row's entry of the same column is added, the
    sum is compared with the zero word (which reads as the number zero) and kept where it is greater, and multiplied
    by the one slope elsewhere: `Spec.prelu` of the sum and the slope. -/
theorem v75_at (j : S100000x16.Idx) :
    val_main_v75 (F := Ideal) x0 x1 x3 x4 x5 x6 x7 x8 j
      = Spec.prelu (val_main_v66 (F := Ideal) x0 x1 x3 x4 x5 x6 j + val_main_v67 (F := Ideal) x7 (ix2 0 (j 1)))
          (val_main_v72 (F := Ideal) x8 (ix2 0 0)) := by
  have eb : idx_main_v68 j = ix2 0 (j 1) :=
    funext fun d => Fin.ext (by match d with | ⟨0, _⟩ => rfl | ⟨1, _⟩ => rfl)
  have ea : idx_main_v73 j = ix2 0 0 :=
    funext fun d => Fin.ext (by match d with | ⟨0, _⟩ => rfl | ⟨1, _⟩ => rfl)
  rw [val_main_v75_apply, val_main_v71_apply, val_main_v74_apply, val_main_v73_apply, val_main_v70_apply,
    val_main_cst_13_apply, val_main_v69_apply, val_main_v68_apply, eb, ea]
  unfold Spec.prelu
  rw [← Ideal.ofBits_zero_f32]
  rfl

/-- The third dense stage. -/
theorem ref_fused2 : val_main_v76 (F := Ideal) x0 x1 x3 x4 x5 x6 x7 x8 x9
    = Spec.fused (val_main_v66 (F := Ideal) x0 x1 x3 x4 x5 x6) (val_main_v67 (F := Ideal) x7) (val_main_v72 (F := Ideal) x8) x9 := by
  funext i
  rw [val_main_v76_apply]
  unfold Spec.fused
  refine Finset.sum_congr rfl fun k _ => ?_
  have el : lidx_main_v76 i k = ix2 (n0 := 100000) (n1 := 16) (i 0) k :=
    funext fun d => Fin.ext (by match d with | ⟨0, _⟩ => rfl | ⟨1, _⟩ => rfl)
  have er : ridx_main_v76 i k = ix2 (n0 := 16) (n1 := 16) k (i 1) :=
    funext fun d => Fin.ext (by match d with | ⟨0, _⟩ => rfl | ⟨1, _⟩ => rfl)
  rw [v75_at, el, er] <;> rfl

/-- One entry of the stage that feeds the fourth matrix product: the bias row's entry of the same column is added, the
    sum is compared with the zero word (which reads as the number zero) and kept where it is greater, and multiplied
    by the one slope elsewhere: `Spec.prelu` of the sum and the slope. -/
theorem v98_at (j : S100000x16.Idx) :
    val_main_v98 (F := Ideal) x0 x1 x3 x4 x5 x6 x7 x8 x9 x10 x11 j
      = Spec.prelu (val_main_v89 (F := Ideal) x0 x1 x3 x4 x5 x6 x7 x8 x9 j + val_main_v90 (F := Ideal) x10 (ix2 0 (j 1)))
          (val_main_v95 (F := Ideal) x11 (ix2 0 0)) := by
  have eb : idx_main_v91 j = ix2 0 (j 1) :=
    funext fun d => Fin.ext (by match d with | ⟨0, _⟩ => rfl | ⟨1, _⟩ => rfl)
  have ea : idx_main_v96 j = ix2 0 0 :=
    funext fun d => Fin.ext (by match d with | ⟨0, _⟩ => rfl | ⟨1, _⟩ => rfl)
  rw [val_main_v98_apply, val_main_v94_apply, val_main_v97_apply, val_main_v96_apply, val_main_v93_apply,
    val_main_cst_17_apply, val_main_v92_apply, val_main_v91_apply, eb, ea]
  unfold Spec.prelu
  rw [← Ideal.ofBits_zero_f32]
  rfl

/-- The fourth dense stage, into two columns. -/
theorem ref_fused3 : val_main_v99 (F := Ideal) x0 x1 x3 x4 x5 x6 x7 x8 x9 x10 x11 x12
    = Spec.fused (val_main_v89 (F := Ideal) x0 x1 x3 x4 x5 x6 x7 x8 x9) (val_main_v90 (F := Ideal) x10) (val_main_v95 (F := Ideal) x11) x12 := by
  funext i
  rw [val_main_v99_apply]
  unfold Spec.fused
  refine Finset.sum_congr rfl fun k _ => ?_
  have el : lidx_main_v99 i k = ix2 (n0 := 100000) (n1 := 16) (i 0) k :=
    funext fun d => Fin.ext (by match d with | ⟨0, _⟩ => rfl | ⟨1, _⟩ => rfl)
  have er : ridx_main_v99 i k = ix2 (n0 := 16) (n1 := 2) k (i 1) :=
    funext fun d => Fin.ext (by match d with | ⟨0, _⟩ => rfl | ⟨1, _⟩ => rfl)
  rw [v98_at, el, er] <;> rfl

end Cert.RVal

end
-- ==== Proof.RefPool.lean ====
/- The reference's mean pool read as the shared specification: two accumulating scatters over the graph ids (the row sums and the row counts), a maximum with one and a division.

   An accumulating scatter adds every update at the index it lands on.  With one scatter index per row, read
   signed off the id column, and the first operand axis inserted, update (r, c) lands on (id r, c) when the id
   is the number of a graph, and nowhere otherwise.  So the scatter at (g, c) is the start value plus the sum of
   the updates (r, c) over the rows r whose id is the word of g: the specification's pooled sum. -/
import proofs.«429556_j17008070492799_2_alg».proof.Proof.RefRead
import proofs.«429556_j17008070492799_2_alg».proof.Proof.Spec
import Idealize.ShloMosaic.Lib.Pipeline.Value
import Idealize.ShloMosaic.Lib.ValueIdxRank1

set_option maxRecDepth 16384

noncomputable section

namespace Cert.RVal

open Cert.ReferenceIdeal Cert.ReferenceIdeal.ReadP Idealize.ShloMosaic Idealize.ShloMosaic.ValueIdx

variable (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x16, .f32⟩ : BufTy).Contents (Elt Ideal)) (x4 : (⟨S16, .f32⟩ : BufTy).Contents (Elt Ideal)) (x5 : (⟨S1, .f32⟩ : BufTy).Contents (Elt Ideal)) (x6 : (⟨S16x16, .f32⟩ : BufTy).Contents (Elt Ideal)) (x7 : (⟨S16, .f32⟩ : BufTy).Contents (Elt Ideal)) (x8 : (⟨S1, .f32⟩ : BufTy).Contents (Elt Ideal)) (x9 : (⟨S16x16, .f32⟩ : BufTy).Contents (Elt Ideal)) (x10 : (⟨S16, .f32⟩ : BufTy).Contents (Elt Ideal)) (x11 : (⟨S1, .f32⟩ : BufTy).Contents (Elt Ideal)) (x12 : (⟨S16x2, .f32⟩ : BufTy).Contents (Elt Ideal)) (x13 : (⟨S2, .f32⟩ : BufTy).Contents (Elt Ideal))

/-! ## Where an update lands -/

/-- The dimension numbers of the scatter of the row sums (updates with two columns). -/
abbrev dS := scatter_S64x2_S100000x1_S100000x2_1_0_0_1
/-- The dimension numbers of the scatter of the row counts (one update a row). -/
abbrev dC := scatter_S64_S100000x1_S100000_n_0_0_1

/-- On the graph axis the window of update `j` starts at the id of row `j 0`, read signed. -/
theorem dS_start0 (idx : IVec S100000x1 32) (j : S100000x2.Idx) :
    dS.start j idx 0 = (idx (ix2 (j 0) 0)).toInt := by
  have h : dS.siIdx j ⟨0, by decide⟩ = ix2 (j 0) 0 := by
    funext b
    match b with
    | ⟨0, _⟩ => rfl
    | ⟨1, _⟩ => rfl
  show (idx (dS.siIdx j ⟨0, _⟩)).toInt = _
  rw [h]; rfl

/-- The column axis is not named by the index vector: the window starts at 0 there. -/
theorem dS_start1 (idx : IVec S100000x1 32) (j : S100000x2.Idx) : dS.start j idx 1 = 0 := rfl
/-- The graph axis is inserted: the window coordinate is 0 there. -/
theorem dS_window0 (j : S100000x2.Idx) : dS.window j 0 = 0 := rfl
/-- On the column axis the window coordinate is the update's column. -/
theorem dS_window1 (j : S100000x2.Idx) : dS.window j 1 = (j 1).val := rfl

/-- For the counts the window of update `j` starts at the id of row `j 0`, read signed. -/
theorem dC_start0 (idx : IVec S100000x1 32) (j : S100000.Idx) :
    dC.start j idx 0 = (idx (ix2 (j 0) 0)).toInt := by
  have h : dC.siIdx j ⟨0, by decide⟩ = ix2 (j 0) 0 := by
    funext b
    match b with
    | ⟨0, _⟩ => rfl
    | ⟨1, _⟩ => rfl
  show (idx (dC.siIdx j ⟨0, _⟩)).toInt = _
  rw [h]; rfl
/-- The one operand axis is inserted: the window coordinate is 0. -/
theorem dC_window0 (j : S100000.Idx) : dC.window j 0 = 0 := rfl

/-- Update `j` of the row sums lands on `i` exactly when the id of its row, read signed, is the graph
    coordinate of `i` and the columns agree (an id outside 0 … 63 lands nowhere). -/
theorem dS_resultIdx_iff (idx : IVec S100000x1 32) (j : S100000x2.Idx) (i : S64x2.Idx) :
    dS.resultIdx? j idx = some i ↔
      (idx (ix2 (j 0) 0)).toInt = ((i 0).val : Int) ∧ (j 1).val = (i 1).val := by
  have hi0 : (i 0).val < 64 := (i 0).isLt
  have hi1 : (i 1).val < 2 := (i 1).isLt
  have hj1 : (j 1).val < 2 := (j 1).isLt
  unfold ScatterDims.resultIdx?
  split
  · rename_i h
    rw [Option.some.injEq]
    constructor
    · intro e
      have e0 : (dS.start j idx 0 + (dS.window j 0 : Int)).toNat = (i 0).val := congrArg Fin.val (congrFun e 0)
      have e1 : (dS.start j idx 1 + (dS.window j 1 : Int)).toNat = (i 1).val := congrArg Fin.val (congrFun e 1)
      have h0 := (h 0).1
      rw [dS_start0, dS_window0] at e0 h0
      rw [dS_start1, dS_window1] at e1
      constructor <;> omega
    · rintro ⟨e0, e1⟩
      funext a
      match a with
      | ⟨0, _⟩ =>
        apply Fin.ext
        show (dS.start j idx 0 + (dS.window j 0 : Int)).toNat = (i 0).val
        rw [dS_start0, dS_window0]; omega
      | ⟨1, _⟩ =>
        apply Fin.ext
        show (dS.start j idx 1 + (dS.window j 1 : Int)).toNat = (i 1).val
        rw [dS_start1, dS_window1]; omega
  · rename_i h
    constructor
    · intro e; cases e
    · rintro ⟨e0, e1⟩
      exfalso; apply h
      intro a
      match a with
      | ⟨0, _⟩ =>
        show 0 ≤ dS.start j idx 0 + (dS.window j 0 : Int) ∧ dS.start j idx 0 + (dS.window j 0 : Int) < ((64 : Nat) : Int)
        rw [dS_start0, dS_window0]; omega
      | ⟨1, _⟩ =>
        show 0 ≤ dS.start j idx 1 + (dS.window j 1 : Int) ∧ dS.start j idx 1 + (dS.window j 1 : Int) < ((2 : Nat) : Int)
        rw [dS_start1, dS_window1]; omega

/-- Update `j` of the row counts lands on `i` exactly when the id of its row, read signed, is the
    coordinate of `i`. -/
theorem dC_resultIdx_iff (idx : IVec S100000x1 32) (j : S100000.Idx) (i : S64.Idx) :
    dC.resultIdx? j idx = some i ↔ (idx (ix2 (j 0) 0)).toInt = ((i 0).val : Int) := by
  have hi0 : (i 0).val < 64 := (i 0).isLt
  unfold ScatterDims.resultIdx?
  split
  · rename_i h
    rw [Option.some.injEq]
    constructor
    · intro e
      have e0 : (dC.start j idx 0 + (dC.window j 0 : Int)).toNat = (i 0).val := congrArg Fin.val (congrFun e 0)
      have h0 := (h 0).1
      rw [dC_start0, dC_window0] at e0 h0
      omega
    · intro e0
      funext a
      match a with
      | ⟨0, _⟩ =>
        apply Fin.ext
        show (dC.start j idx 0 + (dC.window j 0 : Int)).toNat = (i 0).val
        rw [dC_start0, dC_window0]; omega
  · rename_i h
    constructor
    · intro e; cases e
    · intro e0
      exfalso; apply h
      intro a
      match a with
      | ⟨0, _⟩ =>
        show 0 ≤ dC.start j idx 0 + (dC.window j 0 : Int) ∧ dC.start j idx 0 + (dC.window j 0 : Int) < ((64 : Nat) : Int)
        rw [dC_start0, dC_window0]; omega

/-- A 32-bit word read signed is the number of a graph (below 64) exactly when it is that number's word. -/
theorem toInt_eq_graph_iff (w : BitVec 32) (g : Fin 64) :
    w.toInt = (g.val : Int) ↔ w = BitVec.ofNat 32 g.val := by
  have hg : ∀ g : Fin 64, (BitVec.ofNat 32 g.val).toInt = (g.val : Int) := by decide
  constructor
  · intro h
    apply BitVec.eq_of_toInt_eq
    rw [h, hg]
  · intro h
    rw [h, hg]

/-! ## The two scatters read at an index -/

/-- The accumulating scatter of the rows (two columns) read at an index: the start value plus the
    sum, over the rows whose id is the word of the graph, of the update at that row and the index's column. -/
theorem scatterS_apply (x : S64x2.Idx → EReal) (idx : IVec S100000x1 32) (upd : S100000x2.Idx → EReal)
    (g : Fin 64) (c1 : Fin 2) :
    Ideal.hostScatterAdd dS x idx upd (ix2 g c1)
      = x (ix2 g c1) + ∑ r : Fin 100000, if idx (ix2 r 0) = BitVec.ofNat 32 g.val then upd (ix2 r c1) else 0 := by
  have key : ∀ (r : Fin 100000) (c : Fin 2), dS.resultIdx? (ix2 r c) idx = some (ix2 g c1) ↔
      (idx (ix2 r 0) = BitVec.ofNat 32 g.val ∧ c = c1) := by
    intro r c
    rw [dS_resultIdx_iff]
    exact and_congr (toInt_eq_graph_iff _ g) Fin.ext_iff.symm
  unfold Ideal.hostScatterAdd
  refine congrArg (fun z => x (ix2 g c1) + z) ?_
  rw [Finset.sum_filter, sum_idx2]
  refine Finset.sum_congr rfl fun r _ => ?_
  refine (Finset.sum_congr rfl (fun c _ => if_congr (key r c) rfl rfl)).trans ?_
  by_cases hb : idx (ix2 r 0) = BitVec.ofNat 32 g.val
  · rw [if_pos hb]
    refine (Finset.sum_congr rfl (fun c _ => if_congr (and_iff_right hb) rfl rfl)).trans ?_
    exact (Finset.sum_ite_eq' Finset.univ c1 (fun c => upd (ix2 r c))).trans (if_pos (Finset.mem_univ _))
  · rw [if_neg hb]
    exact Finset.sum_eq_zero (fun c _ => if_neg (fun h => hb h.1))

/-- The accumulating scatter of the counts read at an index: the start value plus the sum of the
    updates over the rows whose id is the word of the graph. -/
theorem scatterC_apply (x : S64.Idx → EReal) (idx : IVec S100000x1 32) (upd : S100000.Idx → EReal)
    (g : Fin 64) :
    Ideal.hostScatterAdd dC x idx upd (ix1 g)
      = x (ix1 g) + ∑ r : Fin 100000, if idx (ix2 r 0) = BitVec.ofNat 32 g.val then upd (ix1 r) else 0 := by
  have key : ∀ r : Fin 100000, dC.resultIdx? (ix1 r) idx = some (ix1 g) ↔
      idx (ix2 r 0) = BitVec.ofNat 32 g.val := by
    intro r
    rw [dC_resultIdx_iff]
    exact toInt_eq_graph_iff _ g
  unfold Ideal.hostScatterAdd
  refine congrArg (fun z => x (ix1 g) + z) ?_
  rw [Finset.sum_filter, ← Equiv.sum_comp (idxEquiv1 (n := 100000)).symm]
  refine Finset.sum_congr rfl fun r _ => ?_
  exact if_congr (key r) rfl rfl

/-! ## The reference's stages -/

/-- One update of the row scatter: the aggregated feature plus the bias of its column, which is the
    specification's row with the ones appended, at a column below 2. -/
theorem ref_upd (r : Fin 100000) (c : Fin 2) :
    val_main_v115 (F := Ideal) x0 x1 x3 x4 x5 x6 x7 x8 x9 x10 x11 x12 x13 (ix2 r c)
      = Spec.withOnes (val_main_v112 (F := Ideal) x0 x1 x3 x4 x5 x6 x7 x8 x9 x10 x11 x12) (val_main_v113 (F := Ideal) x13) r
          ⟨c.val, Nat.lt_succ_of_lt c.isLt⟩ := by
  have hk : idx_main_v114 (ix2 r c) = ix2 0 c := by
    funext a
    match a with
    | ⟨0, _⟩ => rfl
    | ⟨1, _⟩ => rfl
  rw [val_main_v115_apply, val_main_v114_apply, hk]
  unfold Spec.withOnes
  rw [dif_pos (show (⟨c.val, Nat.lt_succ_of_lt c.isLt⟩ : Fin 3).val < 2 from c.isLt)]
  rfl

/-- The row sums of the reference are the specification's pooled sums in the columns below 2. -/
theorem ref_sums (g : Fin 64) (c : Fin 2) :
    val_main_v118 (F := Ideal) x0 x1 x2 x3 x4 x5 x6 x7 x8 x9 x10 x11 x12 x13 (ix2 g c)
      = Spec.pool (G := 64) (val_main_v117 (F := Ideal) x2) (val_main_v112 (F := Ideal) x0 x1 x3 x4 x5 x6 x7 x8 x9 x10 x11 x12)
          (val_main_v113 (F := Ideal) x13) (ix2 g ⟨c.val, Nat.lt_succ_of_lt c.isLt⟩) := by
  show Ideal.hostScatterAdd dS (val_main_v116 (F := Ideal)) (val_main_v117 (F := Ideal) x2)
      (val_main_v115 (F := Ideal) x0 x1 x3 x4 x5 x6 x7 x8 x9 x10 x11 x12 x13) (ix2 g c) = _
  rw [scatterS_apply, val_main_v116_apply, val_main_cst_21_apply]
  show Ideal.ofBits .f32 0x00000000#32 + _ = _
  rw [Ideal.ofBits_zero_f32, zero_add]
  unfold Spec.pool
  refine Finset.sum_congr rfl fun r _ => ?_
  rw [ref_upd]

/-- The row counts of the reference are the specification's pooled column 2. -/
theorem ref_counts (agg : Spec.Mat 100000 2) (b : Spec.Mat 1 2) (g : Fin 64) :
    val_main_v122 (F := Ideal) x2 (ix1 g)
      = Spec.pool (G := 64) (val_main_v117 (F := Ideal) x2) agg b (ix2 g 2) := by
  show Ideal.hostScatterAdd dC (val_main_v120 (F := Ideal)) (val_main_v117 (F := Ideal) x2)
      (val_main_v119 (F := Ideal)) (ix1 g) = _
  rw [scatterC_apply, val_main_v120_apply, val_main_cst_23_apply]
  show Ideal.ofBits .f32 0x00000000#32 + _ = _
  rw [Ideal.ofBits_zero_f32, zero_add]
  unfold Spec.pool
  refine Finset.sum_congr rfl fun r _ => ?_
  rw [val_main_v119_apply, val_main_cst_22_apply]
  have h1 : Spec.withOnes agg b r ((ix2 g (2 : Fin 3)) 1) = Spec.one := by
    unfold Spec.withOnes
    exact dif_neg (show ¬ ((2 : Fin 3).val < 2) by decide)
  rw [h1]
  rfl

/-- The reference's result is the mean of each graph over the pooled sums and counts of the last aggregation. -/
theorem ref_mean : val_main_v127 (F := Ideal) x0 x1 x2 x3 x4 x5 x6 x7 x8 x9 x10 x11 x12 x13
    = Spec.meanOf (Spec.pool (val_main_v117 (F := Ideal) x2) (val_main_v112 (F := Ideal) x0 x1 x3 x4 x5 x6 x7 x8 x9 x10 x11 x12) (val_main_v113 (F := Ideal) x13)) := by
  funext i
  obtain ⟨g, c, rfl⟩ : ∃ (g : Fin 64) (c : Fin 2), i = ix2 g c := ⟨i 0, i 1, eq_ix2 i⟩
  have hk : idx_main_v125 (idx_main_v126 (ix2 g c)) = ix1 g := by
    funext a
    match a with
    | ⟨0, _⟩ => rfl
  rw [val_main_v127_apply, val_main_v126_apply, val_main_v125_apply, hk, val_main_v124_apply,
    val_main_v123_apply, val_main_cst_24_apply, ref_sums,
    ref_counts x2 (val_main_v112 (F := Ideal) x0 x1 x3 x4 x5 x6 x7 x8 x9 x10 x11 x12) (val_main_v113 (F := Ideal) x13)]
  rfl

end Cert.RVal

end
-- ==== Proof.Bridge.lean ====
/- The two programs meet stage by stage.  The kernel program is five kernel regions among stretches of host
   operations; the reference is the same host operations with a dense stage where each region stands.  Each
   region's output array is a matrix function of the arrays it finds (the specification's `lin`, `fused`,
   `pool`), the reference's dense stages are the same functions, and each stretch between two regions is
   literally the reference's gather, scale and scatter.  So, walking the program's boundaries in order, every
   buffer a later segment reads holds the reference's stage value, and the last stretch gives the mean. -/
import proofs.«429556_j17008070492799_2_alg».proof.Proof.Gen.KernelIdeal.Frame
import proofs.«429556_j17008070492799_2_alg».proof.Proof.RefRead
import proofs.«429556_j17008070492799_2_alg».proof.Proof.Spec
import proofs.«429556_j17008070492799_2_alg».proof.Proof.Region0
import proofs.«429556_j17008070492799_2_alg».proof.Proof.Region1
import proofs.«429556_j17008070492799_2_alg».proof.Proof.Region2
import proofs.«429556_j17008070492799_2_alg».proof.Proof.Region3
import proofs.«429556_j17008070492799_2_alg».proof.Proof.Region4
import proofs.«429556_j17008070492799_2_alg».proof.Proof.Tail
import proofs.«429556_j17008070492799_2_alg».proof.Proof.Carry
import proofs.«429556_j17008070492799_2_alg».proof.Proof.Stretch
import proofs.«429556_j17008070492799_2_alg».proof.Proof.Stretch2
import proofs.«429556_j17008070492799_2_alg».proof.Proof.RefSide
import proofs.«429556_j17008070492799_2_alg».proof.Proof.RefPool

set_option maxRecDepth 16384

noncomputable section

namespace Cert.Bridge

open Cert.KernelIdeal Cert.KernelIdeal.Gen Idealize.ShloMosaic Idealize.ShloMosaic.TcCoe Idealize.SL.Sem
open Cert.KVal Cert.RVal

variable (m : (ℓ : Loc nD τ sig) → Buf (Elt Ideal) ℓ) (ρ : Dev nD → PrngReg)

/-- The edge sources with the self loops, the edge targets and the edge weights are the reference's. -/
theorem edges (c : Dev nD) :
    W3 m ρ c (Proc.devRef .tc main_v3) = Cert.ReferenceIdeal.ReadP.val_main_v3 (F := Ideal) (m ((c : Thread nD τ).loc main_arg1))
    ∧ W3 m ρ c (Proc.devRef .tc main_v6) = Cert.ReferenceIdeal.ReadP.val_main_v6 (F := Ideal) (m ((c : Thread nD τ).loc main_arg1))
    ∧ W3 m ρ c (Proc.devRef .tc main_v29) = Cert.ReferenceIdeal.ReadP.val_main_v29 (F := Ideal) (m ((c : Thread nD τ).loc main_arg1)) :=
  stretch0 m ρ c (m ((c : Thread nD τ).loc main_arg1)) (args0 m ρ c)

/-- Region 0 leaves the reference's first matrix product. -/
theorem out0 (c : Dev nD) : W4 m ρ c (Proc.devRef .tc main_v30)
      = Cert.ReferenceIdeal.ReadP.val_main_v30 (F := Ideal) (m ((c : Thread nD τ).loc main_arg0)) (m ((c : Thread nD τ).loc main_arg3)) := by
  obtain ⟨a0, a3⟩ := args3 m ρ c
  refine (W4_arr m ρ c 2).trans ?_
  refine (region0_value (V3 m ρ) c).trans ?_
  rw [show V3 m ρ c main_arg0 = W3 m ρ c (Proc.devRef .tc main_arg0) from rfl,
    show V3 m ρ c main_arg3 = W3 m ρ c (Proc.devRef .tc main_arg3) from rfl, a0, a3]
  exact (ref_lin _ _).symm

/-- Region 1 leaves the reference's second dense stage: the stretch before it makes the reference's first aggregation, bias row and slope, and the region is the fused map of those. -/
theorem out1 (c : Dev nD) : W6 m ρ c (Proc.devRef .tc main_v46)
      = Cert.ReferenceIdeal.ReadP.val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  obtain ⟨s3, s6, s29⟩ := edges m ρ c
  obtain ⟨c3, c6, c29⟩ := carry4 m ρ c
  obtain ⟨ab, aa⟩ := args4 m ρ c
  obtain ⟨hagg, hb, ha⟩ := stretch1 m ρ c (m ((c : Thread nD τ).loc main_arg0)) (m ((c : Thread nD τ).loc main_arg1)) (m ((c : Thread nD τ).loc main_arg3)) (m ((c : Thread nD τ).loc main_arg4)) (m ((c : Thread nD τ).loc main_arg5))
    (c3.trans s3) (c6.trans s6) (c29.trans s29) (out0 m ρ c) ab aa
  refine (W6_arr m ρ c 4).trans ?_
  refine (region1_value (V5 m ρ) c).trans ?_
  rw [show V5 m ρ c main_v43 = W5 m ρ c (Proc.devRef .tc main_v43) from rfl,
    show V5 m ρ c main_v44 = W5 m ρ c (Proc.devRef .tc main_v44) from rfl,
    show V5 m ρ c main_v45 = W5 m ρ c (Proc.devRef .tc main_v45) from rfl,
    show V5 m ρ c main_arg6 = W5 m ρ c (Proc.devRef .tc main_arg6) from rfl,
    hagg, hb, ha, args5 m ρ c]
  exact (ref_fused1 _ _ _ _ _ _).symm

/-- Region 2 leaves the reference's third dense stage. -/
theorem out2 (c : Dev nD) : W8 m ρ c (Proc.devRef .tc main_v62)
      = Cert.ReferenceIdeal.ReadP.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  obtain ⟨s3, s6, s29⟩ := edges m ρ c
  obtain ⟨c3, c6, c29⟩ := carry6 m ρ c
  obtain ⟨ab, aa⟩ := args6 m ρ c
  obtain ⟨hagg, hb, ha⟩ := stretch2 m ρ c (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (c3.trans s3) (c6.trans s6) (c29.trans s29) (out1 m ρ c) ab aa
  refine (W8_arr m ρ c 4).trans ?_
  refine (region2_value (V7 m ρ) c).trans ?_
  rw [show V7 m ρ c main_v59 = W7 m ρ c (Proc.devRef .tc main_v59) from rfl,
    show V7 m ρ c main_v60 = W7 m ρ c (Proc.devRef .tc main_v60) from rfl,
    show V7 m ρ c main_v61 = W7 m ρ c (Proc.devRef .tc main_v61) from rfl,
    show V7 m ρ c main_arg9 = W7 m ρ c (Proc.devRef .tc main_arg9) from rfl,
    hagg, hb, ha, args7 m ρ c]
  exact (ref_fused2 _ _ _ _ _ _ _ _ _).symm

/-- Region 3 leaves the reference's fourth dense stage. -/
theorem out3 (c : Dev nD) : W10 m ρ c (Proc.devRef .tc main_v78)
      = Cert.ReferenceIdeal.ReadP.val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  obtain ⟨s3, s6, s29⟩ := edges m ρ c
  obtain ⟨c3, c6, c29⟩ := carry8 m ρ c
  obtain ⟨ab, aa⟩ := args8 m ρ c
  obtain ⟨hagg, hb, ha⟩ := stretch3 m ρ c (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (c3.trans s3) (c6.trans s6) (c29.trans s29) (out2 m ρ c) ab aa
  refine (W10_arr m ρ c 4).trans ?_
  refine (region3_value (V9 m ρ) c).trans ?_
  rw [show V9 m ρ c main_v75 = W9 m ρ c (Proc.devRef .tc main_v75) from rfl,
    show V9 m ρ c main_v76 = W9 m ρ c (Proc.devRef .tc main_v76) from rfl,
    show V9 m ρ c main_v77 = W9 m ρ c (Proc.devRef .tc main_v77) from rfl,
    show V9 m ρ c main_arg12 = W9 m ρ c (Proc.devRef .tc main_arg12) from rfl,
    hagg, hb, ha, args9 m ρ c]
  exact (ref_fused3 _ _ _ _ _ _ _ _ _ _ _ _).symm

/-- Region 4 leaves the pooled sums and counts of the reference's last aggregation. -/
theorem pooled (c : Dev nD) : W12 m ρ c (Proc.devRef .tc main_v94)
      = Spec.pool (Cert.ReferenceIdeal.ReadP.val_main_v117 (F := Ideal) (m ((c : Thread nD τ).loc main_arg2))) (Cert.ReferenceIdeal.ReadP.val_main_v112 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (Cert.ReferenceIdeal.ReadP.val_main_v113 (F := Ideal) (m ((c : Thread nD τ).loc main_arg13))) := by
  obtain ⟨s3, s6, s29⟩ := edges m ρ c
  obtain ⟨c3, c6, c29⟩ := carry10 m ρ c
  obtain ⟨ab, ag⟩ := args10 m ρ c
  obtain ⟨hagg, hb, hg⟩ := stretch4 m ρ c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (c3.trans s3) (c6.trans s6) (c29.trans s29) (out3 m ρ c) ab ag
  refine (W12_arr m ρ c 3).trans ?_
  refine (region4_value (V11 m ρ) c).trans ?_
  rw [show V11 m ρ c main_v93 = W11 m ρ c (Proc.devRef .tc main_v93) from rfl,
    show V11 m ρ c main_v91 = W11 m ρ c (Proc.devRef .tc main_v91) from rfl,
    show V11 m ρ c main_v92 = W11 m ρ c (Proc.devRef .tc main_v92) from rfl,
    hg, hagg, hb]

/-- The kernel program's result is the reference's last stage at the same arguments. -/
theorem kernel_value (c : Dev nD) :
    W13 m ρ c (Proc.devRef .tc main_v100)
      = Cert.ReferenceIdeal.ReadP.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [tail_value m ρ c, pooled m ρ c]
  exact (ref_mean _ _ _ _ _ _ _ _ _ _ _ _ _ _).symm

end Cert.Bridge

end
-- ==== Proof.lean ====
/- The certificate of the graph network's kernel against its plain reference.

   Both programs take node features, an edge list and graph ids, run four graph-convolution layers (a dense
   map of every row, then the degree-normalised sum over the incoming edges, self loops included, then bias
   and PReLU) and end with the mean of the rows of each graph.  The kernel program does the dense maps and
   the pooling in five kernel regions tiled over blocks of 10000 rows, the pooling as a product with the 0/1
   matrix of "row r belongs to graph g" accumulated over the blocks; the gathers and scatters over the edges
   are host operations in both programs, the same ones.  Over the extended reals a change of float format is
   the identity, a product with a 0/1 matrix is a sum over the rows picked, and sums may be regrouped freely,
   so the two results agree for all inputs: no finiteness is used, and a graph id outside 0..63 is dropped by
   both programs. -/
import proofs.«429556_j17008070492799_2_alg».proof.Defs
import proofs.«429556_j17008070492799_2_alg».proof.Proof.Gen.Kernel
import proofs.«429556_j17008070492799_2_alg».proof.Proof.Gen.Kernel.Skeleton
import proofs.«429556_j17008070492799_2_alg».proof.Proof.Gen.Kernel.Launch
import proofs.«429556_j17008070492799_2_alg».proof.Proof.Gen.Kernel.Points
import proofs.«429556_j17008070492799_2_alg».proof.Proof.Gen.Kernel.Frame
import proofs.«429556_j17008070492799_2_alg».proof.Proof.Gen.KernelIdeal
import proofs.«429556_j17008070492799_2_alg».proof.Proof.Gen.KernelIdeal.Skeleton
import proofs.«429556_j17008070492799_2_alg».proof.Proof.Gen.KernelIdeal.Launch
import proofs.«429556_j17008070492799_2_alg».proof.Proof.Gen.KernelIdeal.Points
import proofs.«429556_j17008070492799_2_alg».proof.Proof.Gen.KernelIdeal.Frame
import proofs.«429556_j17008070492799_2_alg».proof.Proof.Gen.ReferenceIdeal
import proofs.«429556_j17008070492799_2_alg».proof.Proof.Gen.Pre_finite_inputs
import Idealize.ShloMosaic.Adequacy
import Idealize.ShloMosaic.Init
import proofs.«429556_j17008070492799_2_alg».proof.Proof.KRun
import proofs.«429556_j17008070492799_2_alg».proof.Proof.RefRun
import proofs.«429556_j17008070492799_2_alg».proof.Proof.RefRead
import proofs.«429556_j17008070492799_2_alg».proof.Proof.Bridge

noncomputable section

namespace Cert.Proof

open Idealize.ShloMosaic Idealize.SL.Sem Idealize.ShloMosaic.TcCoe

/-- The certificate.  The two kernel frames are the generated ones; the reference's frame is its run with the
    result dropped; nothing was rewritten between the word-level kernel and its idealization; and at the extended
    reals both programs end with the reference's last stage at the shared arguments. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  fun m ρ m' ρ' _ hagree =>
    ⟨fun c => Cert.ReferenceIdeal.ReadP.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
      (θ_run Cert.KernelIdeal.defs _ _).mono (fun _ h c => ⟨(h c).1.trans (Cert.Bridge.kernel_value m ρ c), (h c).2⟩)
        (Cert.KernelIdeal.GenRun.run_main (F := Ideal) m ρ),
      (θ_run Cert.ReferenceIdeal.defs _ _).mono (fun _ h c => ⟨by
          rw [(h c).1, Cert.ReferenceIdeal.ReadP.val_main_v127_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2], (h c).2⟩)
        (Cert.ReferenceIdeal.ValueP.run (F := Ideal) m' ρ')⟩⟩

end Cert.Proof

end
